-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1376 : Shape := ⟨2, ![4096, 1376]⟩
abbrev S11008 : Shape := ⟨1, ![11008]⟩
abbrev S1x1376 : Shape := ⟨2, ![1, 1376]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S4096x1376 32) (main_arg2 : FVec F S11008 .f32) (main_arg3 : IVec S1x1376 32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S4096x1376 : Shape := ⟨2, ![4096, 1376]⟩
abbrev S11008 : Shape := ⟨1, ![11008]⟩
abbrev S1x1376 : Shape := ⟨2, ![1, 1376]⟩
abbrev S1x11008 : Shape := ⟨2, ![1, 11008]⟩
abbrev S4096x11008 : Shape := ⟨2, ![4096, 11008]⟩
abbrev S1024x128 : Shape := ⟨2, ![1024, 128]⟩
abbrev S1x128 : Shape := ⟨2, ![1, 128]⟩
abbrev S1x1024 : Shape := ⟨2, ![1, 1024]⟩
abbrev S1024x1024 : Shape := ⟨2, ![1024, 1024]⟩
abbrev S1024x128x1 : Shape := ⟨3, ![1024, 128, 1]⟩
abbrev S1024x128x8 : Shape := ⟨3, ![1024, 128, 8]⟩
abbrev S1x128x1 : Shape := ⟨3, ![1, 128, 1]⟩
abbrev S1x128x8 : Shape := ⟨3, ![1, 128, 8]⟩
abbrev S8192x4096 : Shape := ⟨2, ![8192, 4096]⟩
abbrev S8192x11008 : Shape := ⟨2, ![8192, 11008]⟩
abbrev S1024x512 : Shape := ⟨2, ![1024, 512]⟩
abbrev S512x1024 : Shape := ⟨2, ![512, 1024]⟩
abbrev S4x2048x11008 : Shape := ⟨3, ![4, 2048, 11008]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x1376, .i32⟩
  | .hbm, ⟨2, _⟩ => ⟨S11008, .f32⟩
  | .hbm, ⟨3, _⟩ => ⟨S1x1376, .i32⟩
  | .hbm, ⟨4, _⟩ => ⟨S11008, .f32⟩
  | .hbm, ⟨5, _⟩ => ⟨S1x11008, .f32⟩
  | .hbm, ⟨6, _⟩ => ⟨S4096x11008, .bf16⟩
  | .hbm, ⟨7, _⟩ => ⟨S4x2048x4096, .bf16⟩
  | .hbm, ⟨8, _⟩ => ⟨S8192x4096, .bf16⟩
  | .hbm, ⟨9, _⟩ => ⟨S1x11008, .f32⟩
  | .hbm, ⟨10, _⟩ => ⟨S8192x11008, .f32⟩
  | .hbm, ⟨11, _⟩ => ⟨S4x2048x11008, .f32⟩
  | .local _ .vmem, ⟨0, _⟩ => ⟨S1024x128, .i32⟩
  | .local _ .vmem, ⟨1, _⟩ => ⟨S1024x128, .i32⟩
  | .local _ .vmem, ⟨2, _⟩ => ⟨S1x128, .i32⟩
  | .local _ .vmem, ⟨3, _⟩ => ⟨S1x128, .i32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 11, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S11008_S1x11008 : S11008.ShapeCasts S1x11008
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x128_S1024x128x1 : S1024x128.ShapeCasts S1024x128x1
  concatenates_S1024x128x1_S1024x128x1_S1024x128x1_S1024x128x1_S1024x128x1_S1024x128x1_S1024x128x1_S1024x128x1_S1024x128x8_d2 : Shape.Concatenates [S1024x128x1, S1024x128x1, S1024x128x1, S1024x128x1, S1024x128x1, S1024x128x1, S1024x128x1, S1024x128x1] S1024x128x8 2
  shapeCasts_S1024x128x8_S1024x1024 : S1024x128x8.ShapeCasts S1024x1024
  shapeCasts_S1x128_S1x128x1 : S1x128.ShapeCasts S1x128x1
  concatenates_S1x128x1_S1x128x1_S1x128x1_S1x128x1_S1x128x1_S1x128x1_S1x128x1_S1x128x1_S1x128x8_d2 : Shape.Concatenates [S1x128x1, S1x128x1, S1x128x1, S1x128x1, S1x128x1, S1x128x1, S1x128x1, S1x128x1] S1x128x8 2
  shapeCasts_S1x128x8_S1x1024 : S1x128x8.ShapeCasts S1x1024
  broadcasts_S1x1024_S1024x1024 : S1x1024.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x11008_S4x2048x11008 : S8192x11008.ShapeCasts S4x2048x11008
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x128.size a < S4096x1376.size a
  hwx0_0 : ∀ i : grid0.Coords, EltTy.bits .i32 = 32 ∨ (Rect.unit (s := S4096x1376) (fun a => cc0_transform_0 i a * S1024x128.size a) (fun a => (Pipeline.Clip.of (cc0_transform_0 i a) (S1024x128.size a) (S4096x1376.size a)).extent (S1024x128.size a)) fun a => Pipeline.Clip.inb (Pipeline.Clip.ok_of (hstart0_0 i a))).WholeWords (EltTy.packing .i32)
  hwxs0_0 : ∀ i : grid0.Coords, EltTy.bits .i32 = 32 ∨ (Rect.unit (s := S1024x128) (fun _ => 0) (fun a => (Pipeline.Clip.of (cc0_transform_0 i a) (S1024x128.size a) (S4096x1376.size a)).extent (S1024x128.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x128.size a < S1x1376.size a
  hwx0_1 : ∀ i : grid0.Coords, EltTy.bits .i32 = 32 ∨ (Rect.unit (s := S1x1376) (fun a => cc0_transform_1 i a * S1x128.size a) (fun a => (Pipeline.Clip.of (cc0_transform_1 i a) (S1x128.size a) (S1x1376.size a)).extent (S1x128.size a)) fun a => Pipeline.Clip.inb (Pipeline.Clip.ok_of (hstart0_1 i a))).WholeWords (EltTy.packing .i32)
  hwxs0_1 : ∀ i : grid0.Coords, EltTy.bits .i32 = 32 ∨ (Rect.unit (s := S1x128) (fun _ => 0) (fun a => (Pipeline.Clip.of (cc0_transform_1 i a) (S1x128.size a) (S1x1376.size a)).extent (S1x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x11008.size a
  hwx0_2 : ∀ i : grid0.Coords, EltTy.bits .f32 = 32 ∨ (Rect.unit (s := S1x11008) (fun a => cc0_transform_2 i a * S1x1024.size a) (fun a => (Pipeline.Clip.of (cc0_transform_2 i a) (S1x1024.size a) (S1x11008.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x11008.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S4096x11008.size a
  hwx0_3 : ∀ i : grid0.Coords, EltTy.bits .bf16 = 32 ∨ (Rect.unit (s := S4096x11008) (fun a => cc0_transform_3 i a * S1024x1024.size a) (fun a => (Pipeline.Clip.of (cc0_transform_3 i a) (S1024x1024.size a) (S4096x11008.size a)).extent (S1024x1024.size a)) fun a => Pipeline.Clip.inb (Pipeline.Clip.ok_of (hstart0_3 i a))).WholeWords (EltTy.packing .bf16)
  hwxs0_3 : ∀ i : grid0.Coords, EltTy.bits .bf16 = 32 ∨ (Rect.unit (s := S1024x1024) (fun _ => 0) (fun a => (Pipeline.Clip.of (cc0_transform_3 i a) (S1024x1024.size a) (S4096x11008.size a)).extent (S1024x1024.size a)) fun a => (Nat.zero_add _).trans_le (Pipeline.Clip.extent_le (Pipeline.Clip.ok_of (hstart0_3 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x1024.size a < S4096x11008.size a
  hwx1_1 : ∀ i : grid1.Coords, EltTy.bits .bf16 = 32 ∨ (Rect.unit (s := S4096x11008) (fun a => cc1_transform_1 i a * S512x1024.size a) (fun a => (Pipeline.Clip.of (cc1_transform_1 i a) (S512x1024.size a) (S4096x11008.size a)).extent (S512x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S512x1024) (fun _ => 0) (fun a => (Pipeline.Clip.of (cc1_transform_1 i a) (S512x1024.size a) (S4096x11008.size a)).extent (S512x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1024.size a < S1x11008.size a
  hwx1_2 : ∀ i : grid1.Coords, EltTy.bits .f32 = 32 ∨ (Rect.unit (s := S1x11008) (fun a => cc1_transform_2 i a * S1x1024.size a) (fun a => (Pipeline.Clip.of (cc1_transform_2 i a) (S1x1024.size a) (S1x11008.size a)).extent (S1x1024.size a)) fun a => Pipeline.Clip.inb (Pipeline.Clip.ok_of (hstart1_2 i a))).WholeWords (EltTy.packing .f32)
  hwxs1_2 : ∀ i : grid1.Coords, EltTy.bits .f32 = 32 ∨ (Rect.unit (s := S1x1024) (fun _ => 0) (fun a => (Pipeline.Clip.of (cc1_transform_2 i a) (S1x1024.size a) (S1x11008.size a)).extent (S1x1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1024.size a < S8192x11008.size a
  hwx1_3 : ∀ i : grid1.Coords, EltTy.bits .f32 = 32 ∨ (Rect.unit (s := S8192x11008) (fun a => cc1_transform_3 i a * S1024x1024.size a) (fun a => (Pipeline.Clip.of (cc1_transform_3 i a) (S1024x1024.size a) (S8192x11008.size a)).extent (S1024x1024.size a)) fun a => Pipeline.Clip.inb (Pipeline.Clip.ok_of (hstart1_3 i a))).WholeWords (EltTy.packing .f32)
  hwxs1_3 : ∀ i : grid1.Coords, EltTy.bits .f32 = 32 ∨ (Rect.unit (s := S1024x1024) (fun _ => 0) (fun a => (Pipeline.Clip.of (cc1_transform_3 i a) (S1024x1024.size a) (S8192x11008.size a)).extent (S1024x1024.size a)) fun a => (Nat.zero_add _).trans_le (Pipeline.Clip.extent_le (Pipeline.Clip.ok_of (hstart1_3 i a)))).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpecClip (Memref.whole main_arg1) S1024x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S1x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v1) S512x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v4) S1x1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S1024x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x1376 : Shape := ⟨2, ![4096, 1376]⟩
abbrev S11008 : Shape := ⟨1, ![11008]⟩
abbrev S1x1376 : Shape := ⟨2, ![1, 1376]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S1x1376x1 : Shape := ⟨3, ![1, 1376, 1]⟩
abbrev S1x1376x8 : Shape := ⟨3, ![1, 1376, 8]⟩
abbrev S1x11008 : Shape := ⟨2, ![1, 11008]⟩
abbrev S4x2048x11008 : Shape := ⟨3, ![4, 2048, 11008]⟩
abbrev S1x1x11008 : Shape := ⟨3, ![1, 1, 11008]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1376, .i32⟩
  | .hbm, ⟨2, _⟩ => ⟨S11008, .f32⟩
  | .hbm, ⟨3, _⟩ => ⟨S1x1376, .i32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x1376x1, .i32⟩
  | .hbm, ⟨10, _⟩ => ⟨S1x1x8, .i32⟩
  | .hbm, ⟨11, _⟩ => ⟨S4096x1376x8, .i32⟩
  | .hbm, ⟨12, _⟩ => ⟨S4096x1376x8, .i32⟩
  | .hbm, ⟨13, _⟩ => ⟨S4096x1376x8, .i32⟩
  | .hbm, ⟨14, _⟩ => ⟨S_, .i32⟩
  | .hbm, ⟨15, _⟩ => ⟨S4096x1376x8, .i32⟩
  | .hbm, ⟨16, _⟩ => ⟨S4096x1376x8, .i32⟩
  | .hbm, ⟨17, _⟩ => ⟨S4096x11008, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S1x1376x1, .i32⟩
  | .hbm, ⟨23, _⟩ => ⟨S1x1x8, .i32⟩
  | .hbm, ⟨24, _⟩ => ⟨S1x1376x8, .i32⟩
  | .hbm, ⟨25, _⟩ => ⟨S1x1376x8, .i32⟩
  | .hbm, ⟨26, _⟩ => ⟨S1x1376x8, .i32⟩
  | .hbm, ⟨27, _⟩ => ⟨S_, .i32⟩
  | .hbm, ⟨28, _⟩ => ⟨S1x1376x8, .i32⟩
  | .hbm, ⟨29, _⟩ => ⟨S1x1376x8, .i32⟩
  | .hbm, ⟨30, _⟩ => ⟨S1x11008, .i32⟩
  | .hbm, ⟨31, _⟩ => ⟨S11008, .i32⟩
  | .hbm, ⟨32, _⟩ => ⟨S1x11008, .i32⟩
  | .hbm, ⟨33, _⟩ => ⟨S4096x11008, .i32⟩
  | .hbm, ⟨34, _⟩ => ⟨S4096x11008, .i32⟩
  | .hbm, ⟨35, _⟩ => ⟨S4096x11008, .f32⟩
  | .hbm, ⟨36, _⟩ => ⟨S1x11008, .f32⟩
  | .hbm, ⟨37, _⟩ => ⟨S4096x11008, .f32⟩
  | .hbm, ⟨38, _⟩ => ⟨S4096x11008, .f32⟩
  | .hbm, ⟨39, _⟩ => ⟨S4x2048x11008, .f32⟩
  | .hbm, ⟨40, _⟩ => ⟨S1x1x11008, .f32⟩
  | .hbm, ⟨41, _⟩ => ⟨S4x2048x11008, .f32⟩
  | .hbm, ⟨42, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S1x1376_S1x1376x1_0_1 : S1x1376.BroadcastsInDim S1x1376x1 (![0, 1] : Fin 2 → Fin S1x1376x1.rank)
  bcast_S1x1376x1_S1x1376x8_0_1_2 : S1x1376x1.BroadcastsInDim S1x1376x8 (![0, 1, 2] : Fin 3 → Fin S1x1376x8.rank)
  bcast_S1x1x8_S1x1376x8_0_1_2 : S1x1x8.BroadcastsInDim S1x1376x8 (![0, 1, 2] : Fin 3 → Fin S1x1376x8.rank)
  bcast_S_S1x1376x8 : S_.BroadcastsInDim S1x1376x8 (![] : Fin 0 → Fin S1x1376x8.rank)
  shapeCasts_S1x1376x8_S1x11008 : S1x1376x8.ShapeCasts S1x11008
  shapeCasts_S1x11008_S11008 : S1x11008.ShapeCasts S11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S4096x11008_S4x2048x11008_2_0_01_1_n_n_wf : DotDims.WF S4x2048x4096 S4096x11008 S4x2048x11008 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf

class Facts : Prop extends Facts₀ where

variable [Facts]
-- ==== Proof.Spec.lean ====
/-
  The specification both programs are compared with, over the extended reals, index by index.
  A packed 32-bit word holds eight 4-bit fields; field `f` is the word shifted right (arithmetically) by `4 f` and masked
  with 15. The dequantised weight at row `k`, column `n` is field `n % 8` of the packed weight word `(k, n / 8)` less the
  same field of the packed zero-point word `n / 8` (a 32-bit difference, read signed), times the column's scale. The
  result at `(b, s, n)` is the sum over the 4096 rows `k` of `x (b, s, k)` times that weight, plus the column's bias.
  The kernel contracts in eight slabs of 512: the sum over `Fin 4096` is the sum over `Fin 8` of sums over `Fin 512`
  (`sum_slabs`), in any commutative monoid: no finiteness is used.
-/
import Idealize.ShloMosaic.PureOps.Ideal
import Idealize.ShloMosaic.Lib.ValueIdx
import Mathlib.Algebra.BigOperators.Fin
import Mathlib.Algebra.BigOperators.Group.Finset.Basic

noncomputable section

namespace Cert.Spec

open Idealize.ShloMosaic Idealize.ShloMosaic.ValueIdx

/-- Field `f` of a packed word. -/
def nib (wd : BitVec 32) (f : Fin 8) : BitVec 32 := (wd.sshiftRight' (BitVec.ofNat 32 (4 * f.val))) &&& 15#32

theorem div8_lt {n : Nat} (h : n < 11008) : n / 8 < 1376 := by omega
theorem mod8_lt (n : Nat) : n % 8 < 8 := Nat.mod_lt _ (by decide)

/-- The dequantised weight at row `k`, column `n`. -/
def wq (qw : (⟨2, ![4096, 1376]⟩ : Shape).Idx → BitVec 32) (qz : (⟨2, ![1, 1376]⟩ : Shape).Idx → BitVec 32)
    (sc : Fin 11008 → EReal) (k : Fin 4096) (n : Fin 11008) : EReal :=
  (((nib (qw (ix2 k ⟨n.val / 8, div8_lt n.isLt⟩)) ⟨n.val % 8, mod8_lt _⟩
      - nib (qz (ix2 (0 : Fin 1) ⟨n.val / 8, div8_lt n.isLt⟩)) ⟨n.val % 8, mod8_lt _⟩ : BitVec 32).toInt : ℝ) : EReal)
    * sc n

/-- The dequantised weight matrix. -/
def wmat (qw : (⟨2, ![4096, 1376]⟩ : Shape).Idx → BitVec 32) (qz : (⟨2, ![1, 1376]⟩ : Shape).Idx → BitVec 32)
    (sc : Fin 11008 → EReal) : (⟨2, ![4096, 11008]⟩ : Shape).Idx → EReal :=
  fun j => wq qw qz sc (j 0) (j 1)

theorem slab_lt {kt : Fin 8} {kk : Fin 512} : kt.val * 512 + kk.val < 4096 := by
  have := kt.isLt; have := kk.isLt; omega

/-- The product of a `8192 × 4096` matrix and a `4096 × 11008` one, contracted slab by slab, plus a bias row. -/
def mm (X : (⟨2, ![8192, 4096]⟩ : Shape).Idx → EReal) (Wv : (⟨2, ![4096, 11008]⟩ : Shape).Idx → EReal)
    (B : Fin 11008 → EReal) : (⟨2, ![8192, 11008]⟩ : Shape).Idx → EReal :=
  fun j => (∑ kt : Fin 8, ∑ kk : Fin 512, X (ix2 (j 0) ⟨kt.val * 512 + kk.val, slab_lt⟩) * Wv (ix2 ⟨kt.val * 512 + kk.val, slab_lt⟩ (j 1)))
    + B (j 1)

/-- The result: `x · wmat + bias`. -/
def result (x : (⟨3, ![4, 2048, 4096]⟩ : Shape).Idx → EReal) (qw : (⟨2, ![4096, 1376]⟩ : Shape).Idx → BitVec 32)
    (sc : Fin 11008 → EReal) (qz : (⟨2, ![1, 1376]⟩ : Shape).Idx → BitVec 32)
    (bias : Fin 11008 → EReal) : (⟨3, ![4, 2048, 11008]⟩ : Shape).Idx → EReal :=
  fun j => (∑ k : Fin 4096, x (ix3 (j 0) (j 1) k) * wq qw qz sc k (j 2)) + bias (j 2)

/-- A sum over 4096 indices, slab by slab. -/
theorem sum_slabs {M : Type} [AddCommMonoid M] (f : Fin 4096 → M) :
    ∑ k : Fin 4096, f k = ∑ kt : Fin 8, ∑ kk : Fin 512, f ⟨kt.val * 512 + kk.val, slab_lt⟩ := by
  rw [← Fintype.sum_prod_type']
  refine (Fintype.sum_equiv (finProdFinEquiv (m := 8) (n := 512)) _ _ ?_).symm
  rintro ⟨kt, kk⟩
  refine congrArg f (Fin.ext ?_)
  show kt.val * 512 + kk.val = kk.val + 512 * kt.val
  omega

end Cert.Spec

end
-- ==== Proof.RefValue.lean ====
/-
  The reference's result, over the extended reals, is the specification's: unpack both packed arrays (shift right by
  `4 f`, mask with 15), subtract, convert, scale, contract the 4096 rows against `x`, add the bias.
  The reshape of `[4096, 1376, 8]` to `[4096, 11008]` sends column `n` to word `n / 8`, field `n % 8`
  (`11008 = 8 · 1376`); the shift amount of field `f` is `4 f < 32`, so the shift is the arithmetic one.
-/
import proofs.«403986_j20675972563491_3_alg».proof.Defs
import proofs.«403986_j20675972563491_3_alg».proof.Proof.Gen.ReferenceIdeal.Run
import proofs.«403986_j20675972563491_3_alg».proof.Proof.Gen.ReferenceIdeal.Read
import proofs.«403986_j20675972563491_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The shift amount of field `f`: `f` times four, as a 32-bit word. -/
theorem amt_eq (f : Fin 8) : IntOp.muli (BitVec.ofNat 32 f.val) 4#32 = BitVec.ofNat 32 (4 * f.val) := by
  revert f; decide

/-- The shift amount of a field is below the word's width. -/
theorem amt_lt (f : Fin 8) : (BitVec.ofNat 32 (4 * f.val)).toNat < 32 := by
  revert f; decide

/-- A shift by a field's amount is the arithmetic shift. -/
theorem shrsi_amt (wd : BitVec 32) (f : Fin 8) :
    IntOp.shrsi .host wd (BitVec.ofNat 32 (4 * f.val)) = wd.sshiftRight' (BitVec.ofNat 32 (4 * f.val)) := by
  unfold IntOp.shrsi
  rw [if_pos (amt_lt f)]

/-- One unpacked field, as the program computes it: shift by four times the field's number, mask with 15. -/
theorem field_eq (wd : BitVec 32) (f : Fin 8) :
    IntOp.andi (IntOp.shrsi .host wd (IntOp.muli (BitVec.ofNat 32 f.val) 4#32)) 15#32 = Cert.Spec.nib wd f := by
  rw [amt_eq, shrsi_amt]; rfl

/-- The unpacked weight array at row `k`, column `n`: field `n % 8` of the packed word `(k, n / 8)`. -/
theorem v10_at (x1 : (⟨S4096x1376, .i32⟩ : BufTy).Contents (Elt Ideal)) (k : Fin 4096) (n : Fin 11008) :
    val_main_v10 (F := Ideal) x1 (ix2 k n)
      = Cert.Spec.nib (x1 (ix2 k ⟨n.val / 8, Cert.Spec.div8_lt n.isLt⟩)) ⟨n.val % 8, Cert.Spec.mod8_lt _⟩ := by
  rw [val_main_v10_apply, val_main_v9_apply, val_main_v7_apply, val_main_v5_apply, val_main_v3_apply,
    val_main_v6_apply, val_main_v4_apply, val_main_v2_apply, val_main_v0_apply, val_main_v1_apply, val_main_c_apply,
    val_main_v8_apply, val_main_c_0_apply]
  have hk := k.isLt
  have hn := n.isLt
  have e1 : idx_main_v3 (idx_main_v5 (idx_main_v10 (ix2 k n))) = ix2 k ⟨n.val / 8, Cert.Spec.div8_lt n.isLt⟩ :=
    funext fun a => Fin.ext (by
      match a with
      | ⟨0, _⟩ => show (k.val * 11008 + n.val) / 11008 = k.val; omega
      | ⟨1, _⟩ => show (k.val * 11008 + n.val) / 8 % 1376 = n.val / 8; omega)
  have e2 : (idx_main_v4 (idx_main_v6 (idx_main_v10 (ix2 k n))) 0).val
      = (⟨n.val % 8, Cert.Spec.mod8_lt _⟩ : Fin 8).val := by
    show (k.val * 11008 + n.val) % 8 = n.val % 8; omega
  rw [e1, e2]
  exact field_eq _ _

/-- The unpacked zero-point array, broadcast down the rows, at column `n`: field `n % 8` of the packed word `n / 8`. -/
theorem v24_at (x3 : (⟨S1x1376, .i32⟩ : BufTy).Contents (Elt Ideal)) (k : Fin 4096) (n : Fin 11008) :
    val_main_v24 (F := Ideal) x3 (ix2 k n)
      = Cert.Spec.nib (x3 (ix2 (0 : Fin 1) ⟨n.val / 8, Cert.Spec.div8_lt n.isLt⟩)) ⟨n.val % 8, Cert.Spec.mod8_lt _⟩ := by
  rw [val_main_v24_apply, val_main_v23_apply, val_main_v22_apply, val_main_v21_apply, val_main_v20_apply,
    val_main_v18_apply, val_main_v16_apply, val_main_v14_apply, val_main_v17_apply, val_main_v15_apply,
    val_main_v13_apply, val_main_v11_apply, val_main_v12_apply, val_main_c_1_apply, val_main_v19_apply,
    val_main_c_2_apply]
  have hn := n.isLt
  have e1 : idx_main_v14 (idx_main_v16 (idx_main_v21 (idx_main_v22 (idx_main_v23 (idx_main_v24 (ix2 k n))))))
      = ix2 (0 : Fin 1) ⟨n.val / 8, Cert.Spec.div8_lt n.isLt⟩ :=
    funext fun a => Fin.ext (by
      match a with
      | ⟨0, _⟩ => rfl
      | ⟨1, _⟩ => show (0 * 11008 + n.val % 11008) / 8 % 1376 = n.val / 8; omega)
  have e2 : (idx_main_v15 (idx_main_v17 (idx_main_v21 (idx_main_v22 (idx_main_v23 (idx_main_v24 (ix2 k n)))))) 0).val
      = (⟨n.val % 8, Cert.Spec.mod8_lt _⟩ : Fin 8).val := by
    show (0 * 11008 + n.val % 11008) % 8 = n.val % 8; omega
  rw [e1, e2]
  exact field_eq _ _

/-- The dequantised weight array at row `k`, column `n`. -/
theorem v29_at (x1 : (⟨S4096x1376, .i32⟩ : BufTy).Contents (Elt Ideal)) (x2 : (⟨S11008, .f32⟩ : BufTy).Contents (Elt Ideal))
    (x3 : (⟨S1x1376, .i32⟩ : BufTy).Contents (Elt Ideal)) (k : Fin 4096) (n : Fin 11008) :
    val_main_v29 (F := Ideal) x1 x2 x3 (ix2 k n) = Cert.Spec.wq x1 x3 (fun n => x2 (ix1 n)) k n := by
  rw [val_main_v29_apply, val_main_v26_apply, val_main_v25_apply, v10_at, v24_at, val_main_v28_apply,
    val_main_v27_apply]
  have e : idx_main_v27 (idx_main_v28 (ix2 k n)) = ix1 n :=
    funext fun a => Fin.ext (by match a with | ⟨0, _⟩ => rfl)
  rw [e]
  rfl

/-- The reference's last stage is the specification of its five arguments. -/
theorem ref_eq (x0 : (⟨S4x2048x4096, .f32⟩ : BufTy).Contents (Elt Ideal)) (x1 : (⟨S4096x1376, .i32⟩ : BufTy).Contents (Elt Ideal))
    (x2 : (⟨S11008, .f32⟩ : BufTy).Contents (Elt Ideal)) (x3 : (⟨S1x1376, .i32⟩ : BufTy).Contents (Elt Ideal))
    (x4 : (⟨S11008, .f32⟩ : BufTy).Contents (Elt Ideal)) :
    val_main_v33 (F := Ideal) x0 x1 x2 x3 x4
      = Cert.Spec.result x0 x1 (fun n => x2 (ix1 n)) x3 (fun n => x4 (ix1 n)) := by
  funext i
  obtain ⟨b, s, n, rfl⟩ : ∃ b s n, i = ix3 b s n := ⟨i 0, i 1, i 2, eq_ix3 i⟩
  rw [val_main_v33_apply, val_main_v30_apply, val_main_v32_apply, val_main_v31_apply]
  have e4 : idx_main_v31 (idx_main_v32 (ix3 b s n)) = ix1 n :=
    funext fun a => Fin.ext (by match a with | ⟨0, _⟩ => rfl)
  rw [e4]
  show (∑ k : Fin 4096, x0 (lidx_main_v30 (ix3 b s n) k) * val_main_v29 (F := Ideal) x1 x2 x3 (ridx_main_v30 (ix3 b s n) k))
      + x4 (ix1 n)
    = (∑ k : Fin 4096, x0 (ix3 b s k) * Cert.Spec.wq x1 x3 (fun n => x2 (ix1 n)) k n) + x4 (ix1 n)
  congr 1
  refine Finset.sum_congr rfl fun k _ => ?_
  have el : lidx_main_v30 (ix3 b s n) k = ix3 b s k :=
    funext fun a => Fin.ext (by match a with | ⟨0, _⟩ => rfl | ⟨1, _⟩ => rfl | ⟨2, _⟩ => rfl)
  have er : ridx_main_v30 (ix3 b s n) k = ix2 k n :=
    funext fun a => Fin.ext (by match a with | ⟨0, _⟩ => rfl | ⟨1, _⟩ => rfl)
  rw [el, er, v29_at]

end Cert.ReferenceIdeal.RefValue

end
-- ==== Proof.KI.Body0.lean ====
/-
  The dequantisation kernel's body as one triple, at any float instance: it loads the packed weight block, the packed
  zero-point row and the scale row, and stores into the result block one value — eight 4-bit fields of each 32-bit word
  laid side by side along the columns, the zero-point's field subtracted, the difference converted to a float, scaled by
  the column's scale and narrowed — leaving the three inputs as they were. What it stores is `out0` of what it loaded.
-/
import proofs.«403986_j20675972563491_3_alg».proof.Proof.Gen.KernelIdeal.Launch
import proofs.«403986_j20675972563491_3_alg».proof.Proof.Gen.KernelIdeal.Skeleton
import proofs.«403986_j20675972563491_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the body stores into the result block, from the three blocks it loads: column `8 g + f` of row `r` is field
    `f` of word `(r, g)` of the packed weights less field `f` of word `g` of the packed zero points, as a float, times
    the scale of that column, narrowed. -/
def out0 (x0 : Vec F S1024x128 .i32) (x1 : Vec F S1x128 .i32) (x2 : Vec F S1x1024 .f32) : Vec F S1024x1024 .bf16 :=
  k0_pay1 (k0_pay2 x2)
    (k0_pay11 (k0_pay3 x0) (k0_pay4 x0) (k0_pay5 x0) (k0_pay6 x0) (k0_pay7 x0) (k0_pay8 x0) (k0_pay9 x0) (k0_pay10 x0))
    (k0_pay12 x1) (k0_pay13 x1) (k0_pay14 x1) (k0_pay15 x1) (k0_pay16 x1) (k0_pay17 x1) (k0_pay18 x1) (k0_pay19 x1)

/-- One unmasked store through the rectangle of a view's whole shape at zero offsets, over any contents, reads back as
    its payload: the one piece covers every index, and under it the contents are the payload. -/
private theorem read_write_unit_zero {Val : EltTy → Type} [∀ e, Nonempty (Val e)] {sig' : RefSig} {κ : Kind} {sp : Space}
    {S : Shape} {e : EltTy} (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- The body on whole staging memrefs, the three inputs' at contents `x0 x1 x2` and the result's at anything, runs to the
    continuation holding the inputs' as they were and the result's at `out0 x0 x1 x2`. -/
theorem sound_kernel0 (c : Dev nD) (E : Set ℕ) (i : grid0.Coords)
    (arg2 : Memref sig .tc .vmem S1024x128 .i32) (harg2 : arg2.IsWhole) (arg3 : Memref sig .tc .vmem S1x128 .i32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x128 .i32) (x1 : Vec F S1x128 .i32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d : Vec F S1024x1024 .bf16, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out0 x0 x1 x2)) -∗ K ⟨⟩))
      ⊢ wp frame (wpE (defs₀ (F := F)) Variants.none c none) E (cc0__dequant_kernel i arg2 harg2 arg3 harg3 arg4 harg4 arg5 harg5) K := by
  -- the body is its sequence of memory operations over the named values
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- the three loads read the inputs' contents, the load of the result block reads a value nothing uses, and the one
  -- store writes the result block over whatever it held
  sl_exec
  sl_step
  iapply Hk
  -- the inputs are handed back at the contents they came with
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store is through the whole block at offsets zero, so the block reads back as the stored value;
  have hz : (![0, 0] : Fin 2 → Nat) = fun _ => 0 := funext fun a => by fin_cases a <;> rfl
  refine (read_write_unit_zero (S := S1024x1024) arg5.view f3 hz inb_S1024x1024_S1024x1024_0_0 _).trans ?_
  -- each load is through its whole block at offsets zero as well, so it reads the block's contents;
  have hr0 : ∀ inb, arg2.view.readAt (Elt F) (Rect.unit (s := S1024x128) ![0, 0] S1024x128.size inb).toLoadRect f0
      = arg2.view.read (Elt F) f0 := fun inb => View.ld_unit_zero (S := S1024x128) hz inb _
  have hr1 : ∀ inb, arg3.view.readAt (Elt F) (Rect.unit (s := S1x128) ![0, 0] S1x128.size inb).toLoadRect f1
      = arg3.view.read (Elt F) f1 := fun inb => View.ld_unit_zero (S := S1x128) hz inb _
  have hr2 : ∀ inb, arg4.view.readAt (Elt F) (Rect.unit (s := S1x1024) ![0, 0] S1x1024.size inb).toLoadRect f2
      = arg4.view.read (Elt F) f2 := fun inb => View.ld_unit_zero (S := S1x1024) hz inb _
  -- and the stored value, computed from the three loaded blocks, is `out0` of them term for term
  sl_unfold_words
  rw [hr0, hr1, hr2]
  rfl

end Cert.KernelIdeal.Hand

end
-- ==== Proof.KI.Dat0.lean ====
/-
  Region 0 (the dequantisation call) as proof data, at any float instance, from the buffer contents `V` the region is
  entered at. Every window's blocks may overhang its array along the columns (the last of the eleven column blocks covers
  768 of its 1024 columns; 96 of 128 for the packed windows), so a staging buffer holds the array's block on the part a
  transfer moves and words nothing names past it. The body is column-wise: column `n` of the result block reads column
  `n / 8` of the packed blocks and column `n` of the scale block, and `n` lies in the moved part of the result's block
  exactly when `n / 8` lies in the packed blocks' (8 · 96 = 768). So the moved part of what the body stores is a function of
  the moved parts of what it loads, which is all the obligation of an overhanging window states.
-/
import proofs.«403986_j20675972563491_3_alg».proof.Proof.KI.Body0
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The result block read at an index -/

/-- Field `f` of a packed word: its bits `4 f` to `4 f + 3`. -/
def fld0 (f : Nat) (w : BitVec 32) : BitVec 32 :=
  IntOp.andi (IntOp.shrsi .vector w (BitVec.ofNat 32 (4 * f))) 15#32

/-- One element of the result, column `n`, from the packed weight word, the packed zero-point word and the scale it reads. -/
def deq0 (w z : BitVec 32) (s : F .f32) (n : Nat) : F .bf16 :=
  FloatOps.truncf .bf16 bitsLt_bf16_f32 (FloatOps.mulf (FloatOps.sitofp .f32 (IntOp.subi (fld0 (n % 8) w) (fld0 (n % 8) z))) s)

/-- Eight arrays of one column each per group, laid side by side along a last axis of eight and the two last axes then
    merged: column `n` of the result is array `n % 8` at group `n / 8`. -/
theorem fields_apply {α : Type} {R : Nat} (P : Fin 8 → ((⟨3, ![R, 128, 1]⟩ : Shape).Idx → α))
    (hc : Shape.Concatenates ((List.ofFn fun k : Fin 8 => (⟨⟨3, ![R, 128, 1]⟩, P k⟩ : (s : Shape) × (s.Idx → α))).map (·.1)) ⟨3, ![R, 128, 8]⟩ (2 : Fin 3))
    (hs : (⟨3, ![R, 128, 8]⟩ : Shape).ShapeCasts ⟨2, ![R, 1024]⟩) (r : Fin R) (n : Fin 1024) :
    shapeCast ⟨2, ![R, 1024]⟩ (concatenate ⟨3, ![R, 128, 8]⟩ (2 : Fin 3) (List.ofFn fun k : Fin 8 => (⟨⟨3, ![R, 128, 1]⟩, P k⟩ : (s : Shape) × (s.Idx → α))) hc) hs (ix2 r n)
      = P ⟨n.val % 8, Nat.mod_lt _ (by decide)⟩ (ix3 r ⟨n.val / 8, by omega⟩ (0 : Fin 1)) := by
  refine (shapeCast_apply _ hs (ix2 r n) (ix3 r (⟨n.val / 8, by omega⟩ : Fin 128) (⟨n.val % 8, Nat.mod_lt _ (by decide)⟩ : Fin 8)) ?_).trans ?_
  · rw [Shape.rowMajor_val_three, Shape.rowMajor_val_two]
    show (r.val * 128 + n.val / 8) * 8 + n.val % 8 = r.val * 1024 + n.val
    omega
  · refine concatenate_ofFn_unit_apply (t := ⟨3, ![R, 128, 8]⟩) (s₁ := ⟨3, ![R, 128, 1]⟩) (2 : Fin 3) P hc rfl rfl
      (ix3 r (⟨n.val / 8, by omega⟩ : Fin 128) (⟨n.val % 8, Nat.mod_lt _ (by decide)⟩ : Fin 8)) ⟨n.val % 8, Nat.mod_lt _ (by decide)⟩ rfl
      (ix3 r (⟨n.val / 8, by omega⟩ : Fin 128) (0 : Fin 1)) fun b => ?_
    match b with
    | ⟨0, _⟩ => exact fun _ => rfl
    | ⟨1, _⟩ => exact fun _ => rfl
    | ⟨2, _⟩ => exact fun h => absurd rfl h

/-- The eight fields of the packed weight block, each as an array of one column per word. -/
def wfld (x0 : Vec F S1024x128 .i32) (k : Fin 8) : IVec S1024x128x1 32 :=
  shapeCast S1024x128x1 (andi (shrsi x0 (broadcast S1024x128 (BitVec.ofNat 32 (4 * k.val)))) (broadcast S1024x128 15#32))
    shapeCasts_S1024x128_S1024x128x1

/-- The eight fields of the packed zero-point row, likewise. -/
def zfld (x1 : Vec F S1x128 .i32) (k : Fin 8) : IVec S1x128x1 32 :=
  shapeCast S1x128x1 (andi (shrsi x1 (broadcast S1x128 (BitVec.ofNat 32 (4 * k.val)))) (broadcast S1x128 15#32))
    shapeCasts_S1x128_S1x128x1

/-- The unpacked weights at row `r`, column `n`: field `n % 8` of word `(r, n / 8)`. -/
theorem wts_apply (x0 : Vec F S1024x128 .i32) (r : Fin 1024) (n : Fin 1024) :
    k0_pay11 (k0_pay3 x0) (k0_pay4 x0) (k0_pay5 x0) (k0_pay6 x0) (k0_pay7 x0) (k0_pay8 x0) (k0_pay9 x0) (k0_pay10 x0) (ix2 r n)
      = fld0 (n.val % 8) (x0 (ix2 r ⟨n.val / 8, by omega⟩)) := by
  refine (fields_apply (R := 1024) (wfld x0) concatenates_S1024x128x1_S1024x128x1_S1024x128x1_S1024x128x1_S1024x128x1_S1024x128x1_S1024x128x1_S1024x128x1_S1024x128x8_d2 shapeCasts_S1024x128x8_S1024x1024 r n).trans ?_
  unfold wfld
  refine (shapeCast_apply _ shapeCasts_S1024x128_S1024x128x1 (ix3 r (⟨n.val / 8, by omega⟩ : Fin 128) (0 : Fin 1))
    (ix2 r (⟨n.val / 8, by omega⟩ : Fin 128)) ?_).trans rfl
  rw [Shape.rowMajor_val_three, Shape.rowMajor_val_two]
  show r.val * 128 + n.val / 8 = (r.val * 128 + n.val / 8) * 1 + 0
  omega

/-- The unpacked zero points at column `n`: field `n % 8` of word `n / 8`. -/
theorem zps_apply (x1 : Vec F S1x128 .i32) (n : Fin 1024) :
    shapeCast S1x1024 (concatenate S1x128x8 2 (List.ofFn fun k : Fin 8 => (⟨S1x128x1, zfld x1 k⟩ : (s : Shape) × (s.Idx → BitVec 32)))
        concatenates_S1x128x1_S1x128x1_S1x128x1_S1x128x1_S1x128x1_S1x128x1_S1x128x1_S1x128x1_S1x128x8_d2) shapeCasts_S1x128x8_S1x1024 (ix2 (0 : Fin 1) n)
      = fld0 (n.val % 8) (x1 (ix2 (0 : Fin 1) ⟨n.val / 8, by omega⟩)) := by
  refine (fields_apply (R := 1) (zfld x1) concatenates_S1x128x1_S1x128x1_S1x128x1_S1x128x1_S1x128x1_S1x128x1_S1x128x1_S1x128x1_S1x128x8_d2 shapeCasts_S1x128x8_S1x1024 (0 : Fin 1) n).trans ?_
  unfold zfld
  refine (shapeCast_apply _ shapeCasts_S1x128_S1x128x1 (ix3 (0 : Fin 1) (⟨n.val / 8, by omega⟩ : Fin 128) (0 : Fin 1))
    (ix2 (0 : Fin 1) (⟨n.val / 8, by omega⟩ : Fin 128)) ?_).trans rfl
  rw [Shape.rowMajor_val_three, Shape.rowMajor_val_two]
  show (0 : Fin 1).val * 128 + n.val / 8 = ((0 : Fin 1).val * 128 + n.val / 8) * 1 + 0
  omega

/-- **The result block read at an index**: row `r`, column `n` is `deq0` of word `(r, n / 8)` of the packed weights, word
    `n / 8` of the packed zero points and scale `n`. -/
theorem out0_apply (x0 : Vec F S1024x128 .i32) (x1 : Vec F S1x128 .i32) (x2 : Vec F S1x1024 .f32) (r : Fin 1024) (n : Fin 1024) :
    out0 x0 x1 x2 (ix2 r n)
      = deq0 (x0 (ix2 r ⟨n.val / 8, by omega⟩)) (x1 (ix2 (0 : Fin 1) ⟨n.val / 8, by omega⟩)) (x2 (ix2 (0 : Fin 1) n)) n.val := by
  have hA := wts_apply x0 r n
  have hB : broadcastTo S1024x1024 (shapeCast S1x1024 (concatenate S1x128x8 2
        (List.ofFn fun k : Fin 8 => (⟨S1x128x1, zfld x1 k⟩ : (s : Shape) × (s.Idx → BitVec 32))) concatenates_S1x128x1_S1x128x1_S1x128x1_S1x128x1_S1x128x1_S1x128x1_S1x128x1_S1x128x1_S1x128x8_d2)
        shapeCasts_S1x128x8_S1x1024) broadcasts_S1x1024_S1024x1024 (ix2 r n)
      = fld0 (n.val % 8) (x1 (ix2 (0 : Fin 1) ⟨n.val / 8, by omega⟩)) :=
    (broadcastTo_1b_ab_apply _ broadcasts_S1x1024_S1024x1024 r n).trans (zps_apply x1 n)
  have hC : broadcastTo S1024x1024 (k0_pay2 x2) broadcasts_S1x1024_S1024x1024 (ix2 r n) = x2 (ix2 (0 : Fin 1) n) :=
    (broadcastTo_1b_ab_apply _ broadcasts_S1x1024_S1024x1024 r n).trans (congrFun (shapeCast_self x2 shapeCasts_S1x1024_S1x1024) _)
  show FloatOps.truncf .bf16 bitsLt_bf16_f32 (FloatOps.mulf (FloatOps.sitofp .f32 (IntOp.subi
      (k0_pay11 (k0_pay3 x0) (k0_pay4 x0) (k0_pay5 x0) (k0_pay6 x0) (k0_pay7 x0) (k0_pay8 x0) (k0_pay9 x0) (k0_pay10 x0) (ix2 r n))
      (broadcastTo S1024x1024 (shapeCast S1x1024 (concatenate S1x128x8 2
        (List.ofFn fun k : Fin 8 => (⟨S1x128x1, zfld x1 k⟩ : (s : Shape) × (s.Idx → BitVec 32))) concatenates_S1x128x1_S1x128x1_S1x128x1_S1x128x1_S1x128x1_S1x128x1_S1x128x1_S1x128x1_S1x128x8_d2)
        shapeCasts_S1x128x8_S1x1024) broadcasts_S1x1024_S1024x1024 (ix2 r n))))
      (broadcastTo S1024x1024 (k0_pay2 x2) broadcasts_S1x1024_S1024x1024 (ix2 r n))) = _
  rw [hA, hB, hC]
  rfl

/-! ## The moved parts -/

/-- What the transfers move, at every setting of the coordinates: rows are never cut; the result's block is cut to as many
    columns as the scale block, which is eight times as many as the packed blocks'. -/
theorem xsizes0 : ∀ i : grid0.Coords,
    win0_3.xsize i (0 : Fin 2) = 1024 ∧ win0_0.xsize i (0 : Fin 2) = 1024 ∧ win0_1.xsize i (0 : Fin 2) = 1 ∧ win0_2.xsize i (0 : Fin 2) = 1
      ∧ win0_3.xsize i (1 : Fin 2) = 8 * win0_0.xsize i (1 : Fin 2) ∧ win0_1.xsize i (1 : Fin 2) = win0_0.xsize i (1 : Fin 2)
      ∧ win0_2.xsize i (1 : Fin 2) = win0_3.xsize i (1 : Fin 2) := by
  decide +kernel

/-- Contents of a block that agree on the part a transfer moves agree at every index of that part. -/
theorem eq_of_cut_eq {G : Pipeline.Grid} (w : Window sig G) {α : Type} (i : G.Coords) {X Y : w.block.Idx → α}
    (h : w.cut i X = w.cut i Y) (k : w.block.Idx) (hk : ∀ a, (k a).val < w.xsize i a) : X k = Y k :=
  congrFun h fun a => ⟨(k a).val, hk a⟩

/-- **The moved part of what the body stores is a function of the moved parts of what it loads**: column `n` of the result
    block reads column `n / 8` of the packed blocks and column `n` of the scale block, and lies in the moved part of its block
    exactly when those do in theirs. -/
theorem out0_cut_congr (i : grid0.Coords) {X0 X0' : Vec F S1024x128 .i32} {X1 X1' : Vec F S1x128 .i32} {X2 X2' : Vec F S1x1024 .f32}
    (h0 : win0_0.cut i X0 = win0_0.cut i X0') (h1 : win0_1.cut i X1 = win0_1.cut i X1') (h2 : win0_2.cut i X2 = win0_2.cut i X2') :
    win0_3.cut i (out0 X0 X1 X2) = win0_3.cut i (out0 X0' X1' X2') := by
  funext j
  obtain ⟨e30, e00, e10, e20, e31, e11, e21⟩ := xsizes0 i
  have l0 : (j (0 : Fin 2)).val < win0_3.xsize i (0 : Fin 2) := (j (0 : Fin 2)).isLt
  have l1 : (j (1 : Fin 2)).val < win0_3.xsize i (1 : Fin 2) := (j (1 : Fin 2)).isLt
  have u1 : win0_3.xsize i (1 : Fin 2) ≤ 1024 := win0_3.xsize_le i (1 : Fin 2)
  obtain ⟨r, n, hj, hr, hn⟩ : ∃ (r n : Fin 1024), win0_3.xinj i j = ix2 r n ∧ r.val = (j (0 : Fin 2)).val ∧ n.val = (j (1 : Fin 2)).val :=
    ⟨⟨(j (0 : Fin 2)).val, by omega⟩, ⟨(j (1 : Fin 2)).val, by omega⟩,
      funext fun a => match a with | ⟨0, _⟩ => rfl | ⟨1, _⟩ => rfl, rfl, rfl⟩
  show out0 X0 X1 X2 (win0_3.xinj i j) = out0 X0' X1' X2' (win0_3.xinj i j)
  have a0 : X0 (ix2 r (⟨n.val / 8, by omega⟩ : Fin 128)) = X0' (ix2 r (⟨n.val / 8, by omega⟩ : Fin 128)) :=
    eq_of_cut_eq win0_0 i h0 _ fun a => match a with
      | ⟨0, _⟩ => by show r.val < win0_0.xsize i (0 : Fin 2); omega
      | ⟨1, _⟩ => by show n.val / 8 < win0_0.xsize i (1 : Fin 2); omega
  have a1 : X1 (ix2 (0 : Fin 1) (⟨n.val / 8, by omega⟩ : Fin 128)) = X1' (ix2 (0 : Fin 1) (⟨n.val / 8, by omega⟩ : Fin 128)) :=
    eq_of_cut_eq win0_1 i h1 _ fun a => match a with
      | ⟨0, _⟩ => by show (0 : Fin 1).val < win0_1.xsize i (0 : Fin 2); rw [e10]; exact Nat.one_pos
      | ⟨1, _⟩ => by show n.val / 8 < win0_1.xsize i (1 : Fin 2); omega
  have a2 : X2 (ix2 (0 : Fin 1) n) = X2' (ix2 (0 : Fin 1) n) :=
    eq_of_cut_eq win0_2 i h2 _ fun a => match a with
      | ⟨0, _⟩ => by show (0 : Fin 1).val < win0_2.xsize i (0 : Fin 2); rw [e20]; exact Nat.one_pos
      | ⟨1, _⟩ => by show n.val < win0_2.xsize i (1 : Fin 2); omega
  rw [hj, out0_apply, out0_apply, a0, a1, a2]

/-! ## The proof data -/

variable (V : (c : Dev nD) → (b : Ref sig .tc) → Buf (Elt F) ((c : Thread nD τ).loc b))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- That block filled out to the staging buffer's shape with a word nothing reads. -/
def pblk0 (c : Dev nD) (w : Fin cfg0.W) (t : Fin cfg0.N) : (cfg0.win w).block.Idx → Elt F (cfg0.win w).elt :=
  (cfg0.win w).fill (cfg0.grid.coords t) (fun _ => Classical.arbitrary _) (iblk0 V c w t)

/-- The proof data: the arrays as entered; after the body each input's buffer at its block and the result's at `out0` of
    the three (each stated, the windows being loose, on the moved part only); the scoped rest and the generator register
    as invariant; nothing owed; full shares. -/
def dat0 (c : Dev nD) : Dat τ (Elt F) Unit ℕ (UR sig nD τ) ℕ cfg0 c where
  A w := V c (Pipeline.arrRef spec0 w)
  after w t := match w with
    | ⟨0, _⟩ => pblk0 V c 0 t
    | ⟨1, _⟩ => pblk0 V c 1 t
    | ⟨2, _⟩ => pblk0 V c 2 t
    | ⟨3, _⟩ => out0 (pblk0 V c 0 t) (pblk0 V c 1 t) (pblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0 (pblk0 V c 0 t) (pblk0 V c 1 t) (pblk0 V c 2 t) := by dsimp only [dat0]

/-! ## The body obligation -/

/-- The inputs' windows keep their blocks as `dat0` states them. -/
theorem after0_0 (c : Dev nD) (t : Fin cfg0.N) : (dat0 V c).after (0 : Fin 4) t = pblk0 V c 0 t := by dsimp only [dat0]
theorem after0_1 (c : Dev nD) (t : Fin cfg0.N) : (dat0 V c).after (1 : Fin 4) t = pblk0 V c 1 t := by dsimp only [dat0]
theorem after0_2 (c : Dev nD) (t : Fin cfg0.N) : (dat0 V c).after (2 : Fin 4) t = pblk0 V c 2 t := by dsimp only [dat0]

/-- The result's window is an output: never fetched. -/
theorem fetch0_3 (t : Fin cfg0.N) : (cfg0.win (3 : Fin 4)).fetch t = false := rfl

/-- What the body finds: each input's buffer just fetched — its block on the part the fetch moves, `d` elsewhere —, -/
theorem before0_0 (c : Dev nD) (t : Fin cfg0.N) (d) :
    (dat0 V c).before (0 : Fin 4) t d = (cfg0.win (0 : Fin 4)).fill (cfg0.grid.coords t) d (iblk0 V c 0 t) := by
  unfold Dat.before; rw [if_pos (fetch0_0 t)]; rfl
theorem before0_1 (c : Dev nD) (t : Fin cfg0.N) (d) :
    (dat0 V c).before (1 : Fin 4) t d = (cfg0.win (1 : Fin 4)).fill (cfg0.grid.coords t) d (iblk0 V c 1 t) := by
  unfold Dat.before; rw [if_pos (fetch0_1 t)]; rfl
theorem before0_2 (c : Dev nD) (t : Fin cfg0.N) (d) :
    (dat0 V c).before (2 : Fin 4) t d = (cfg0.win (2 : Fin 4)).fill (cfg0.grid.coords t) d (iblk0 V c 2 t) := by
  unfold Dat.before; rw [if_pos (fetch0_2 t)]; rfl
/-- and the result's at contents nothing names: at the first point what it held, afterwards what the write-back of the
    point before left. -/
theorem before0_3 (c : Dev nD) (t : Fin cfg0.N) (d) : (dat0 V c).before (3 : Fin 4) t d = d := by
  unfold Dat.before
  rw [if_neg (by rw [fetch0_3 t]; exact Bool.false_ne_true)]
  by_cases h0 : t.val = 0
  · rw [if_pos h0]
  · rw [if_neg h0]; exact if_pos (flush0_3 _)

/-- The body obligation of region 0, in the form the loop uses for overhanging windows. -/
theorem body_obligation0 (c : Dev nD) : BodyObligationLoose (dat0 (F := F) V c) (defs₀ (F := F)) Variants.none () Set.univ := fun t => by
  rw [bigSep_W0, bigSep_W0]
  -- no point is idle and every window overhangs: each buffer is handed back stated on the part its transfers move
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win (0 : Fin 4)).fill (cfg0.grid.coords t) d0 (iblk0 V c 0 t))
    ((cfg0.win (1 : Fin 4)).fill (cfg0.grid.coords t) d1 (iblk0 V c 1 t))
    ((cfg0.win (2 : Fin 4)).fill (cfg0.grid.coords t) d2 (iblk0 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  -- each input's buffer holds its block filled out with its `d`, which on the moved part is what `dat0` states of it;
  have c0 : (cfg0.win (0 : Fin 4)).cut (cfg0.grid.coords t) (pblk0 V c 0 t) = iblk0 V c 0 t := (cfg0.win (0 : Fin 4)).cut_fill _ _ _
  have c1 : (cfg0.win (1 : Fin 4)).cut (cfg0.grid.coords t) (pblk0 V c 1 t) = iblk0 V c 1 t := (cfg0.win (1 : Fin 4)).cut_fill _ _ _
  have c2 : (cfg0.win (2 : Fin 4)).cut (cfg0.grid.coords t) (pblk0 V c 2 t) = iblk0 V c 2 t := (cfg0.win (2 : Fin 4)).cut_fill _ _ _
  isplitl [H0]
  · iexists d0
    rw [after0_0 V c t, c0]; iexact H0
  isplitl [H1]
  · iexists d1
    rw [after0_1 V c t, c1]; iexact H1
  isplitl [H2]
  · iexists d2
    rw [after0_2 V c t, c2]; iexact H2
  -- the result's holds `out0` of the three, which on the moved part is `out0` of the three blocks however they are filled out
  · iexists out0 ((cfg0.win (0 : Fin 4)).fill (cfg0.grid.coords t) d0 (iblk0 V c 0 t))
      ((cfg0.win (1 : Fin 4)).fill (cfg0.grid.coords t) d1 (iblk0 V c 1 t))
      ((cfg0.win (2 : Fin 4)).fill (cfg0.grid.coords t) d2 (iblk0 V c 2 t))
    have hcut := out0_cut_congr (F := F) (grid0.coords t)
      (X0 := (cfg0.win (0 : Fin 4)).fill (cfg0.grid.coords t) d0 (iblk0 V c 0 t)) (X0' := pblk0 V c 0 t)
      (X1 := (cfg0.win (1 : Fin 4)).fill (cfg0.grid.coords t) d1 (iblk0 V c 1 t)) (X1' := pblk0 V c 1 t)
      (X2 := (cfg0.win (2 : Fin 4)).fill (cfg0.grid.coords t) d2 (iblk0 V c 2 t)) (X2' := pblk0 V c 2 t)
      (((cfg0.win (0 : Fin 4)).cut_fill _ _ _).trans c0.symm) (((cfg0.win (1 : Fin 4)).cut_fill _ _ _).trans c1.symm)
      (((cfg0.win (2 : Fin 4)).cut_fill _ _ _).trans c2.symm)
    rw [after0_3 V c t, (cfg0.win (3 : Fin 4)).fill_congr_cut (cfg0.grid.coords t) hcut]; iexact H3

end Cert.KernelIdeal.Hand

end
-- ==== Proof.KI.Body1.lean ====
/-
  The matrix-product kernel's body as one triple, at any float instance. Its grid point is `(i, j, k)`; `k` runs over the
  eight slabs of the contracted axis. The scratch block carries the running sum: at `k = 0` it is first set to zero; at
  every point the product of the point's two operand blocks is added to it; at `k = 7` the sum plus the bias row, every
  row alike, is stored into the result block, which is otherwise left as it was.
-/
import proofs.«403986_j20675972563491_3_alg».proof.Proof.Gen.KernelIdeal.Launch
import proofs.«403986_j20675972563491_3_alg».proof.Proof.Gen.KernelIdeal.Skeleton
import proofs.«403986_j20675972563491_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two conditionals, decided by the third coordinate -/

/-- The first conditional's scalar chain (compare with zero, widen, compare with zero again), over the eight values
    the third coordinate takes: it holds at zero only. -/
theorem kernel1_cond1_fin8 : ∀ k : Fin 8,
    (Scalar.cmpi .ne (Scalar.extui (Scalar.cmpi .eq (BitVec.ofNat 32 k.val) 0#32)) 0#32 = 1#1) ↔ k.val = 0 := by decide

/-- The second conditional's (compare with seven, widen, compare with zero), likewise: it holds at seven only. -/
theorem kernel1_cond2_fin8 : ∀ k : Fin 8,
    (Scalar.cmpi .ne (Scalar.extui (Scalar.cmpi .eq (BitVec.ofNat 32 k.val) 7#32)) 0#32 = 1#1) ↔ k.val = 7 := by decide

/-- At a grid point the first conditional holds iff the third coordinate is zero (the coordinate's bound is eight by
    unfolding the grid's bounds). -/
theorem kernel1_hcond1 (i : grid1.Coords) :
    (Scalar.cmpi .ne (Scalar.extui (Scalar.cmpi .eq (BitVec.ofNat 32 (i 2).val) 0#32)) 0#32 = 1#1) ↔ (i 2).val = 0 :=
  kernel1_cond1_fin8 (i 2)

/-- and the second iff it is seven. -/
theorem kernel1_hcond2 (i : grid1.Coords) : k1_cond2 i = 1#1 ↔ (i 2).val = 7 := by
  unfold k1_cond2; exact kernel1_cond2_fin8 (i 2)

/-! ## A whole-buffer store -/

/-- A store through the whole-shape rectangle at zero offsets, made last, leaves its payload as what the buffer reads,
    whatever was stored before it and whatever the buffer held: the one piece covers every index, and the canonical
    contents of a list of pieces whose head is the whole shape is the head's payload. -/
theorem kernel1_read_writes_cons_unit_zero {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## What the body leaves -/

/-- The scratch block after the body at a point whose third coordinate is `k`, from what it held (`a`) and the two
    operand blocks: zero at `k = 0`, else `a`, plus the blocks' product. -/
def acc1 (k : Fin 8) (a : Vec F S1024x1024 .f32) (x3 : Vec F S1024x512 .bf16) (x4 : Vec F S512x1024 .bf16) : Vec F S1024x1024 .f32 :=
  k1_pay2 (if k.val = 0 then k1_pay1 else a) x3 x4

/-- The result block after the body: at `k = 7` the new running sum plus the bias row; else what it held (`d6`). -/
def res1 (k : Fin 8) (a : Vec F S1024x1024 .f32) (x3 : Vec F S1024x512 .bf16) (x4 : Vec F S512x1024 .bf16) (x5 : Vec F S1x1024 .f32)
    (d6 : Vec F S1024x1024 .f32) : Vec F S1024x1024 .f32 :=
  if k.val = 7 then k1_pay3 (acc1 k a x3 x4) x5 else d6

/-! ## The three cases of the third coordinate

In each the body is run on the buffers' contents with both conditionals decided by the case's hypotheses. Every access
is the whole buffer at offsets zero: a load of a buffer the run has not yet stored into reads its contents, a load of
the scratch after a store of the same run reads the value stored, and what a buffer stored into reads at the end is
the payload of its last store. -/

/-- `k = 0`: the scratch is set to zero, read back (zero), the product added and stored; no result store. -/
theorem sound_kernel1_first (c : Dev nD) (E : Set ℕ) (i : grid1.Coords) (h0 : (i 2).val = 0)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have hc1 := (kernel1_hcond1 i).2 h0
  have hc2 : ¬ (k1_cond2 i = 1#1) := fun h => by have := (kernel1_hcond2 i).1 h; omega
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · -- the result block is untouched, and `res1` at `k ≠ 7` is what it held
    iexists f6; isplitr
    · ipureintro; unfold res1; rw [if_neg (by omega)]
    iexact H6
  · -- the scratch: the last store's payload, over the zero block read back after the reset
    iexists _; isplitr
    swap; · iexact H7
    ipureintro
    sl_unfold_words
    rw [kernel1_read_writes_cons_unit_zero _ _ hz, View.readCov_unit_zero (S := S1024x1024) _ hz]
    unfold acc1; rw [if_pos h0]
    simp only [View.readAt_eq_ld, View.ld_unit_zero (S := S1024x512) hz, View.ld_unit_zero (S := S512x1024) hz]

/-- `k = 7`: no reset; the product is added to the scratch and stored, the new sum read back, the bias row added and
    the result stored. -/
theorem sound_kernel1_last (c : Dev nD) (E : Set ℕ) (i : grid1.Coords) (h7 : (i 2).val = 7)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have h0 : ¬ (i 2).val = 0 := by omega
  have hc1 : ¬ (Scalar.cmpi .ne (Scalar.extui (Scalar.cmpi .eq (BitVec.ofNat 32 (i 2).val) 0#32)) 0#32 = 1#1) := fun h => h0 ((kernel1_hcond1 i).1 h)
  have hc2 := (kernel1_hcond2 i).2 h7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · -- the result block: its one store's payload, over the scratch read back after the sum's store
    iexists _; isplitr
    swap; · iexact H6
    ipureintro
    sl_unfold_words
    rw [kernel1_read_writes_cons_unit_zero _ _ hz, View.readCov_unit_zero (S := S1024x1024) _ hz]
    unfold res1 acc1; rw [if_pos h7, if_neg h0]
    simp only [View.readAt_eq_ld, View.ld_unit_zero (S := S1024x512) hz, View.ld_unit_zero (S := S512x1024) hz,
      View.ld_unit_zero (S := S1024x1024) hz, View.ld_unit_zero (S := S1x1024) hz]
  · -- the scratch: its one store's payload, over what it held
    iexists _; isplitr
    swap; · iexact H7
    ipureintro
    sl_unfold_words
    rw [kernel1_read_writes_cons_unit_zero _ _ hz]
    unfold acc1; rw [if_neg h0]
    simp only [View.readAt_eq_ld, View.ld_unit_zero (S := S1024x512) hz, View.ld_unit_zero (S := S512x1024) hz,
      View.ld_unit_zero (S := S1024x1024) hz]

/-- `0 < k < 7`: neither conditional holds; the product is added to the scratch and stored. -/
theorem sound_kernel1_middle (c : Dev nD) (E : Set ℕ) (i : grid1.Coords) (h0 : ¬ (i 2).val = 0) (h7 : ¬ (i 2).val = 7)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have hc1 : ¬ (Scalar.cmpi .ne (Scalar.extui (Scalar.cmpi .eq (BitVec.ofNat 32 (i 2).val) 0#32)) 0#32 = 1#1) := fun h => h0 ((kernel1_hcond1 i).1 h)
  have hc2 : ¬ (k1_cond2 i = 1#1) := fun h => h7 ((kernel1_hcond2 i).1 h)
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr
    · ipureintro; unfold res1; rw [if_neg h7]
    iexact H6
  · iexists _; isplitr
    swap; · iexact H7
    ipureintro
    rw [kernel1_read_writes_cons_unit_zero _ _ hz]
    unfold acc1; rw [if_neg h0]
    simp only [View.readAt_eq_ld, View.ld_unit_zero (S := S1024x512) hz, View.ld_unit_zero (S := S512x1024) hz,
      View.ld_unit_zero (S := S1024x1024) hz]

/-- The body on whole staging memrefs and the whole scratch, at contents `x3 x4 x5 d6 a`, runs to the continuation
    holding the three inputs' as they were, the scratch at `acc1` and the result's at `res1`. -/
theorem sound_kernel1 (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  by_cases h0 : (i 2).val = 0
  · exact sound_kernel1_first c E i h0 arg3 harg3 arg4 harg4 arg5 harg5 arg6 harg6 arg7 harg7 x3 x4 x5 d6 a K
  · by_cases h7 : (i 2).val = 7
    · exact sound_kernel1_last c E i h7 arg3 harg3 arg4 harg4 arg5 harg5 arg6 harg6 arg7 harg7 x3 x4 x5 d6 a K
    · exact sound_kernel1_middle c E i h0 h7 arg3 harg3 arg4 harg4 arg5 harg5 arg6 harg6 arg7 harg7 x3 x4 x5 d6 a K

end Cert.KernelIdeal.Hand

end
-- ==== Proof.KI.Val1.lean ====
/-
  What region 1 leaves in the result array, over the extended reals, for ANY proof data whose result block after the body
  at point `(i, j, k)` is, on the columns inside the array, the specification's product read at rows `1024 i + ·` and
  columns `1024 j + ·` (`res1cf`; zero on the columns past the array's end, which no write-back moves). The result's
  window is written back at the points `k = 7`; block `(i, j)`, cut at the array's end, is the product read through the
  block, and the 8 × 11 blocks cover the array.
-/
import proofs.«403986_j20675972563491_3_alg».proof.Proof.Gen.KernelIdeal.Launch
import proofs.«403986_j20675972563491_3_alg».proof.Proof.Gen.KernelIdeal.Points
import proofs.«403986_j20675972563491_3_alg».proof.Proof.Spec
import Idealize.ShloMosaic.Lib.Pipeline.Value
import Idealize.ShloMosaic.Lib.ValueIdx
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The result block after the body at point `t = (i, j, k)`, in closed form: entry `(r, n)` is the product's entry
    `(1024 i + r, 1024 j + n)` where that column is inside the array, zero elsewhere. -/
def res1cf (c : Dev nD) (t : Fin cfg1.N) : Vec Ideal S1024x1024 .f32 := fun y =>
  if h : ((grid1.coords t) 1).val * 1024 + (y 1).val < 11008 then
    Cert.Spec.mm (V c main_v3) (V c main_v1) (fun n => V c main_v4 (ValueIdx.ix2 (0 : Fin 1) n))
      (ValueIdx.ix2 (⟨((grid1.coords t) 0).val * 1024 + (y 0).val, by
          have h0 : ((grid1.coords t) 0).val < 8 := ((grid1.coords t) 0).isLt
          have h1 : (y 0).val < 1024 := (y 0).isLt
          omega⟩ : Fin 8192) ⟨((grid1.coords t) 1).val * 1024 + (y 1).val, h⟩)
  else 0

/-- The result window's block at point `t = (i, j, k)`, over the whole grid: its block index is `(i, j)`; the
    write-back moves all 1024 rows, and the columns up to the array's end, `min (1024 j + 1024) 11008`; the point's
    first two coordinates are `t / 88` and `t / 8 % 11`. -/
theorem blk1_3_facts : ∀ t : Fin cfg1.N,
    win1_3.index t (0 : Fin 2) = ((grid1.coords t) 0).val
    ∧ win1_3.index t (1 : Fin 2) = ((grid1.coords t) 1).val
    ∧ win1_3.xsize (grid1.coords t) (0 : Fin 2) = 1024
    ∧ ((grid1.coords t) 1).val * 1024 + win1_3.xsize (grid1.coords t) (1 : Fin 2)
        = min (((grid1.coords t) 1).val * 1024 + 1024) 11008
    ∧ ((grid1.coords t) 0).val = t.val / 88
    ∧ ((grid1.coords t) 1).val = t.val / 8 % 11 :=
  (by decide +kernel : ∀ t : Fin grid1.N, _)

/-- What every point writes back is the product read through the point's block: a column the write-back moves is
    inside the array, where the closed form is the product's entry at the block's offset plus the coordinate in the
    block. -/
theorem flushed1_3_eq (c : Dev nD) (dat : Dat τ (Elt Ideal) Unit ℕ (UR sig nD τ) ℕ cfg1 c)
    (hafter : ∀ t, dat.after 3 t = res1cf V c t) (t : Fin cfg1.N) :
    dat.flushed 3 t = ((cfg1.win 3).blk t).view.read (Elt Ideal)
      (Cert.Spec.mm (V c main_v3) (V c main_v1) (fun n => V c main_v4 (ValueIdx.ix2 (0 : Fin 1) n))) := by
  show (cfg1.win 3).cut (grid1.coords t) (dat.after 3 t) = _
  rw [hafter]
  funext y
  rw [View.read_apply]
  obtain ⟨e0, e1, x0, x1, -, -⟩ := blk1_3_facts t
  have hy0 : (y 0).val < win1_3.xsize (grid1.coords t) (0 : Fin 2) := (y 0).isLt
  have hy1 : (y 1).val < win1_3.xsize (grid1.coords t) (1 : Fin 2) := (y 1).isLt
  have hin : ((grid1.coords t) 1).val * 1024 + (y 1).val < 11008 := by omega
  show res1cf V c t (win1_3.xinj (grid1.coords t) y) = _
  unfold res1cf
  rw [dif_pos (show ((grid1.coords t) 1).val * 1024 + (win1_3.xinj (grid1.coords t) y 1).val < 11008 from hin)]
  refine Eq.trans ?_ (cast_eq _ _).symm
  refine congrArg _ ?_
  funext a
  apply Fin.ext
  match a with
  | ⟨0, _⟩ =>
    show ((grid1.coords t) 0).val * 1024 + (y 0).val = win1_3.index t (0 : Fin 2) * 1024 + 1 * (y 0).val
    rw [e0]; omega
  | ⟨1, _⟩ =>
    show ((grid1.coords t) 1).val * 1024 + (y 1).val = win1_3.index t (1 : Fin 2) * 1024 + 1 * (y 1).val
    rw [e1]; omega

/-- An index of the array is in point `t`'s block iff each coordinate is in the block's range on its axis, the range
    cut at the array's end. -/
theorem mem_blk1_3 (t : Fin cfg1.N) (i : S8192x11008.Idx) :
    i ∈ ((cfg1.win 3).blk t).view.set ↔ ∀ a : Fin 2, win1_3.index t a * S1024x1024.size a ≤ (i a).val
      ∧ (i a).val < win1_3.index t a * S1024x1024.size a + win1_3.xsize (grid1.coords t) a := by
  show i ∈ ((View.whole main_v5).slice (win1_3.rect t)).set ↔ _
  rw [View.set_slice_whole, Rect.mem_set_unit]
  exact Iff.rfl

/-- Every index `(R, C)` of the array is in the block of a point that writes back: the point of coordinates
    `(R / 1024, C / 1024, 7)`, number `((R / 1024) · 11 + C / 1024) · 8 + 7`, whose block holds rows `1024 · (R / 1024) …`
    and columns `1024 · (C / 1024) …` up to the array's end. -/
theorem cover1_3 (i : S8192x11008.Idx) :
    ∃ t : Fin cfg1.N, (cfg1.win 3).flush t = true ∧ i ∈ ((cfg1.win 3).blk t).view.set := by
  have hR : (i 0).val < 8192 := (i 0).isLt
  have hC : (i 1).val < 11008 := (i 1).isLt
  obtain ⟨t, tv⟩ : ∃ t : Fin cfg1.N, t.val = ((i 0).val / 1024 * 11 + (i 1).val / 1024) * 8 + 7 :=
    ⟨⟨((i 0).val / 1024 * 11 + (i 1).val / 1024) * 8 + 7, by
      have hN : grid1.N = 704 := N_1
      show _ < grid1.N
      omega⟩, rfl⟩
  obtain ⟨e0, e1, x0, x1, c0, c1⟩ := blk1_3_facts t
  refine ⟨t, (flush1_3 t).mpr (by omega), ?_⟩
  rw [mem_blk1_3]
  intro a
  match a with
  | ⟨0, _⟩ =>
    show win1_3.index t (0 : Fin 2) * 1024 ≤ (i 0).val
      ∧ (i 0).val < win1_3.index t (0 : Fin 2) * 1024 + win1_3.xsize (grid1.coords t) (0 : Fin 2)
    rw [e0, x0]; omega
  | ⟨1, _⟩ =>
    show win1_3.index t (1 : Fin 2) * 1024 ≤ (i 1).val
      ∧ (i 1).val < win1_3.index t (1 : Fin 2) * 1024 + win1_3.xsize (grid1.coords t) (1 : Fin 2)
    rw [e1]; omega

/-- The result array after the region, for any proof data that leaves `res1cf` in the result's buffer. -/
theorem arr1_final_of (c : Dev nD) (dat : Dat τ (Elt Ideal) Unit ℕ (UR sig nD τ) ℕ cfg1 c)
    (hafter : ∀ t, dat.after 3 t = res1cf V c t) :
    dat.arrAt 3 cfg1.N
      = Cert.Spec.mm (V c main_v3) (V c main_v1) (fun n => V c main_v4 (ValueIdx.ix2 (0 : Fin 1) n)) :=
  dat.arrAt_eq_of_cover 3 _ (fun t _ => flushed1_3_eq V c dat hafter t) cover1_3

end Cert.KernelIdeal.Hand

end
-- ==== Proof.KI.Dat1.lean ====
/-
  Region 1 (the matrix-product call) as exact proof data over the extended reals, from the buffer contents `V` the region
  is entered at. The grid point `t` is `(i, j, k)` with `k` fastest: `t = (i · 11 + j) · 8 + k`. The left operand's
  blocks tile its array; the right operand's, the bias row's and the result's blocks overhang along the columns at
  `j = 10` (768 of 1024 columns inside), where a staging buffer holds words nothing names past the moved part. A product
  column reads only that column of the right operand, so on the moved columns the scratch after point `(i, j, k)` holds the
  sum over the slabs `k' ≤ k` of the 512-term products of row `1024 i + r` of the left array with column `1024 j + n` of the
  right array, whatever the tail held; at `k = 7` the result block is that sum plus the bias, again on the moved columns.
  The result's window is idle at `k < 7` and written back after `k = 7`; its blocks cover the array.
-/
import proofs.«403986_j20675972563491_3_alg».proof.Proof.KI.Body1
import proofs.«403986_j20675972563491_3_alg».proof.Proof.KI.Val1
import proofs.«403986_j20675972563491_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

open Idealize.ShloMosaic.ValueIdx

namespace D1

/-! ## The grid's arithmetic and the arrays read at natural-number indices -/

/-- The coordinates of a point, as arithmetic on its number. -/
theorem coords1 : ∀ t : Fin grid1.N, ((grid1.coords t) 0).val = t.val / 88 ∧ ((grid1.coords t) 1).val = t.val / 8 % 11 ∧ ((grid1.coords t) 2).val = t.val % 8 := by
  decide +kernel
theorem index1_3 : ∀ t : Fin grid1.N, win1_3.index t 0 = t.val / 88 ∧ win1_3.index t 1 = t.val / 8 % 11 := by decide +kernel

theorem index1_0 : ∀ t : Fin grid1.N, win1_0.index t 0 = t.val / 88 ∧ win1_0.index t 1 = t.val % 8 := by decide +kernel
theorem index1_1 : ∀ t : Fin grid1.N, win1_1.index t 0 = t.val % 8 ∧ win1_1.index t 1 = t.val / 8 % 11 := by decide +kernel
theorem index1_2 : ∀ t : Fin grid1.N, win1_2.index t 0 = 0 ∧ win1_2.index t 1 = t.val / 8 % 11 := by decide +kernel

def Xn (c : Dev nD) (a b : Nat) : EReal := if h : a < 8192 ∧ b < 4096 then (V c main_v3 : (⟨2, ![8192, 4096]⟩ : Shape).Idx → EReal) (ix2 ⟨a, h.1⟩ ⟨b, h.2⟩) else 0
def Wn (c : Dev nD) (a b : Nat) : EReal := if h : a < 4096 ∧ b < 11008 then (V c main_v1 : (⟨2, ![4096, 11008]⟩ : Shape).Idx → EReal) (ix2 ⟨a, h.1⟩ ⟨b, h.2⟩) else 0
def Bn (c : Dev nD) (b : Nat) : EReal := if h : b < 11008 then (V c main_v4 : (⟨2, ![1, 11008]⟩ : Shape).Idx → EReal) (ix2 (0 : Fin 1) ⟨b, h⟩) else 0

theorem read_blk1_0 (c : Dev nD) (t : Fin cfg1.N) (y : ((cfg1.win 0).xblock (cfg1.grid.coords t)).Idx) :
   ((cfg1.win 0).blk t).view.read (Elt Ideal) (V c (Pipeline.arrRef spec1 0)) y
     = Xn V c (t.val / 88 * 1024 + (y 0).val) (t.val % 8 * 512 + (y 1).val) := by
  rw [View.read_apply]
  show (V c main_v3 : (⟨2, ![8192, 4096]⟩ : Shape).Idx → EReal) ((win1_0.rect t).emb y) = _
  have e0 := win1_0.rect_emb_val t y 0
  have e1 := win1_0.rect_emb_val t y 1
  rw [(index1_0 t).1, show win1_0.size 0 = 1024 from rfl] at e0
  rw [(index1_0 t).2, show win1_0.size 1 = 512 from rfl] at e1
  have b0 : ((win1_0.rect t).emb y 0).val < 8192 := ((win1_0.rect t).emb y 0).isLt
  have b1 : ((win1_0.rect t).emb y 1).val < 4096 := ((win1_0.rect t).emb y 1).isLt
  unfold Xn
  rw [dif_pos ⟨by omega, by omega⟩]
  exact congrArg _ (Shape.idx_ext₂ e0 e1)

theorem read_blk1_1 (c : Dev nD) (t : Fin cfg1.N) (y : ((cfg1.win 1).xblock (cfg1.grid.coords t)).Idx) :
   ((cfg1.win 1).blk t).view.read (Elt Ideal) (V c (Pipeline.arrRef spec1 1)) y
     = Wn V c (t.val % 8 * 512 + (y 0).val) (t.val / 8 % 11 * 1024 + (y 1).val) := by
  rw [View.read_apply]
  show (V c main_v1 : (⟨2, ![4096, 11008]⟩ : Shape).Idx → EReal) ((win1_1.rect t).emb y) = _
  have e0 := win1_1.rect_emb_val t y 0
  have e1 := win1_1.rect_emb_val t y 1
  rw [(index1_1 t).1, show win1_1.size 0 = 512 from rfl] at e0
  rw [(index1_1 t).2, show win1_1.size 1 = 1024 from rfl] at e1
  have b0 : ((win1_1.rect t).emb y 0).val < 4096 := ((win1_1.rect t).emb y 0).isLt
  have b1 : ((win1_1.rect t).emb y 1).val < 11008 := ((win1_1.rect t).emb y 1).isLt
  unfold Wn
  rw [dif_pos ⟨by omega, by omega⟩]
  exact congrArg _ (Shape.idx_ext₂ e0 e1)

theorem read_blk1_2 (c : Dev nD) (t : Fin cfg1.N) (y : ((cfg1.win 2).xblock (cfg1.grid.coords t)).Idx) :
   ((cfg1.win 2).blk t).view.read (Elt Ideal) (V c (Pipeline.arrRef spec1 2)) y
     = Bn V c (t.val / 8 % 11 * 1024 + (y 1).val) := by
  rw [View.read_apply]
  show (V c main_v4 : (⟨2, ![1, 11008]⟩ : Shape).Idx → EReal) ((win1_2.rect t).emb y) = _
  have e0 := win1_2.rect_emb_val t y 0
  have e1 := win1_2.rect_emb_val t y 1
  rw [(index1_2 t).1, show win1_2.size 0 = 1 from rfl] at e0
  rw [(index1_2 t).2, show win1_2.size 1 = 1024 from rfl] at e1
  have b0 : ((win1_2.rect t).emb y 0).val < 1 := ((win1_2.rect t).emb y 0).isLt
  have b1 : ((win1_2.rect t).emb y 1).val < 11008 := ((win1_2.rect t).emb y 1).isLt
  unfold Bn
  rw [dif_pos (by omega)]
  exact congrArg _ (Shape.idx_ext₂ (by show _ = 0; omega) e1)

/-! ## The body's three payloads read at an entry -/

/-- The zero block. -/
theorem pay1_apply (j : S1024x1024.Idx) : (k1_pay1 (F := Ideal)) j = 0 := by
  unfold k1_pay1
  rw [shapeCast_self]
  show Ideal.ofBits .f32 0x00000000#32 = 0
  exact Ideal.ofBits_zero_f32

/-- The running sum's step read at an entry: the block held plus the 512-term product. -/
theorem pay2_apply (a : Vec Ideal S1024x1024 .f32) (x3 : Vec Ideal S1024x512 .bf16) (x4 : Vec Ideal S512x1024 .bf16)
    (r n : Fin 1024) :
    k1_pay2 a x3 x4 (ix2 r n) = a (ix2 r n) + ∑ kk : Fin 512, x3 (ix2 r kk) * x4 (ix2 kk n) := by
  unfold k1_pay2
  rw [shapeCast_self, shapeCast_self, shapeCast_self]
  show a (ix2 r n) + FloatOps.matmul (F := Ideal) dot_S1024x512_S512x1024_S1024x1024_1_0_0_1_n_n none x3 x4 (constant S1024x1024 .f32 0x00000000#32) (ix2 r n) = _
  rw [Ideal.matmul_constant_zero_apply,
    ← Equiv.sum_comp (contrEquiv1 dot_S1024x512_S512x1024_S1024x1024_1_0_0_1_n_n 512 rfl rfl).symm]
  refine congrArg (a (ix2 r n) + ·) (Finset.sum_congr rfl fun kk _ => ?_)
  have c2 := contrEquiv1_symm_val dot_S1024x512_S512x1024_S1024x1024_1_0_0_1_n_n 512 rfl rfl kk
  have l2 : dot_S1024x512_S512x1024_S1024x1024_1_0_0_1_n_n.lhsIdx (ix2 r n) ((contrEquiv1 _ 512 rfl rfl).symm kk) = ix2 r kk := by
    funext ax; apply Fin.ext
    match ax with
    | ⟨0, _⟩ => simp [DotDims.lhsIdx, dot_S1024x512_S512x1024_S1024x1024_1_0_0_1_n_n]; rfl
    | ⟨1, _⟩ => simp [DotDims.lhsIdx, dot_S1024x512_S512x1024_S1024x1024_1_0_0_1_n_n]; exact c2
  have r2 : dot_S1024x512_S512x1024_S1024x1024_1_0_0_1_n_n.rhsIdx (ix2 r n) ((contrEquiv1 _ 512 rfl rfl).symm kk) = ix2 kk n := by
    funext ax; apply Fin.ext
    match ax with
    | ⟨0, _⟩ => simp [DotDims.rhsIdx, dot_S1024x512_S512x1024_S1024x1024_1_0_0_1_n_n]; exact c2
    | ⟨1, _⟩ => simp [DotDims.rhsIdx, dot_S1024x512_S512x1024_S1024x1024_1_0_0_1_n_n]; rfl
  rw [l2, r2]

/-- The result's store read at an entry: the sum plus the bias row's entry of that column. -/
theorem pay3_apply (s : Vec Ideal S1024x1024 .f32) (b : Vec Ideal S1x1024 .f32) (r n : Fin 1024) :
    k1_pay3 s b (ix2 r n) = s (ix2 r n) + b (ix2 (0 : Fin 1) n) := by
  unfold k1_pay3
  rw [shapeCast_self]
  show s (ix2 r n) + broadcastTo S1024x1024 b broadcasts_S1x1024_S1024x1024 (ix2 r n) = _
  refine congrArg (s (ix2 r n) + ·) (broadcastTo_apply b _ (ix2 r n) (ix2 (0 : Fin 1) n) fun ax => ?_)
  match ax with
  | ⟨0, _⟩ => rfl
  | ⟨1, _⟩ => rfl

/-! ## The running sum -/

/-- One slab's 512-term product at row `1024 I + r`, column `1024 J + n`, -/
def term1 (c : Dev nD) (I J kt r n : Nat) : EReal :=
  ∑ kk : Fin 512, Xn V c (I * 1024 + r) (kt * 512 + kk.val) * Wn V c (kt * 512 + kk.val) (J * 1024 + n)

/-- and the sum of the slabs below `k`. -/
def psum1 (c : Dev nD) (I J k r n : Nat) : EReal := ∑ kt ∈ Finset.range k, term1 V c I J kt r n

theorem psum1_zero (c : Dev nD) (I J r n : Nat) : psum1 V c I J 0 r n = 0 := Finset.sum_range_zero _

theorem psum1_succ (c : Dev nD) (I J k r n : Nat) :
    psum1 V c I J (k + 1) r n = psum1 V c I J k r n + term1 V c I J k r n := Finset.sum_range_succ _ _

/-- All eight slabs and the bias: the specification's entry. -/
theorem mm_eq (c : Dev nD) (I J r n : Nat) (hI : I * 1024 + r < 8192) (hJ : J * 1024 + n < 11008) :
    Cert.Spec.mm (V c main_v3) (V c main_v1) (fun n => V c main_v4 (ix2 (0 : Fin 1) n)) (ix2 ⟨I * 1024 + r, hI⟩ ⟨J * 1024 + n, hJ⟩)
      = psum1 V c I J 8 r n + Bn V c (J * 1024 + n) := by
  unfold Cert.Spec.mm psum1
  rw [Finset.sum_range]
  congr 1
  · refine Finset.sum_congr rfl fun kt _ => ?_
    unfold term1
    refine Finset.sum_congr rfl fun kk _ => ?_
    unfold Xn Wn
    rw [dif_pos ⟨hI, Cert.Spec.slab_lt⟩, dif_pos ⟨Cert.Spec.slab_lt, hJ⟩]
  · unfold Bn; rw [dif_pos hJ]

/-- What the scratch holds before point `p`: after the first slab of a block, on the columns inside the array, the sum of
    the slabs so far. -/
def Acc (c : Dev nD) (p : Nat) (f : Vec Ideal S1024x1024 .f32) : Prop :=
  p % 8 ≠ 0 → ∀ r n : Fin 1024, p / 8 % 11 * 1024 + n.val < 11008 →
    f (ix2 r n) = psum1 V c (p / 88) (p / 8 % 11) (p % 8) r.val n.val

theorem acc_entry (c : Dev nD) (t : Nat) (f : Vec Ideal S1024x1024 .f32) (hf : Acc V c t f)
    (x3 : Vec Ideal S1024x512 .bf16) (x4 : Vec Ideal S512x1024 .bf16)
    (hx3 : ∀ (r : Fin 1024) (kk : Fin 512), x3 (ix2 r kk) = Xn V c (t / 88 * 1024 + r.val) (t % 8 * 512 + kk.val))
    (hx4 : ∀ (kk : Fin 512) (n : Fin 1024), t / 8 % 11 * 1024 + n.val < 11008 →
      x4 (ix2 kk n) = Wn V c (t % 8 * 512 + kk.val) (t / 8 % 11 * 1024 + n.val))
    (k : Fin 8) (hk : k.val = t % 8) (r n : Fin 1024) (hn : t / 8 % 11 * 1024 + n.val < 11008) :
    acc1 k f x3 x4 (ix2 r n) = psum1 V c (t / 88) (t / 8 % 11) (t % 8 + 1) r.val n.val := by
  unfold acc1
  rw [pay2_apply, psum1_succ]
  congr 1
  · by_cases h0 : k.val = 0
    · rw [if_pos h0, pay1_apply, ← hk, h0, psum1_zero]
    · rw [if_neg h0]; exact hf (by omega) r n hn
  · unfold term1
    exact Finset.sum_congr rfl fun kk _ => by rw [hx3, hx4 kk n hn]

theorem acc_step (c : Dev nD) (t : Nat) (f : Vec Ideal S1024x1024 .f32) (hf : Acc V c t f)
    (x3 : Vec Ideal S1024x512 .bf16) (x4 : Vec Ideal S512x1024 .bf16)
    (hx3 : ∀ (r : Fin 1024) (kk : Fin 512), x3 (ix2 r kk) = Xn V c (t / 88 * 1024 + r.val) (t % 8 * 512 + kk.val))
    (hx4 : ∀ (kk : Fin 512) (n : Fin 1024), t / 8 % 11 * 1024 + n.val < 11008 →
      x4 (ix2 kk n) = Wn V c (t % 8 * 512 + kk.val) (t / 8 % 11 * 1024 + n.val))
    (k : Fin 8) (hk : k.val = t % 8) : Acc V c (t + 1) (acc1 k f x3 x4) := by
  intro h8 r n hn
  have e1 : (t + 1) / 88 = t / 88 := by omega
  have e2 : (t + 1) / 8 % 11 = t / 8 % 11 := by omega
  have e3 : (t + 1) % 8 = t % 8 + 1 := by omega
  rw [e2] at hn
  rw [e1, e2, e3]
  exact acc_entry V c t f hf x3 x4 hx3 hx4 k hk r n hn

/-! ## The proof data -/

/-- Window `w`'s block at point `t`, its part inside the array, read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- That block filled out to the staging buffer's shape with a word nothing reads. -/
def pblk1 (c : Dev nD) (w : Fin cfg1.W) (t : Fin cfg1.N) : (cfg1.win w).block.Idx → Elt Ideal (cfg1.win w).elt :=
  (cfg1.win w).fill (cfg1.grid.coords t) (fun _ => Classical.arbitrary _) (iblk1 V c w t)

/-- The core's scoped buffers that are neither a staging buffer of this region nor the scratch, each at some contents. -/
def rest8 (c : Dev nD) : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg0_1), ((c : Thread nD τ).loc cc0_stg0_1) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg1_1), ((c : Thread nD τ).loc cc0_stg1_1) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f)
    ∗ (∃ f : Buf (Elt Ideal) ((c : Thread nD τ).loc cc0_stg3_0), ((c : Thread nD τ).loc cc0_stg3_0) ↦{fullShare} f)
    ∗ (∃ f : Buf (Elt Ideal) ((c : Thread nD τ).loc cc0_stg3_1), ((c : Thread nD τ).loc cc0_stg3_1) ↦{fullShare} f))

/-- The invariant before point `p`: the scratch at contents that are the running sum on the columns inside the array,
    the other scoped buffers at anything, the generator register at some state. -/
def Phi1 (c : Dev nD) (p : Nat) : sProp 𝕄 :=
  iprop((∃ f : Buf (Elt Ideal) ((c : Thread nD τ).loc cc1_scratch0), ⌜Acc V c p f⌝ ∗ (((c : Thread nD τ).loc cc1_scratch0) ↦{fullShare} f))
    ∗ rest8 c ∗ ∃ r, prngReg c r)

end D1

open D1

/-- The proof data of region 1 over the extended reals. -/
def dat1 (c : Dev nD) : Dat τ (Elt Ideal) Unit ℕ (UR sig nD τ) ℕ cfg1 c where
  A w := V c (Pipeline.arrRef spec1 w)
  after w t := match w with
    | ⟨0, _⟩ => pblk1 V c 0 t
    | ⟨1, _⟩ => pblk1 V c 1 t
    | ⟨2, _⟩ => pblk1 V c 2 t
    | ⟨3, _⟩ => res1cf V c t
  Φ t := Phi1 V c t.val
  q _ := fullShare
  owed _ := 0

theorem A_eq1 (c : Dev nD) (w : Fin cfg1.W) : (dat1 V c).A w = V c (Pipeline.arrRef spec1 w) := by
  dsimp only [dat1]

/-- What the body leaves in the result's buffer is the closed form. -/
theorem after1_3 (c : Dev nD) (t : Fin cfg1.N) : (dat1 V c).after 3 t = res1cf V c t := by
  dsimp only [dat1]

theorem owed1 (c : Dev nD) (t : Fin (cfg1.N + 1)) : (dat1 V c).owed t = 0 := by
  dsimp only [dat1]

theorem recorded1 (c : Dev nD) (t : Fin (cfg1.N + 1)) : (dat1 V c).recorded t = Set.univ := by
  dsimp only [dat1]

theorem q1 (c : Dev nD) (w : Fin cfg1.W) : (dat1 V c).q w = fullShare := by
  dsimp only [dat1]

namespace D1

theorem after1_0 (c : Dev nD) (t : Fin cfg1.N) : (dat1 V c).after 0 t = pblk1 V c 0 t := by dsimp only [dat1]
theorem after1_1 (c : Dev nD) (t : Fin cfg1.N) : (dat1 V c).after 1 t = pblk1 V c 1 t := by dsimp only [dat1]
theorem after1_2 (c : Dev nD) (t : Fin cfg1.N) : (dat1 V c).after 2 t = pblk1 V c 2 t := by dsimp only [dat1]

theorem Phi1_eq (c : Dev nD) (t : Fin (cfg1.N + 1)) : (dat1 V c).Φ t = Phi1 V c t.val := by dsimp only [dat1]

theorem blockOf1 (c : Dev nD) (w : Fin cfg1.W) (t : Fin cfg1.N) : (dat1 V c).blockOf w t = iblk1 V c w t := by
  unfold Dat.blockOf iblk1; rw [A_eq1]

/-! ## What the body finds in the operands' buffers -/

theorem before1_0 (c : Dev nD) (t : Fin cfg1.N) (d) : (dat1 V c).before 0 t d = pblk1 V c 0 t := by
  rw [Dat.before_in_eq_fetched (dat1 V c) 0 rfl (fun _ => rfl) (fun _ _ _ => rfl)
    (fun t => by rw [after1_0]; unfold pblk1; rw [Window.cut_fill, blockOf1]) t d,
    (dat1 V c).fetched_of_clip_none 0 t (fun _ => rfl) d (fun _ => Classical.arbitrary _)]
  unfold Dat.fetched pblk1; rw [blockOf1]

theorem before1_1 (c : Dev nD) (t : Fin cfg1.N) (d) :
    (dat1 V c).before 1 t d = (cfg1.win 1).fill (cfg1.grid.coords t) d (iblk1 V c 1 t) := by
  rw [Dat.before_in_eq_fetched (dat1 V c) 1 rfl (fun _ => rfl)
    (fun t t' h => funext fun a => by
      show Pipeline.Clip.of (win1_1.index t a) _ _ = Pipeline.Clip.of (win1_1.index t' a) _ _
      rw [h])
    (fun t => by rw [after1_1]; unfold pblk1; rw [Window.cut_fill, blockOf1]) t d]
  unfold Dat.fetched; rw [blockOf1]

theorem before1_2 (c : Dev nD) (t : Fin cfg1.N) (d) :
    (dat1 V c).before 2 t d = (cfg1.win 2).fill (cfg1.grid.coords t) d (iblk1 V c 2 t) := by
  rw [Dat.before_in_eq_fetched (dat1 V c) 2 rfl (fun _ => rfl)
    (fun t t' h => funext fun a => by
      show Pipeline.Clip.of (win1_2.index t a) _ _ = Pipeline.Clip.of (win1_2.index t' a) _ _
      rw [h])
    (fun t => by rw [after1_2]; unfold pblk1; rw [Window.cut_fill, blockOf1]) t d]
  unfold Dat.fetched; rw [blockOf1]

/-! ## Reading the blocks the body finds -/

theorem fill_apply_moved {G : Pipeline.Grid} (w : Window sig G) {α : Type} (i : G.Coords) (d : w.block.Idx → α)
    (g : (w.xblock i).Idx → α) (j : w.block.Idx) (h : w.moved i j = true) :
    w.fill i d g j = g (fun a => ⟨(j a).val, (w.moved_iff i j).mp h a⟩) := by
  unfold Window.fill; rw [dif_pos h]

/-- A coordinate of a block is among those a cut transfer moves iff it lies inside the array. -/
theorem clip_lt_iff {ix k d : Nat} {cl : Pipeline.Clip} (h : Pipeline.Clip.Ok ix k d cl) {n : Nat} (hn : n < k) :
    n < cl.extent k ↔ ix * k + n < d := by
  cases cl with
  | none =>
    have h' : ix * k + k ≤ d := by rw [← Nat.succ_mul]; exact h
    show n < k ↔ _
    constructor <;> intro _ <;> omega
  | some m =>
    obtain ⟨h1, h2, h3⟩ := h
    show n < m ↔ _
    omega

theorem moved_iff_inside {G : Pipeline.Grid} (w : Window sig G) (i : G.Coords) (j : w.block.Idx) :
    w.moved i j = true ↔ ∀ a, w.indexMap i a * w.size a + (j a).val < w.shape.size a :=
  (w.moved_iff i j).trans (forall_congr' fun a => clip_lt_iff (w.hclip i a) (j a).isLt)

/-- The left operand's block, entry by entry. -/
theorem x3_apply (c : Dev nD) (t : Fin cfg1.N) (r : Fin 1024) (kk : Fin 512) :
    pblk1 V c 0 t (ix2 r kk) = Xn V c (t.val / 88 * 1024 + r.val) (t.val % 8 * 512 + kk.val) := by
  unfold pblk1
  rw [fill_apply_moved _ _ _ _ _ rfl]
  unfold iblk1
  exact read_blk1_0 V c t _

/-- The right operand's block on the columns inside the array, whatever the tail holds. -/
theorem x4_apply (c : Dev nD) (t : Fin cfg1.N) (d) (kk : Fin 512) (n : Fin 1024) (hn : t.val / 8 % 11 * 1024 + n.val < 11008) :
    (cfg1.win 1).fill (cfg1.grid.coords t) d (iblk1 V c 1 t) (ix2 kk n)
      = Wn V c (t.val % 8 * 512 + kk.val) (t.val / 8 % 11 * 1024 + n.val) := by
  have hm : (cfg1.win 1).moved (cfg1.grid.coords t) (ix2 kk n) = true := by
    rw [moved_iff_inside]
    intro a
    match a with
    | ⟨0, _⟩ => show win1_1.index t 0 * 512 + kk.val < 4096; rw [(index1_1 t).1]; have := kk.isLt; omega
    | ⟨1, _⟩ => show win1_1.index t 1 * 1024 + n.val < 11008; rw [(index1_1 t).2]; exact hn
  rw [fill_apply_moved _ _ _ _ _ hm]
  unfold iblk1
  exact read_blk1_1 V c t _

/-- The bias row's block on the columns inside the array. -/
theorem x5_apply (c : Dev nD) (t : Fin cfg1.N) (d) (n : Fin 1024) (hn : t.val / 8 % 11 * 1024 + n.val < 11008) :
    (cfg1.win 2).fill (cfg1.grid.coords t) d (iblk1 V c 2 t) (ix2 (0 : Fin 1) n)
      = Bn V c (t.val / 8 % 11 * 1024 + n.val) := by
  have hm : (cfg1.win 2).moved (cfg1.grid.coords t) (ix2 (0 : Fin 1) n) = true := by
    rw [moved_iff_inside]
    intro a
    match a with
    | ⟨0, _⟩ => show win1_2.index t 0 * 1 + 0 < 1; rw [(index1_2 t).1]; omega
    | ⟨1, _⟩ => show win1_2.index t 1 * 1024 + n.val < 11008; rw [(index1_2 t).2]; exact hn
  rw [fill_apply_moved _ _ _ _ _ hm]
  unfold iblk1
  exact read_blk1_2 V c t _

/-- The closed form at an entry inside the array: all eight slabs and the bias. -/
theorem res1cf_apply (c : Dev nD) (t : Fin cfg1.N) (r n : Fin 1024) (hn : t.val / 8 % 11 * 1024 + n.val < 11008) :
    res1cf V c t (ix2 r n)
      = psum1 V c (t.val / 88) (t.val / 8 % 11) 8 r.val n.val + Bn V c (t.val / 8 % 11 * 1024 + n.val) := by
  have hc := coords1 t
  have h : ((grid1.coords t) 1).val * 1024 + n.val < 11008 := by rw [hc.2.1]; exact hn
  unfold res1cf
  show (if h : ((grid1.coords t) 1).val * 1024 + n.val < 11008 then _ else 0) = _
  rw [dif_pos h]
  refine (mm_eq V c ((grid1.coords t) 0).val ((grid1.coords t) 1).val r.val n.val _ _).trans ?_
  rw [hc.1, hc.2.1]

/-- The second conditional's scalar chain holds at the last slab only. -/
theorem cond2_iff (i : grid1.Coords) : k1_cond2 i = 1#1 ↔ (i 2).val = 7 := by
  unfold k1_cond2
  exact (by decide : ∀ k : Fin 8,
    (Scalar.cmpi .ne (Scalar.extui (Scalar.cmpi .eq (BitVec.ofNat 32 k.val) 7#32)) 0#32 = 1#1) ↔ k.val = 7) (i 2)

/-- At the last slab the sum plus the bias row is, on the part of the block inside the array, the closed form. -/
theorem res_cut (c : Dev nD) (t : Fin cfg1.N) (h7 : t.val % 8 = 7) (f : Vec Ideal S1024x1024 .f32) (hf : Acc V c t.val f)
    (d1 d2) (k : Fin 8) (hk : k.val = t.val % 8) :
    (cfg1.win 3).cut (cfg1.grid.coords t)
        (k1_pay3 (acc1 k f (pblk1 V c 0 t) ((cfg1.win 1).fill (cfg1.grid.coords t) d1 (iblk1 V c 1 t)))
          ((cfg1.win 2).fill (cfg1.grid.coords t) d2 (iblk1 V c 2 t)))
      = (cfg1.win 3).cut (cfg1.grid.coords t) (res1cf V c t) := by
  funext y
  have hy1 : (y 1).val < 1024 := lt_of_lt_of_le (y 1).isLt ((cfg1.win 3).xsize_le (cfg1.grid.coords t) 1)
  have h1 : win1_3.index t 1 * 1024 + (y 1).val < 11008 :=
    (clip_lt_iff ((cfg1.win 3).hclip (cfg1.grid.coords t) 1) hy1).mp (y 1).isLt
  rw [(index1_3 t).2] at h1
  obtain ⟨r, n, hj, hn⟩ : ∃ (r n : Fin 1024), (cfg1.win 3).xinj (cfg1.grid.coords t) y = ix2 r n ∧ n.val = (y 1).val :=
    ⟨(cfg1.win 3).xinj (cfg1.grid.coords t) y 0, (cfg1.win 3).xinj (cfg1.grid.coords t) y 1, eq_ix2 _, rfl⟩
  rw [← hn] at h1
  show k1_pay3 (F := Ideal) _ _ ((cfg1.win 3).xinj (cfg1.grid.coords t) y) = res1cf V c t ((cfg1.win 3).xinj (cfg1.grid.coords t) y)
  rw [hj, pay3_apply, acc_entry V c t.val f hf _ _ (x3_apply V c t) (x4_apply V c t d1) k hk r n h1,
    x5_apply V c t d2 n h1, res1cf_apply V c t r n h1, h7]

/-! ## The body obligation -/

theorem leaves_live_loose {Λ₀ : Idealize.SL.Sem.Labels} {cfg : Cfg sig Λ₀} {c : Dev nD}
    (dat : Dat τ (Elt Ideal) Unit ℕ (UR sig nD τ) ℕ cfg c) (w : Fin cfg.W) (t : Fin cfg.N)
    (hi : cfg.idle w (cfg.grid.coords t) = false) (hl : cfg.loose w = true) :
    dat.leaves w t = iprop(∃ d, owns c ((cfg.win w).stage (cfg.slots t w)) fullShare
      ((cfg.win w).fill (cfg.grid.coords t) d ((cfg.win w).cut (cfg.grid.coords t) (dat.after w t)))) := by
  unfold Dat.leaves; rw [hi, hl]

theorem leaves_live_tight {Λ₀ : Idealize.SL.Sem.Labels} {cfg : Cfg sig Λ₀} {c : Dev nD}
    (dat : Dat τ (Elt Ideal) Unit ℕ (UR sig nD τ) ℕ cfg c) (w : Fin cfg.W) (t : Fin cfg.N)
    (hi : cfg.idle w (cfg.grid.coords t) = false) (hl : cfg.loose w = false) :
    dat.leaves w t = owns c ((cfg.win w).stage (cfg.slots t w)) fullShare (dat.after w t) := by
  unfold Dat.leaves; rw [hi, hl]

theorem leaves1_0 (c : Dev nD) (t : Fin cfg1.N) :
    (dat1 V c).leaves 0 t = owns (c : Thread nD τ) (st1_0 t) fullShare (pblk1 V c 0 t) := by
  rw [leaves_live_tight (dat1 V c) 0 t rfl rfl, after1_0]

theorem leaves1_1 (c : Dev nD) (t : Fin cfg1.N) :
    (dat1 V c).leaves 1 t = iprop(∃ d, owns (c : Thread nD τ) (st1_1 t) fullShare ((cfg1.win 1).fill (cfg1.grid.coords t) d (iblk1 V c 1 t))) := by
  rw [leaves_live_loose (dat1 V c) 1 t rfl rfl, after1_1]; unfold pblk1; simp only [Window.cut_fill]

theorem leaves1_2 (c : Dev nD) (t : Fin cfg1.N) :
    (dat1 V c).leaves 2 t = iprop(∃ d, owns (c : Thread nD τ) (st1_2 t) fullShare ((cfg1.win 2).fill (cfg1.grid.coords t) d (iblk1 V c 2 t))) := by
  rw [leaves_live_loose (dat1 V c) 2 t rfl rfl, after1_2]; unfold pblk1; simp only [Window.cut_fill]

theorem idle1_3_last (t : Fin cfg1.N) (h7 : t.val % 8 = 7) : cfg1.idle 3 (cfg1.grid.coords t) = false := by
  have hc2 : k1_cond2 (grid1.coords t) = 1#1 := (cond2_iff (grid1.coords t)).2 (by rw [(coords1 t).2.2]; exact h7)
  show (!(k1_cond2 (grid1.coords t) == 1#1)) = false
  rw [hc2]; rfl

theorem idle1_3_mid (t : Fin cfg1.N) (h7 : ¬t.val % 8 = 7) : cfg1.idle 3 (cfg1.grid.coords t) = true := by
  have hc2 : ¬k1_cond2 (grid1.coords t) = 1#1 := fun h => h7 (by rw [← (coords1 t).2.2]; exact (cond2_iff (grid1.coords t)).1 h)
  show (!(k1_cond2 (grid1.coords t) == 1#1)) = true
  rw [Bool.not_eq_true', beq_eq_false_iff_ne]; exact hc2

theorem leaves1_3_last (c : Dev nD) (t : Fin cfg1.N) (h7 : t.val % 8 = 7) :
    (dat1 V c).leaves 3 t = iprop(∃ d, owns (c : Thread nD τ) (st1_3 t) fullShare
      ((cfg1.win 3).fill (cfg1.grid.coords t) d ((cfg1.win 3).cut (cfg1.grid.coords t) (res1cf V c t)))) := by
  rw [leaves_live_loose (dat1 V c) 3 t (idle1_3_last t h7) rfl, after1_3]

theorem leaves1_3_mid (c : Dev nD) (t : Fin cfg1.N) (h7 : ¬t.val % 8 = 7) :
    (dat1 V c).leaves 3 t = iprop(∃ d, owns (c : Thread nD τ) (st1_3 t) fullShare ((dat1 V c).before 3 t d)) :=
  Dat.leaves_idle (dat1 V c) 3 t (idle1_3_mid t h7) (Bool.eq_false_iff.mpr fun h => h7 ((flush1_3 t).1 h))

/-- The body at any point: the three operands' buffers hold their blocks (the right operand's and the bias row's on the
    columns inside the array), the scratch the sum of the slabs before; the body adds the point's slab, and at the last
    slab stores the sum plus the bias row, which on the columns inside the array is the closed form. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := Ideal)) Variants.none c none) Set.univ (bodyAt1 t) (fun _ =>
          iprop((dat1 V c).Φ t.succ ∗ (dat1 V c).owesAt () t.succ
            ∗ (dat1 V c).leaves 0 t ∗ (dat1 V c).leaves 1 t ∗ (dat1 V c).leaves 2 t ∗ (dat1 V c).leaves 3 t)) := by
  rw [show (dat1 V c).owesAt () t.succ = (dat1 V c).owesAt () t.castSucc from rfl]
  rw [Phi1_eq, Phi1_eq, leaves1_0, leaves1_1, leaves1_2]
  simp only [Fin.coe_castSucc, Fin.val_succ, before1_0, before1_1, before1_2]
  unfold Phi1
  have hk : ((grid1.coords t) 2).val = t.val % 8 := (coords1 t).2.2
  by_cases h7 : t.val % 8 = 7
  · rw [leaves1_3_last V c t h7]
    iintro ⟨⟨⟨%f, %hf, Hs⟩, Hrest, Hg⟩, Ho, ⟨%d0, H0⟩, ⟨%d1, H1⟩, ⟨%d2, H2⟩, ⟨%d3, H3⟩⟩
    have hres : res1 ((grid1.coords t) 2) f (pblk1 V c 0 t) ((cfg1.win 1).fill (cfg1.grid.coords t) d1 (iblk1 V c 1 t))
          ((cfg1.win 2).fill (cfg1.grid.coords t) d2 (iblk1 V c 2 t)) ((dat1 V c).before 3 t d3)
        = k1_pay3 (acc1 ((grid1.coords t) 2) f (pblk1 V c 0 t) ((cfg1.win 1).fill (cfg1.grid.coords t) d1 (iblk1 V c 1 t)))
          ((cfg1.win 2).fill (cfg1.grid.coords t) d2 (iblk1 V c 2 t)) := by
      unfold res1; rw [if_pos (by rw [hk]; exact h7)]
    iapply (sound_kernel1 (F := Ideal) c Set.univ (grid1.coords t) _ _ _ _ _ _ _ _ _ _
      (pblk1 V c 0 t) ((cfg1.win 1).fill (cfg1.grid.coords t) d1 (iblk1 V c 1 t))
      ((cfg1.win 2).fill (cfg1.grid.coords t) d2 (iblk1 V c 2 t)) ((dat1 V c).before 3 t d3) f _)
    rw [hres]
    simp only [owns_whole]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hg]
    · isplitl [Hs]
      · iexists _; isplitr
        swap; · iexact Hs
        ipureintro
        exact acc_step V c t.val f hf _ _ (x3_apply V c t) (x4_apply V c t d1) _ hk
      isplitl [Hrest]; · iexact Hrest
      iexact Hg
    isplitl [Ho]; · iexact Ho
    isplitl [H0]; · iexact H0
    isplitl [H1]; · iexists d1; iexact H1
    isplitl [H2]; · iexists d2; iexact H2
    iexists (k1_pay3 (acc1 ((grid1.coords t) 2) f (pblk1 V c 0 t) ((cfg1.win 1).fill (cfg1.grid.coords t) d1 (iblk1 V c 1 t)))
          ((cfg1.win 2).fill (cfg1.grid.coords t) d2 (iblk1 V c 2 t)))
    rw [← res_cut V c t h7 f hf d1 d2 _ hk, Window.fill_cut]
    iexact H3
  · rw [leaves1_3_mid V c t h7]
    iintro ⟨⟨⟨%f, %hf, Hs⟩, Hrest, Hg⟩, Ho, ⟨%d0, H0⟩, ⟨%d1, H1⟩, ⟨%d2, H2⟩, ⟨%d3, H3⟩⟩
    have hres : res1 ((grid1.coords t) 2) f (pblk1 V c 0 t) ((cfg1.win 1).fill (cfg1.grid.coords t) d1 (iblk1 V c 1 t))
          ((cfg1.win 2).fill (cfg1.grid.coords t) d2 (iblk1 V c 2 t)) ((dat1 V c).before 3 t d3)
        = (dat1 V c).before 3 t d3 := by
      unfold res1; rw [if_neg (by rw [hk]; exact h7)]
    iapply (sound_kernel1 (F := Ideal) c Set.univ (grid1.coords t) _ _ _ _ _ _ _ _ _ _
      (pblk1 V c 0 t) ((cfg1.win 1).fill (cfg1.grid.coords t) d1 (iblk1 V c 1 t))
      ((cfg1.win 2).fill (cfg1.grid.coords t) d2 (iblk1 V c 2 t)) ((dat1 V c).before 3 t d3) f _)
    rw [hres]
    simp only [owns_whole]
    isplitl [H0]; · iexact H0
    isplitl [H1]; · iexact H1
    isplitl [H2]; · iexact H2
    isplitl [H3]; · iexact H3
    isplitl [Hs]; · iexact Hs
    iintro ⟨H0, H1, H2, H3, Hs⟩
    isplitl [Hs Hrest Hg]
    · isplitl [Hs]
      · iexists _; isplitr
        swap; · iexact Hs
        ipureintro
        exact acc_step V c t.val f hf _ _ (x3_apply V c t) (x4_apply V c t d1) _ hk
      isplitl [Hrest]; · iexact Hrest
      iexact Hg
    isplitl [Ho]; · iexact Ho
    isplitl [H0]; · iexact H0
    isplitl [H1]; · iexists d1; iexact H1
    isplitl [H2]; · iexists d2; iexact H2
    iexists d3
    iexact H3

end D1

/-- The invariant at the first point asks nothing of the scratch, -/
theorem Phi1_in (c : Dev nD) :
    (iprop((∃ r, prngReg c r) ∗ Pipeline.scopedRest (Ix := Unit) (Name := ℕ) (U := UR sig nD τ) (Lvl := ℕ) (Val := Elt Ideal) spec1 c) : sProp 𝕄)
      ⊢ (dat1 V c).Φ 0 := by
  rw [scopedRest1_eq, Phi1_eq, Fin.val_zero]
  unfold Phi1 rest8
  iintro ⟨Hg, H0, H1, H2, H3, H4, H5, H6, H7, ⟨%f, Hs⟩⟩
  isplitl [Hs]
  · iexists f; isplitr
    · ipureintro; exact fun h => absurd rfl h
    · iexact Hs
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact Hg

/-- and at the last gives the scoped rest and the generator register back. -/
theorem Phi1_out (c : Dev nD) :
    (dat1 V c).Φ (Fin.last cfg1.N)
      ⊢ (iprop((∃ r, prngReg c r) ∗ Pipeline.scopedRest (Ix := Unit) (Name := ℕ) (U := UR sig nD τ) (Lvl := ℕ) (Val := Elt Ideal) spec1 c) : sProp 𝕄) := by
  rw [scopedRest1_eq, Phi1_eq]
  unfold Phi1 rest8
  iintro ⟨⟨%f, %hf, Hs⟩, ⟨H0, H1, H2, H3, H4, H5, H6, H7⟩, Hg⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists f; iexact Hs

/-- The body obligation of region 1, in the form the loop uses for overhanging windows. -/
theorem body_obligation1 (c : Dev nD) : BodyObligationLoose (dat1 V c) (defs₀ (F := Ideal)) Variants.none () Set.univ := fun t => by
  rw [bigSep_W1, bigSep_W1]
  exact sound_body1 V c t

/-- The result array after the region: the left array times the right array, slab by slab, plus the bias row. -/
theorem arr1_final (c : Dev nD) :
    (dat1 V c).arrAt 3 cfg1.N
      = Cert.Spec.mm (V c main_v3) (V c main_v1) (fun n => V c main_v4 (ValueIdx.ix2 (0 : Fin 1) n)) :=
  arr1_final_of V c (dat1 V c) (after1_3 V c)

end Cert.KernelIdeal.Hand

end
-- ==== Proof.KI.Val0.lean ====
/-
  What region 0 leaves in the weight array, over the extended reals: the dequantised weight matrix of the packed weights,
  the packed zero points and the scale row it was entered with. Each written-back block, cut at the array's end, is that
  matrix read through the block; the 4 × 11 blocks cover the array.

  An entry of a written-back block at row r and column n (n among the columns the write-back moves) is computed from word
  (r, n / 8) of the packed weights' block, word n / 8 of the zero points' block and scale n of the scales' block. Column
  n is moved exactly when packed column n / 8 is moved in the packed blocks (their cut is one eighth of the result's), so
  those three words are the arrays' own, at row 1024 a + r, packed column 128 b + n / 8 and column 1024 b + n for the block
  (a, b); and (1024 b + n) / 8 = 128 b + n / 8, (1024 b + n) % 8 = n % 8. The field the kernel extracts (an arithmetic
  shift by 4 f, f < 8, masked with 15) is the specification's, and over the extended reals the conversion is the signed
  reading, the product the product, the narrowing the identity.
-/
import proofs.«403986_j20675972563491_3_alg».proof.Proof.KI.Dat0
import proofs.«403986_j20675972563491_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-! ## One entry: the kernel's scalar computation is the specification's -/

/-- A field of a packed word, as the kernel computes it, is the specification's: the shift amount 4 f is below 32. -/
private theorem fld0_eq_nib (f : Fin 8) (w : BitVec 32) : fld0 f.val w = Cert.Spec.nib w f := by
  unfold fld0 Cert.Spec.nib IntOp.andi IntOp.shrsi
  rw [if_pos (by have := f.isLt; rw [BitVec.toNat_ofNat]; omega)]

/-- One dequantised entry over the extended reals: the signed reading of the difference of the two fields, times the
    scale. -/
private theorem deq0_ideal (w z : BitVec 32) (s : EReal) (n : Nat) :
    deq0 (F := Ideal) w z s n
      = (((Cert.Spec.nib w ⟨n % 8, Cert.Spec.mod8_lt n⟩ - Cert.Spec.nib z ⟨n % 8, Cert.Spec.mod8_lt n⟩ : BitVec 32).toInt : ℝ) : EReal) * s := by
  unfold deq0
  rw [fld0_eq_nib ⟨n % 8, Cert.Spec.mod8_lt n⟩ w, fld0_eq_nib ⟨n % 8, Cert.Spec.mod8_lt n⟩ z]
  rfl

/-! ## Where the blocks sit -/

/-- Where each window's block sits at each point, and how much of it a transfer moves: the packed weights' block moves
    with the result's on both axes, the zero points' and the scales' along the columns in row block 0; the result's
    columns are cut at the array's end, the packed windows' at one eighth of that. -/
private theorem idx_facts0 : ∀ t : Fin cfg0.N,
    win0_3.index t (0 : Fin 2) < 4 ∧ win0_3.index t (1 : Fin 2) < 11
    ∧ win0_0.index t (0 : Fin 2) = win0_3.index t (0 : Fin 2) ∧ win0_0.index t (1 : Fin 2) = win0_3.index t (1 : Fin 2)
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.xsize (grid0.coords t) (0 : Fin 2) = 1024
    ∧ win0_3.index t (1 : Fin 2) * 1024 + win0_3.xsize (grid0.coords t) (1 : Fin 2) = min 11008 (win0_3.index t (1 : Fin 2) * 1024 + 1024)
    ∧ win0_0.xsize (grid0.coords t) (0 : Fin 2) = 1024
    ∧ win0_0.xsize (grid0.coords t) (1 : Fin 2) * 8 = win0_3.xsize (grid0.coords t) (1 : Fin 2)
    ∧ win0_1.xsize (grid0.coords t) (0 : Fin 2) = 1
    ∧ win0_1.xsize (grid0.coords t) (1 : Fin 2) * 8 = win0_3.xsize (grid0.coords t) (1 : Fin 2)
    ∧ win0_2.xsize (grid0.coords t) (0 : Fin 2) = 1
    ∧ win0_2.xsize (grid0.coords t) (1 : Fin 2) = win0_3.xsize (grid0.coords t) (1 : Fin 2) :=
  (by decide +kernel : ∀ t : Fin grid0.N, _)

/-- Every block index of the result is some point's. -/
private theorem idx_onto0 : ∀ (q0 : Fin 4) (q1 : Fin 11), ∃ t : Fin cfg0.N,
    win0_3.index t (0 : Fin 2) = q0.val ∧ win0_3.index t (1 : Fin 2) = q1.val :=
  (by decide +kernel : ∀ (q0 : Fin 4) (q1 : Fin 11), ∃ t : Fin grid0.N, win0_3.index t (0 : Fin 2) = q0.val ∧ win0_3.index t (1 : Fin 2) = q1.val)

/-! ## The padded input blocks, read where a transfer moves them -/

/-- A filled-out block read at an index of the moved part reads what it was filled with. -/
private theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The packed weights' padded block, at a row and a packed column the transfer moves, reads the array: the block at
    block index (a, b) starts at row 1024 a and packed column 128 b. -/
private theorem pblk0_0_apply (c : Dev nD) (t : Fin cfg0.N) (r : Fin 1024) (g : Fin 128)
    (hr : r.val < win0_0.xsize (grid0.coords t) (0 : Fin 2)) (hg : g.val < win0_0.xsize (grid0.coords t) (1 : Fin 2))
    (k : Fin 4096) (q : Fin 1376)
    (hk : k.val = win0_0.index t (0 : Fin 2) * 1024 + r.val) (hq : q.val = win0_0.index t (1 : Fin 2) * 128 + g.val) :
    pblk0 V c 0 t (ix2 r g) = V c main_arg1 (ix2 k q) := by
  unfold pblk0
  rw [fill_apply_of_lt (cfg0.win 0) (cfg0.grid.coords t) _ _ (ix2 r g) (fun a => match a with | ⟨0, _⟩ => hr | ⟨1, _⟩ => hg)]
  show V c main_arg1 ((win0_0.rect t).emb _) = V c main_arg1 (ix2 k q)
  congr 1
  funext a; apply Fin.ext
  match a with
  | ⟨0, _⟩ => show win0_0.index t (0 : Fin 2) * 1024 + 1 * r.val = k.val; omega
  | ⟨1, _⟩ => show win0_0.index t (1 : Fin 2) * 128 + 1 * g.val = q.val; omega

/-- The packed zero points' padded block, at a packed column the transfer moves, reads the array: the block at block
    index (0, b) starts at packed column 128 b. -/
private theorem pblk0_1_apply (c : Dev nD) (t : Fin cfg0.N) (g : Fin 128)
    (h0 : 0 < win0_1.xsize (grid0.coords t) (0 : Fin 2)) (hg : g.val < win0_1.xsize (grid0.coords t) (1 : Fin 2))
    (q : Fin 1376) (h0i : win0_1.index t (0 : Fin 2) = 0) (hq : q.val = win0_1.index t (1 : Fin 2) * 128 + g.val) :
    pblk0 V c 1 t (ix2 (0 : Fin 1) g) = V c main_arg3 (ix2 (0 : Fin 1) q) := by
  unfold pblk0
  rw [fill_apply_of_lt (cfg0.win 1) (cfg0.grid.coords t) _ _ (ix2 (0 : Fin 1) g) (fun a => match a with | ⟨0, _⟩ => h0 | ⟨1, _⟩ => hg)]
  show V c main_arg3 ((win0_1.rect t).emb _) = V c main_arg3 (ix2 (0 : Fin 1) q)
  congr 1
  funext a; apply Fin.ext
  match a with
  | ⟨0, _⟩ => show win0_1.index t (0 : Fin 2) * 1 + 1 * 0 = 0; omega
  | ⟨1, _⟩ => show win0_1.index t (1 : Fin 2) * 128 + 1 * g.val = q.val; omega

/-- The scales' padded block, at a column the transfer moves, reads the array: the block at block index (0, b) starts
    at column 1024 b. -/
private theorem pblk0_2_apply (c : Dev nD) (t : Fin cfg0.N) (n : Fin 1024)
    (h0 : 0 < win0_2.xsize (grid0.coords t) (0 : Fin 2)) (hn : n.val < win0_2.xsize (grid0.coords t) (1 : Fin 2))
    (q : Fin 11008) (h0i : win0_2.index t (0 : Fin 2) = 0) (hq : q.val = win0_2.index t (1 : Fin 2) * 1024 + n.val) :
    pblk0 V c 2 t (ix2 (0 : Fin 1) n) = V c main_v0 (ix2 (0 : Fin 1) q) := by
  unfold pblk0
  rw [fill_apply_of_lt (cfg0.win 2) (cfg0.grid.coords t) _ _ (ix2 (0 : Fin 1) n) (fun a => match a with | ⟨0, _⟩ => h0 | ⟨1, _⟩ => hn)]
  show V c main_v0 ((win0_2.rect t).emb _) = V c main_v0 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 1024 + 1 * n.val = q.val; omega

/-! ## What each point writes back -/

/-- The dequantised matrix of the arrays region 0 is entered with. -/
private abbrev W0 (c : Dev nD) : S4096x11008.Idx → EReal :=
  Cert.Spec.wmat (V c main_arg1) (V c main_arg3) (fun n => V c main_v0 (ix2 (0 : Fin 1) n))

/-- The entry the body computes at row r and column n of a point's padded blocks, n a column the write-back moves,
    is the specification's entry at that row and column of the array: with the block at (a, b), row k = 1024 a + r and
    column m = 1024 b + n, so m / 8 = 128 b + n / 8 and m % 8 = n % 8. -/
private theorem entry0_eq (c : Dev nD) (t : Fin cfg0.N) (r n : Fin 1024) (hn : n.val < win0_3.xsize (grid0.coords t) (1 : Fin 2))
    (k : Fin 4096) (m : Fin 11008)
    (hk : k.val = win0_3.index t (0 : Fin 2) * 1024 + r.val) (hm : m.val = win0_3.index t (1 : Fin 2) * 1024 + n.val) :
    deq0 (F := Ideal) (pblk0 V c 0 t (ix2 r ⟨n.val / 8, by omega⟩)) (pblk0 V c 1 t (ix2 (0 : Fin 1) ⟨n.val / 8, by omega⟩))
        (pblk0 V c 2 t (ix2 (0 : Fin 1) n)) n.val
      = Cert.Spec.wq (V c main_arg1) (V c main_arg3) (fun n => V c main_v0 (ix2 (0 : Fin 1) n)) k m := by
  obtain ⟨b0, b1, e00, e01, e10, e11, e20, e21, x30, x31, x00, x01, x10, x11, x20, x21⟩ := idx_facts0 t
  have hr := r.isLt
  rw [deq0_ideal,
    pblk0_0_apply V c t r ⟨n.val / 8, by omega⟩ (by omega) (by show n.val / 8 < _; omega) k ⟨m.val / 8, Cert.Spec.div8_lt m.isLt⟩
      (by omega) (by show m.val / 8 = _ + n.val / 8; omega),
    pblk0_1_apply V c t ⟨n.val / 8, by omega⟩ (by omega) (by show n.val / 8 < _; omega) ⟨m.val / 8, Cert.Spec.div8_lt m.isLt⟩
      e10 (by show m.val / 8 = _ + n.val / 8; omega),
    pblk0_2_apply V c t n (by omega) (by omega) m e20 (by omega)]
  have hf : (⟨n.val % 8, Cert.Spec.mod8_lt n.val⟩ : Fin 8) = ⟨m.val % 8, Cert.Spec.mod8_lt m.val⟩ :=
    Fin.ext (by show n.val % 8 = m.val % 8; omega)
  rw [hf]
  rfl

/-- What a point writes back is its block of the dequantised matrix. -/
private theorem flushed0_eq (c : Dev nD) (t : Fin cfg0.N) :
    (dat0 (F := Ideal) V c).flushed 3 t = ((cfg0.win 3).blk t).view.read (Elt Ideal) (W0 V c) := by
  show win0_3.cut (grid0.coords t) ((dat0 (F := Ideal) V c).after 3 t) = _
  rw [after0_3]
  obtain ⟨b0, b1, e00, e01, e10, e11, e20, e21, x30, x31, x00, x01, x10, x11, x20, x21⟩ := idx_facts0 t
  funext j
  have hj0 : (j 0).val < win0_3.xsize (grid0.coords t) (0 : Fin 2) := (j 0).isLt
  have hj1 : (j 1).val < win0_3.xsize (grid0.coords t) (1 : Fin 2) := (j 1).isLt
  have l0 : (j 0).val < 1024 := by omega
  have l1 : (j 1).val < 1024 := by omega
  -- the entry of the block at row r and column n
  have hx : win0_3.xinj (grid0.coords t) j = ix2 (⟨(j 0).val, l0⟩ : Fin 1024) (⟨(j 1).val, l1⟩ : Fin 1024) := by
    funext a; match a with | ⟨0, _⟩ => rfl | ⟨1, _⟩ => rfl
  -- its place in the array
  have hk : win0_3.index t (0 : Fin 2) * 1024 + (j 0).val < 4096 := by omega
  have hn : win0_3.index t (1 : Fin 2) * 1024 + (j 1).val < 11008 := by omega
  have he : (win0_3.rect t).emb j
      = ix2 (⟨win0_3.index t (0 : Fin 2) * 1024 + (j 0).val, hk⟩ : Fin 4096) (⟨win0_3.index t (1 : Fin 2) * 1024 + (j 1).val, hn⟩ : Fin 11008) := by
    funext a; apply Fin.ext
    match a with
    | ⟨0, _⟩ => show win0_3.index t (0 : Fin 2) * 1024 + 1 * (j 0).val = win0_3.index t (0 : Fin 2) * 1024 + (j 0).val; omega
    | ⟨1, _⟩ => show win0_3.index t (1 : Fin 2) * 1024 + 1 * (j 1).val = win0_3.index t (1 : Fin 2) * 1024 + (j 1).val; omega
  show out0 (F := Ideal) _ _ _ (win0_3.xinj (grid0.coords t) j) = W0 V c ((win0_3.rect t).emb j)
  rw [hx, he, out0_apply]
  exact entry0_eq V c t ⟨(j 0).val, l0⟩ ⟨(j 1).val, l1⟩ hj1 ⟨_, hk⟩ ⟨_, hn⟩ rfl rfl

/-! ## The blocks cover the array -/

/-- An index of the array is in a point's block iff each coordinate is in the block's moved range on its axis. -/
private theorem mem_blk0 (t : Fin cfg0.N) (i : S4096x11008.Idx) :
    i ∈ ((cfg0.win 3).blk t).view.set ↔ ∀ a : Fin 2, win0_3.index t a * S1024x1024.size a ≤ (i a).val
      ∧ (i a).val < win0_3.index t a * S1024x1024.size a + win0_3.xsize (grid0.coords t) a := by
  show i ∈ ((View.whole main_v1).slice (win0_3.rect t)).set ↔ _
  rw [View.set_slice_whole, Rect.mem_set_unit]
  exact Iff.rfl

/-- The 4 × 11 blocks, the last column block cut at column 11008, cover the array: index (k, n) lies in the block at
    block index (k / 1024, n / 1024). -/
private theorem cover0 (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, q0, q1⟩ := idx_onto0 ⟨(i 0).val / 1024, by omega⟩ ⟨(i 1).val / 1024, by omega⟩
  have q0' : win0_3.index t (0 : Fin 2) = (i 0).val / 1024 := q0
  have q1' : win0_3.index t (1 : Fin 2) = (i 1).val / 1024 := q1
  obtain ⟨b0, b1, e00, e01, e10, e11, e20, e21, x30, x31, x00, x01, x10, x11, x20, x21⟩ := idx_facts0 t
  refine ⟨t, flush0_3 t, ?_⟩
  rw [mem_blk0]
  intro a
  match a with
  | ⟨0, _⟩ =>
    show win0_3.index t (0 : Fin 2) * 1024 ≤ (i 0).val
      ∧ (i 0).val < win0_3.index t (0 : Fin 2) * 1024 + win0_3.xsize (grid0.coords t) (0 : Fin 2)
    omega
  | ⟨1, _⟩ =>
    show win0_3.index t (1 : Fin 2) * 1024 ≤ (i 1).val
      ∧ (i 1).val < win0_3.index t (1 : Fin 2) * 1024 + win0_3.xsize (grid0.coords t) (1 : Fin 2)
    omega

/-- The weight array after region 0. -/
theorem arr0_final (c : Dev nD) :
    (dat0 (F := Ideal) V c).arrAt 3 cfg0.N
      = Cert.Spec.wmat (V c main_arg1) (V c main_arg3) (fun n => V c main_v0 (ValueIdx.ix2 (0 : Fin 1) n)) :=
  (dat0 (F := Ideal) V c).arrAt_eq_of_cover 3 (W0 V c) (fun t _ => flushed0_eq V c t) (cover0)

end Cert.KernelIdeal.Hand

end
-- ==== Proof.KI.Glue.lean ====
/-
  The kernel program's host side read at an index: `x` narrowed (the identity over the extended reals) and laid out as
  `8192 × 4096` (row `2048 b + s`), the scale and bias rows as `1 × 11008`, the `8192 × 11008` product laid out as
  `4 × 2048 × 11008`. With the slab-by-slab contraction regrouped (`Cert.Spec.sum_slabs`) this is the specification.
-/
import proofs.«403986_j20675972563491_3_alg».proof.Proof.Gen.KernelIdeal.Launch
import proofs.«403986_j20675972563491_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

/-- A `[4, 2048, c]` array laid out as `[8192, c]` reads, at row `2048 b + s`, the operand at `(b, s, ·)`. -/
theorem cast_rows_apply {α : Type} {c : ℕ} (y : (⟨3, ![4, 2048, c]⟩ : Shape).Idx → α)
    (h : (⟨3, ![4, 2048, c]⟩ : Shape).ShapeCasts ⟨2, ![8192, c]⟩) (b : Fin 4) (s : Fin 2048) (k : Fin c)
    (hr : 2048 * b.val + s.val < 8192) :
    shapeCast ⟨2, ![8192, c]⟩ y h (ix2 ⟨2048 * b.val + s.val, hr⟩ k) = y (ix3 b s k) :=
  shapeCast_apply y h _ _ (by
    rw [Shape.rowMajor_val_three, Shape.rowMajor_val_two]
    show (b.val * 2048 + s.val) * c + k.val = (2048 * b.val + s.val) * c + k.val
    rw [Nat.mul_comm b.val 2048])

/-- A `[8192, c]` array laid out as `[4, 2048, c]` reads, at `(b, s, ·)`, the operand at row `2048 b + s`. -/
theorem cast_slabs_apply {α : Type} {c : ℕ} (y : (⟨2, ![8192, c]⟩ : Shape).Idx → α)
    (h : (⟨2, ![8192, c]⟩ : Shape).ShapeCasts ⟨3, ![4, 2048, c]⟩) (b : Fin 4) (s : Fin 2048) (k : Fin c)
    (hr : 2048 * b.val + s.val < 8192) :
    shapeCast ⟨3, ![4, 2048, c]⟩ y h (ix3 b s k) = y (ix2 ⟨2048 * b.val + s.val, hr⟩ k) :=
  shapeCast_apply y h _ _ (by
    rw [Shape.rowMajor_val_three, Shape.rowMajor_val_two]
    show (2048 * b.val + s.val) * c + k.val = (b.val * 2048 + s.val) * c + k.val
    rw [Nat.mul_comm b.val 2048])

/-- The kernel program's result, from what its two regions compute, is the specification of its five arguments. -/
theorem glue (x : Vec Ideal S4x2048x4096 .f32) (qw : Vec Ideal S4096x1376 .i32) (sc : Vec Ideal S11008 .f32)
    (qz : Vec Ideal S1x1376 .i32) (bias : Vec Ideal S11008 .f32) :
    shapeCast S4x2048x11008
        (Cert.Spec.mm (shapeCast S8192x4096 (truncf .bf16 x Facts₀.bitsLt_bf16_f32 : FVec Ideal S4x2048x4096 .bf16) Facts₀.shapeCasts_S4x2048x4096_S8192x4096)
          (Cert.Spec.wmat qw qz (fun n => (shapeCast S1x11008 sc Facts₀.shapeCasts_S11008_S1x11008) (ix2 (0 : Fin 1) n)))
          (fun n => (shapeCast S1x11008 bias Facts₀.shapeCasts_S11008_S1x11008) (ix2 (0 : Fin 1) n)))
        Facts₀.shapeCasts_S8192x11008_S4x2048x11008
      = Cert.Spec.result x qw (fun n => sc (ix1 n)) qz (fun n => bias (ix1 n)) := by
  funext j
  obtain ⟨b, s, n, rfl⟩ : ∃ (b : Fin 4) (s : Fin 2048) (n : Fin 11008), j = ix3 b s n := ⟨j 0, j 1, j 2, eq_ix3 j⟩
  have hr : 2048 * b.val + s.val < 8192 := by have := b.isLt; have := s.isLt; omega
  rw [cast_slabs_apply _ Facts₀.shapeCasts_S8192x11008_S4x2048x11008 b s n hr]
  have hsc : (fun m : Fin 11008 => (shapeCast S1x11008 sc Facts₀.shapeCasts_S11008_S1x11008) (ix2 (0 : Fin 1) m))
      = fun m => sc (ix1 m) := funext fun m => shapeCast_a_1a_apply sc _ 0 m
  have hb : (fun m : Fin 11008 => (shapeCast S1x11008 bias Facts₀.shapeCasts_S11008_S1x11008) (ix2 (0 : Fin 1) m))
      = fun m => bias (ix1 m) := funext fun m => shapeCast_a_1a_apply bias _ 0 m
  rw [hsc, hb]
  show (∑ kt : Fin 8, ∑ kk : Fin 512,
        shapeCast S8192x4096 (truncf .bf16 x Facts₀.bitsLt_bf16_f32 : FVec Ideal S4x2048x4096 .bf16) Facts₀.shapeCasts_S4x2048x4096_S8192x4096
            (ix2 ⟨2048 * b.val + s.val, hr⟩ ⟨kt.val * 512 + kk.val, Cert.Spec.slab_lt⟩)
          * Cert.Spec.wq qw qz (fun m => sc (ix1 m)) ⟨kt.val * 512 + kk.val, Cert.Spec.slab_lt⟩ n) + bias (ix1 n)
      = (∑ k : Fin 4096, x (ix3 b s k) * Cert.Spec.wq qw qz (fun m => sc (ix1 m)) k n) + bias (ix1 n)
  rw [Cert.Spec.sum_slabs (fun k : Fin 4096 => x (ix3 b s k) * Cert.Spec.wq qw qz (fun m => sc (ix1 m)) k n)]
  congr 1
  refine Finset.sum_congr rfl fun kt _ => Finset.sum_congr rfl fun kk _ => ?_
  rw [cast_rows_apply _ Facts₀.shapeCasts_S4x2048x4096_S8192x4096 b s _ hr]
  rfl

end Cert.KernelIdeal.Hand

end
-- ==== Proof.KI.Run.lean ====
/-
  The run of the kernel program over the extended reals: @main is five items — a reshape, the dequantisation call, three
  host operations, the matrix-product call, a reshape — certified as a list of segments, each entered from what the one
  before left. Between items the core holds every unscoped buffer at a known valuation: the launch memory, then each host
  stretch applied, then each call's arrays at what its write-backs leave. Every weakly fair execution ends, nothing
  faults, every buffer ends at the last valuation; read at the result it is the specification of the five arguments, and
  at an argument the launch contents.
-/
import proofs.«403986_j20675972563491_3_alg».proof.Proof.KI.Dat0
import proofs.«403986_j20675972563491_3_alg».proof.Proof.KI.Dat1
import proofs.«403986_j20675972563491_3_alg».proof.Proof.KI.Val0
import proofs.«403986_j20675972563491_3_alg».proof.Proof.KI.Glue
import proofs.«403986_j20675972563491_3_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## The buffer contents between items -/

abbrev W0 : Dev nD → Valuation τ sig (Elt Ideal) := fun c b => m (c, b)
abbrev W1 : Dev nD → Valuation τ sig (Elt Ideal) := fun c => StableHlo.after hostOps0 (W0 m c)
abbrev U1 : (c : Dev nD) → (b : Ref sig .tc) → Buf (Elt Ideal) ((c : Thread nD τ).loc b) := fun c b => W1 m c b
def W2 (c : Dev nD) : Valuation τ sig (Elt Ideal) :=
  Pipeline.withArrays spec0 c (W1 m c) fun w => (dat0 (F := Ideal) (U1 m) c).arrAt w cfg0.N
theorem W2_arr (c : Dev nD) (w : Fin cfg0.W) :
    W2 m c (Proc.devRef .tc (Pipeline.arrRef spec0 w)) = (dat0 (F := Ideal) (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt Ideal) ((c : Thread nD τ).loc b) := fun c b => W2 m c b
theorem hF0 (c : Dev nD) (w : Fin cfg0.W) : (dat0 (F := Ideal) (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

abbrev W3 : Dev nD → Valuation τ sig (Elt Ideal) := fun c => StableHlo.after hostOps1 (W2 m c)
abbrev U3 : (c : Dev nD) → (b : Ref sig .tc) → Buf (Elt Ideal) ((c : Thread nD τ).loc b) := fun c b => W3 m c b
def W4 (c : Dev nD) : Valuation τ sig (Elt Ideal) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt Ideal) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

abbrev W5 : Dev nD → Valuation τ sig (Elt Ideal) := fun c => StableHlo.after hostOps2 (W4 m c)

/-! ## The proof data family and the thread state -/

def pdats : (p : Fin 2) → (c : Dev nD) → Dat τ (Elt Ideal) Unit ℕ (UR sig nD τ) ℕ (Pipeline.pin (pcfgs (F := Ideal)) adm p) c
  | ⟨0, _⟩ => fun c => dat0 (F := Ideal) (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The two calls as segments -/

set_option backward.isDefEq.respectTransparency.types false in
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (F := Ideal) (U1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U3 m) c
  hwaits := Pipeline.hwaits_of_owed_zero _ _ _ _ L lv 1 fun c t => owed1 (U3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := Ideal)) adm (pdats m) launch1.win launch1.arr_whole c
      ((pdats m 1 c).share_full fun w => q1 (U3 m) c w) (U3 m c) fun w => A_eq1 (U3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (U3 m) c 0]
      icases HO with ⟨%W, HO⟩; iexists W; isplitr
      · ipureintro; exact fun _ _ => Or.inl (by rw [show (pdats m 1 c).recorded 0 = Set.univ from recorded1 (U3 m) c 0]; trivial)
      iexact HO
    isplitl [Hp]; · iexact Hp
    iexact Hrest
  hin c := by
    rw [show (pdats m 1 c).Φ 0 = (dat1 (U3 m) c).Φ 0 from rfl]
    iintro ⟨Hp, -, Hr⟩
    iapply (Phi1_in (U3 m) c)
    isplitl [Hp]; · iexact Hp
    iexact Hr
  hout c := by
    rw [Pipeline.ownSems0_none, show (pdats m 1 c).Φ (Fin.last _) = (dat1 (U3 m) c).Φ (Fin.last cfg1.N) from rfl]
    refine (Phi1_out (U3 m) c).trans ?_
    iintro ⟨Hp, Hr⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun w => q1 (U3 m) c w)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed1 (U3 m) c _]
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := Ideal) c = Pipeline.Seg.run (segs m) := (main_chain c).trans (by chain_rfl)

set_option backward.isDefEq.respectTransparency.types false in
/-- Every weakly fair execution of @main ends, nothing faulting, with every unscoped buffer at the last valuation. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.Final.lean ====
/-
  The last valuation of the run over the extended reals, read: at the result buffer it is the specification of the five
  arguments (region 0 leaves the dequantised matrix, region 1 the slab-by-slab product plus bias of the reshaped
  operands, the host stretches are reshapes and a narrowing that is the identity here); at each argument the launch
  contents (no host stretch writes one; a region reads it through an input window, which is never written, or not at all).
-/
import proofs.«403986_j20675972563491_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## No item writes an argument -/

/-- A host stretch leaves a buffer none of its operations writes as it was. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer that is no window's array of either region and that no host stretch writes ends as launched. -/
theorem W5_plain (c : Dev nD) (r : Ref sig .tc) (h2 : r ∉ hostOps2_W) (h1 : r ∉ hostOps1_W) (h0 : r ∉ hostOps0_W)
    (hb1 : ∀ w, Pipeline.arrRef spec1 w ≠ r) (hb0 : ∀ w, Pipeline.arrRef spec0 w ≠ r) :
    W5 m c r = m ((c : Thread nD τ).loc r) :=
  (W5_of m c r h2).trans <| (W4_of_ne m c r hb1).trans <| (W3_of m c r h1).trans <| (W2_of_ne m c r hb0).trans <|
    (W1_of m c r h0).trans rfl

/-- After region 0 the array of an input window of it holds what the region was entered with: an input array is never
    written. -/
theorem W2_input (c : Dev nD) (w : Fin cfg0.W) (hw : (cfg0.win w).isOut = false) :
    W2 m c (Pipeline.arrRef spec0 w) = W1 m c (Pipeline.arrRef spec0 w) :=
  (W2_arr m c w).trans <| ((dat0 (F := Ideal) (U1 m) c).arrAt_in w hw _).trans (A_eq0 (U1 m) c w)

/-- An array region 0 reads through input window `w`, that no host stretch writes and region 1 does not touch, ends as
    launched. -/
theorem W5_input (c : Dev nD) (w : Fin cfg0.W) (hw : (cfg0.win w).isOut = false)
    (h2 : Pipeline.arrRef spec0 w ∉ hostOps2_W) (h1 : Pipeline.arrRef spec0 w ∉ hostOps1_W) (h0 : Pipeline.arrRef spec0 w ∉ hostOps0_W)
    (hb1 : ∀ w', Pipeline.arrRef spec1 w' ≠ Pipeline.arrRef spec0 w) :
    W5 m c (Pipeline.arrRef spec0 w) = m ((c : Thread nD τ).loc (Pipeline.arrRef spec0 w)) :=
  (W5_of m c _ h2).trans <| (W4_of_ne m c _ hb1).trans <| (W3_of m c _ h1).trans <| (W2_input m c w hw).trans <|
    (W1_of m c _ h0).trans rfl

/-! ## What the host stretches leave -/

/-- The first reshape lays the scale vector out as a row. -/
theorem U1_v0 (c : Dev nD) :
    (U1 m c main_v0 : Vec Ideal S1x11008 .f32)
      = shapeCast S1x11008 (m ((c.tc : Thread nD τ).loc main_arg2) : Vec Ideal S11008 .f32) shapeCasts_S11008_S1x11008 := by
  show StableHlo.after hostOps0 (W0 m c) (Proc.devRef .tc main_v0) = _
  after_results
  rfl

/-- Region 0 is entered with the packed weights and the packed zero points as launched. -/
theorem U1_arg1 (c : Dev nD) : U1 m c main_arg1 = m ((c.tc : Thread nD τ).loc main_arg1) := W1_of m c main_arg1 (by decide)
theorem U1_arg3 (c : Dev nD) : U1 m c main_arg3 = m ((c.tc : Thread nD τ).loc main_arg3) := W1_of m c main_arg3 (by decide)

/-- Region 0 leaves the activations and the bias vector as launched: they are no array of it and the first reshape does
    not write them. -/
theorem W2_arg0 (c : Dev nD) : W2 m c (Proc.devRef .tc main_arg0) = m ((c.tc : Thread nD τ).loc main_arg0) :=
  (W2_of_ne m c main_arg0 (by decide)).trans <| (W1_of m c main_arg0 (by decide)).trans rfl
theorem W2_arg4 (c : Dev nD) : W2 m c (Proc.devRef .tc main_arg4) = m ((c.tc : Thread nD τ).loc main_arg4) :=
  (W2_of_ne m c main_arg4 (by decide)).trans <| (W1_of m c main_arg4 (by decide)).trans rfl

/-- The weight array after region 0: the dequantised matrix of the launched packed weights, zero points and scales. -/
theorem W2_v1 (c : Dev nD) :
    W2 m c (Proc.devRef .tc main_v1)
      = Cert.Spec.wmat (m ((c.tc : Thread nD τ).loc main_arg1)) (m ((c.tc : Thread nD τ).loc main_arg3))
          (fun n => (shapeCast S1x11008 (m ((c.tc : Thread nD τ).loc main_arg2) : Vec Ideal S11008 .f32) shapeCasts_S11008_S1x11008)
            (ix2 (0 : Fin 1) n)) := by
  refine (W2_arr m c 3).trans ?_
  refine (arr0_final (U1 m) c).trans ?_
  rw [U1_arg1, U1_arg3, U1_v0]

/-- The second host stretch narrows the activations and lays them out as `8192 × 4096`, -/
theorem U3_v3 (c : Dev nD) :
    (U3 m c main_v3 : Vec Ideal S8192x4096 .bf16)
      = shapeCast S8192x4096 (truncf .bf16 (m ((c.tc : Thread nD τ).loc main_arg0) : Vec Ideal S4x2048x4096 .f32) bitsLt_bf16_f32
          : FVec Ideal S4x2048x4096 .bf16) shapeCasts_S4x2048x4096_S8192x4096 := by
  show StableHlo.after hostOps1 (W2 m c) (Proc.devRef .tc main_v3) = _
  after_results
  rw [W2_arg0]
  rfl

/-- lays the bias vector out as a row, -/
theorem U3_v4 (c : Dev nD) :
    (U3 m c main_v4 : Vec Ideal S1x11008 .f32)
      = shapeCast S1x11008 (m ((c.tc : Thread nD τ).loc main_arg4) : Vec Ideal S11008 .f32) shapeCasts_S11008_S1x11008 := by
  show StableHlo.after hostOps1 (W2 m c) (Proc.devRef .tc main_v4) = _
  after_results
  rw [W2_arg4]
  rfl

/-- and leaves the weight array as region 0 left it. -/
theorem U3_v1 (c : Dev nD) :
    U3 m c main_v1
      = Cert.Spec.wmat (m ((c.tc : Thread nD τ).loc main_arg1)) (m ((c.tc : Thread nD τ).loc main_arg3))
          (fun n => (shapeCast S1x11008 (m ((c.tc : Thread nD τ).loc main_arg2) : Vec Ideal S11008 .f32) shapeCasts_S11008_S1x11008)
            (ix2 (0 : Fin 1) n)) :=
  (W3_of m c main_v1 (by decide)).trans (W2_v1 m c)

/-- The product array after region 1. -/
theorem W4_v5 (c : Dev nD) :
    W4 m c (Proc.devRef .tc main_v5)
      = Cert.Spec.mm
          (shapeCast S8192x4096 (truncf .bf16 (m ((c.tc : Thread nD τ).loc main_arg0) : Vec Ideal S4x2048x4096 .f32) bitsLt_bf16_f32
            : FVec Ideal S4x2048x4096 .bf16) shapeCasts_S4x2048x4096_S8192x4096)
          (Cert.Spec.wmat (m ((c.tc : Thread nD τ).loc main_arg1)) (m ((c.tc : Thread nD τ).loc main_arg3))
            (fun n => (shapeCast S1x11008 (m ((c.tc : Thread nD τ).loc main_arg2) : Vec Ideal S11008 .f32) shapeCasts_S11008_S1x11008)
              (ix2 (0 : Fin 1) n)))
          (fun n => (shapeCast S1x11008 (m ((c.tc : Thread nD τ).loc main_arg4) : Vec Ideal S11008 .f32) shapeCasts_S11008_S1x11008)
            (ix2 (0 : Fin 1) n)) := by
  refine (W4_arr m c 3).trans ?_
  refine (arr1_final (U3 m) c).trans ?_
  rw [U3_v3, U3_v1, U3_v4]

/-- The last reshape lays the product out as `4 × 2048 × 11008`. -/
theorem W5_v6 (c : Dev nD) :
    W5 m c (Proc.devRef .tc main_v6)
      = shapeCast S4x2048x11008 (W4 m c (Proc.devRef .tc main_v5) : Vec Ideal S8192x11008 .f32) shapeCasts_S8192x11008_S4x2048x11008 := by
  show StableHlo.after hostOps2 (W4 m c) (Proc.devRef .tc main_v6) = _
  after_results
  rfl

/-- The result buffer at the end holds the specification of the arguments. -/
theorem W5_result (c : Dev nD) :
    W5 m c (Proc.devRef .tc main_v6)
      = Cert.Spec.result (m ((c.tc : Thread nD τ).loc main_arg0)) (m ((c.tc : Thread nD τ).loc main_arg1))
          (fun n => m ((c.tc : Thread nD τ).loc main_arg2) (ix1 n)) (m ((c.tc : Thread nD τ).loc main_arg3))
          (fun n => m ((c.tc : Thread nD τ).loc main_arg4) (ix1 n)) := by
  rw [W5_v6, W4_v5]
  exact glue (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem W5_arg0 (c : Dev nD) : W5 m c (Proc.devRef .tc main_arg0) = m ((c.tc : Thread nD τ).loc main_arg0) :=
  W5_plain m c main_arg0 (by decide) (by decide) (by decide) (by decide) (by decide)
theorem W5_arg1 (c : Dev nD) : W5 m c (Proc.devRef .tc main_arg1) = m ((c.tc : Thread nD τ).loc main_arg1) :=
  W5_input m c 0 rfl (by decide) (by decide) (by decide) (by decide)
theorem W5_arg2 (c : Dev nD) : W5 m c (Proc.devRef .tc main_arg2) = m ((c.tc : Thread nD τ).loc main_arg2) :=
  W5_plain m c main_arg2 (by decide) (by decide) (by decide) (by decide) (by decide)
theorem W5_arg3 (c : Dev nD) : W5 m c (Proc.devRef .tc main_arg3) = m ((c.tc : Thread nD τ).loc main_arg3) :=
  W5_input m c 1 rfl (by decide) (by decide) (by decide) (by decide)
theorem W5_arg4 (c : Dev nD) : W5 m c (Proc.devRef .tc main_arg4) = m ((c.tc : Thread nD τ).loc main_arg4) :=
  W5_plain m c main_arg4 (by decide) (by decide) (by decide) (by decide) (by decide)

/-- Every weakly fair execution of @main ends, nothing faulting, with the result at the specification of the arguments
    and the arguments as launched. -/
theorem run_value : θ_run defs (onTc (τ := τ) (main (F := Ideal))) ⟨m, fun _ => 0, ρ⟩ (fun r => ∀ c : Dev nD,
      r.2.mem ((c.tc : Thread nD τ).loc main_v6)
          = Cert.Spec.result (m ((c.tc : Thread nD τ).loc main_arg0)) (m ((c.tc : Thread nD τ).loc main_arg1))
              (fun n => m ((c.tc : Thread nD τ).loc main_arg2) (ix1 n)) (m ((c.tc : Thread nD τ).loc main_arg3))
              (fun n => m ((c.tc : Thread nD τ).loc main_arg4) (ix1 n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v6 (by decide))).trans (W5_result m c),
     (h c _ (mem_uc main_arg0 (by decide))).trans (W5_arg0 m c),
     (h c _ (mem_uc main_arg1 (by decide))).trans (W5_arg1 m c),
     (h c _ (mem_uc main_arg2 (by decide))).trans (W5_arg2 m c),
     (h c _ (mem_uc main_arg3 (by decide))).trans (W5_arg3 m c),
     (h c _ (mem_uc main_arg4 (by decide))).trans (W5_arg4 m c)⟩) (run_all m ρ)

end Cert.KernelIdeal.Hand

end
-- ==== Proof.KI.Dat1F.lean ====
/-
  Region 1 (the matrix-product call) as proof data that names nothing, at any float instance: every window forgotten, the
  scratch inside the invariant at contents not stated. This is what a claim that reads none of the region's results — that
  the program runs to its end and leaves its arguments alone — asks of the body: that from any contents of the buffers it
  runs, faults nowhere, and hands the buffers back.
-/
import proofs.«403986_j20675972563491_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data: the arrays as entered; nothing said of any staging buffer; the scoped rest (the scratch among it)
    and the generator register as invariant; nothing owed; full shares. -/
def dat1f (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

theorem A_eq1f (c : Dev nD) (w : Fin cfg1.W) : (dat1f V c).A w = V c (Pipeline.arrRef spec1 w) := by
  dsimp only [dat1f]

/-- A whole buffer held at contents `f` is its whole memref owned at `f`; -/
theorem owns_whole_of_pointsTo (c : Dev nD) (b : Ref sig .tc) (f : Buf (Elt F) ((c : Thread nD τ).loc b)) :
    ((((c : Thread nD τ).loc b) ↦{fullShare} f : sProp 𝕄)) ⊢ owns (c : Thread nD τ) (Memref.whole b) fullShare f := by
  rw [owns_whole_eq]; iintro H; iexists f; isplitr; · ipureintro; rfl
  iexact H

/-- and the whole memref owned at any contents is the buffer held at some. -/
theorem pointsTo_of_owns_whole (c : Dev nD) (b : Ref sig .tc) (X : b.ty.Contents (Elt F)) :
    owns (c : Thread nD τ) (Memref.whole b) fullShare X
      ⊢ (iprop(∃ f : Buf (Elt F) ((c : Thread nD τ).loc b), ((c : Thread nD τ).loc b) ↦{fullShare} f) : sProp 𝕄) := by
  rw [owns_whole_eq]; iintro ⟨%f, %hf, H⟩; iexists f; iexact H

/-- What the body is handed at point `t` when nothing is said of any staging buffer: the invariant, what is owed, and
    each window's current buffer at some contents. What it hands back is the same. -/
def bodyHeld1f (c : Dev nD) (t : Fin cfg1.N) : sProp 𝕄 :=
  iprop(Pipeline.ΦA spec1 c ∗ (dat1f (F := F) V c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

/-- The body at any point, from any contents: the running-sum block is taken out of the scoped rest (its last
    conjunct), the body runs on the four current buffers and on it at whatever they hold, and each is handed back at
    what the body left there, which nothing names. -/
theorem sound_body1f (c : Dev nD) (t : Fin cfg1.N) :
    bodyHeld1f V c t ⊢ wp frame (wpE (defs₀ (F := F)) Variants.none c none) Set.univ (bodyAt1 t) (fun _ => bodyHeld1f V c t) := by
  unfold bodyHeld1f bodyAt1 Pipeline.ΦA
  rw [scopedRest1_eq]
  iintro ⟨⟨⟨R0, R1, R2, R3, R4, R5, R6, R7, ⟨%a, Hs⟩⟩, Hp⟩, Ho, ⟨%x0, H0⟩, ⟨%x1, H1⟩, ⟨%x2, H2⟩, ⟨%x3, H3⟩⟩
  iapply (sound_kernel1 (F := F) c Set.univ (grid1.coords t) _ _ _ _ _ _ _ _ _ _ x0 x1 x2 x3 a _)
  isplitl [H0]; · iexact H0
  isplitl [H1]; · iexact H1
  isplitl [H2]; · iexact H2
  isplitl [H3]; · iexact H3
  isplitl [Hs]
  · iapply (owns_whole_of_pointsTo (F := F) c cc1_scratch0 a); iexact Hs
  iintro ⟨H0, H1, H2, H3, Hs⟩
  isplitl [R0 R1 R2 R3 R4 R5 R6 R7 Hs Hp]
  · isplitr [Hp]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iapply (pointsTo_of_owns_whole (F := F) c cc1_scratch0 _); iexact Hs
    · iexact Hp
  isplitl [Ho]; · iexact Ho
  isplitl [H0]; · iexists _; iexact H0
  isplitl [H1]; · iexists _; iexact H1
  isplitl [H2]; · iexists _; iexact H2
  iexists _; iexact H3

/-- The body obligation with every window forgotten: the body runs from any contents. -/
theorem body_obligation1f (c : Dev nD) :
    BodyObligationLoose (dat1f (F := F) V c) (defs₀ (F := F)) Variants.none () Set.univ (fun _ => true) := fun t => by
  rw [bigSep_W1]
  simp only
  exact sound_body1f V c t

end Cert.KernelIdeal.Hand

end
-- ==== Proof.KI.RunF.lean ====
/-
  The frame of the kernel program at ANY float instance: every weakly fair execution of @main ends, nothing faults, and
  the five argument arrays end as launched. Nothing is claimed of the result. Region 0's arrays are named (its body is
  column-wise, so what it leaves in the weight array is a function of the arguments at any instance); region 1's staging
  buffers are forgotten and its arrays leave the region at SOME contents `A`, which the last host stretch (a reshape of
  the result array) carries along: between items the core holds every unscoped buffer at a valuation that, from region
  1's exit on, is stated under an existential. No argument is among what region 1 or a host stretch may change.
-/
import proofs.«403986_j20675972563491_3_alg».proof.Proof.KI.Dat0
import proofs.«403986_j20675972563491_3_alg».proof.Proof.KI.Dat1F
import proofs.«403986_j20675972563491_3_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## The buffer contents between items -/

abbrev X0 : Dev nD → Valuation τ sig (Elt F) := fun c b => m (c, b)
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hG0 (c : Dev nD) (w : Fin cfg0.W) : (dat0 (Y1 m) c).arrAt w cfg0.N = Y2 m c (Pipeline.arrRef spec0 w) :=
  (X2_arr m c w).symm
theorem hr0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

abbrev X3 : Dev nD → Valuation τ sig (Elt F) := fun c => StableHlo.after hostOps1 (X2 m c)
abbrev Y3 : (c : Dev nD) → (b : Ref sig .tc) → Buf (Elt F) ((c : Thread nD τ).loc b) := fun c b => X3 m c b

/-- After region 1: its arrays at contents `A`, every other buffer as before it. -/
def X4 (c : Dev nD) (A : (w : Fin cfg1.W) → Buf (Elt F) ((cfg1.win w).arr.view.loc (c.tc : Thread nD τ))) : Valuation τ sig (Elt F) :=
  Pipeline.withArrays spec1 c (X3 m c) A
theorem X4_arr (c : Dev nD) (A : (w : Fin cfg1.W) → Buf (Elt F) ((cfg1.win w).arr.view.loc (c.tc : Thread nD τ))) (w : Fin cfg1.W) :
    X4 m c A (Proc.devRef .tc (Pipeline.arrRef spec1 w)) = A w := by
  unfold X4; exact Pipeline.withArrays_arr spec1 launch1.win.arr_inj c _ _ w
theorem X4_of_ne (c : Dev nD) (A : (w : Fin cfg1.W) → Buf (Elt F) ((cfg1.win w).arr.view.loc (c.tc : Thread nD τ))) (b : Ref sig .tc)
    (hb : ∀ w, Pipeline.arrRef spec1 w ≠ b) : X4 m c A (Proc.devRef .tc b) = X3 m c (Proc.devRef .tc b) := by
  unfold X4; exact Pipeline.withArrays_of_ne spec1 c _ _ b hb
abbrev X5 (c : Dev nD) (A : (w : Fin cfg1.W) → Buf (Elt F) ((cfg1.win w).arr.view.loc (c.tc : Thread nD τ))) : Valuation τ sig (Elt F) :=
  StableHlo.after hostOps2 (X4 m c A)

/-! ## No item writes an argument -/

theorem X1_of (c : Dev nD) (r : Ref sig .tc) (h : r ∉ hostOps0_W) : X1 m c r = X0 m c r :=
  StableHlo.after_of_writes_sub hostOps0 _ hostOps0_writes h
theorem X3_of (c : Dev nD) (r : Ref sig .tc) (h : r ∉ hostOps1_W) : X3 m c r = X2 m c r :=
  StableHlo.after_of_writes_sub hostOps1 _ hostOps1_writes h
theorem X5_of (c : Dev nD) (A : (w : Fin cfg1.W) → Buf (Elt F) ((cfg1.win w).arr.view.loc (c.tc : Thread nD τ))) (r : Ref sig .tc)
    (h : r ∉ hostOps2_W) : X5 m c A r = X4 m c A r :=
  StableHlo.after_of_writes_sub hostOps2 _ hostOps2_writes h

/-- An argument that is no window's array of either region reaches the end as launched. -/
theorem X5_plain (c : Dev nD) (A : (w : Fin cfg1.W) → Buf (Elt F) ((cfg1.win w).arr.view.loc (c.tc : Thread nD τ))) (r : Ref sig .tc)
    (h2 : r ∉ hostOps2_W) (h1 : r ∉ hostOps1_W) (h0 : r ∉ hostOps0_W)
    (hb1 : ∀ w, Pipeline.arrRef spec1 w ≠ r) (hb0 : ∀ w, Pipeline.arrRef spec0 w ≠ r) :
    X5 m c A r = m ((c : Thread nD τ).loc r) :=
  (X5_of m c A r h2).trans <| (X4_of_ne m c A r hb1).trans <| (X3_of m c r h1).trans <| (X2_of_ne m c r hb0).trans <| (X1_of m c r h0).trans rfl

/-- An argument that region 0 reads through input window `w` reaches the end as launched: an input array is never written. -/
theorem X5_input (c : Dev nD) (A : (w : Fin cfg1.W) → Buf (Elt F) ((cfg1.win w).arr.view.loc (c.tc : Thread nD τ))) (w : Fin cfg0.W)
    (hw : (cfg0.win w).isOut = false)
    (h2 : Pipeline.arrRef spec0 w ∉ hostOps2_W) (h1 : Pipeline.arrRef spec0 w ∉ hostOps1_W) (h0 : Pipeline.arrRef spec0 w ∉ hostOps0_W)
    (hb1 : ∀ w', Pipeline.arrRef spec1 w' ≠ Pipeline.arrRef spec0 w) :
    X5 m c A (Pipeline.arrRef spec0 w) = m ((c : Thread nD τ).loc (Pipeline.arrRef spec0 w)) :=
  (X5_of m c A _ h2).trans <| (X4_of_ne m c A _ hb1).trans <| (X3_of m c _ h1).trans <| (X2_arr m c w).trans <|
    ((dat0 (Y1 m) c).arrAt_in w hw _).trans <| (A_eq0 (Y1 m) c w).trans <| (X1_of m c _ h0).trans rfl

/-! ## The proof data family and the thread state -/

/-- The exact data of both regions (region 1's names nothing): what the shares are read off. -/
def pdatsF : (p : Fin 2) → (c : Dev nD) → Dat τ (Elt F) Unit ℕ (UR sig nD τ) ℕ (Pipeline.pin (pcfgs (F := F)) adm p) c
  | ⟨0, _⟩ => fun c => dat0 (Y1 m) c
  | ⟨1, _⟩ => fun c => dat1f (Y3 m) c
/-- The relational data the launch runs on: region 0 exact, region 1 with every window forgotten. -/
def rdatsF : (p : Fin 2) → (c : Dev nD) → RDat τ (Elt F) Unit ℕ (UR sig nD τ) ℕ (Pipeline.pin (pcfgs (F := F)) adm p) c
  | ⟨0, _⟩ => fun c => (dat0 (Y1 m) c).toR
  | ⟨1, _⟩ => fun c => (dat1f (Y3 m) c).toRForget (fun _ => true)
abbrev 𝒱f : Variants := Variants.none
abbrev Lf : GSem nD τ sig → Finset Unit := fun _ => ∅
abbrev lvf : GSem nD τ sig → Unit → ℕ := fun _ _ => 0
abbrev Rf (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rf

set_option backward.isDefEq.respectTransparency.types false in
/-- The last host stretch, entered with region 1's arrays at some contents: it runs at whichever they are. -/
def hsegE : Pipeline.HostSeg (Name := ℕ) (U := UR sig nD τ) (pcfgs (F := F)) defs₀ 𝒱f Lf lvf where
  prog := StableHlo.seq hostOps2
  pre c := iprop(∃ A, StableHlo.held (c : Thread nD τ) (Pipeline.ucRefs τ sig) (X4 m c A) ∗ Rf c)
  post c := iprop(∃ A, StableHlo.held (c : Thread nD τ) (Pipeline.ucRefs τ sig) (X5 m c A) ∗ Rf c)
  run c {β} k K := by
    iintro ⟨Hk, Hbd, ⟨%A, Hh, HR⟩, -⟩
    have hseq := StableHlo.wp_seq (defs := Pipeline.defs (pcfgs (F := F)) defs₀) (Variants.lift 𝒱f) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (X4 m c A)
    iapply hseq $$ [Hbd Hh]
    · isplitl [Hbd] <;> iassumption
    iintro ⟨Hbd, Hh⟩
    iapply Hk
    isplitl [Hbd]; · iexact Hbd
    iexists A
    isplitl [Hh] <;> iassumption

/-! ## The two calls as segments -/

theorem shareF0 (c : Dev nD) (w : Fin cfg0.W) : (rdatsF m 0 c).share w = fullShare :=
  (pdatsF m 0 c).share_full (fun _ => rfl) w
theorem shareF1 (c : Dev nD) (w : Fin cfg1.W) : (rdatsF m 1 c).share w = fullShare :=
  (pdatsF m 1 c).share_full (fun _ => rfl) w

set_option backward.isDefEq.respectTransparency.types false in
def regF0 : Pipeline.RDat.RegionSeg (pcfgs (F := F)) adm (rdatsF m) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (Y1 m) c).toR
  hwaits := Pipeline.RDat.hwaits_of_owed_zero _ _ _ _ Lf lvf 0 fun _ _ => rfl
  pre c := iprop(StableHlo.held (c : Thread nD τ) (Pipeline.ucRefs τ sig) (X1 m c) ∗ Rf c)
  post c := iprop(StableHlo.held (c : Thread nD τ) (Pipeline.ucRefs τ sig) (X2 m c) ∗ Rf c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.RDat.arrays_of_unscopedBufs (p := 0) (pcfgs (F := F)) adm (rdatsF m) launch0.win launch0.arr_whole c
      (shareF0 m c) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (Y1 m c) (Y2 m c) ((pdatsF m 0 c).arrAt · cfg0.N) (hG0 m c) (hr0 m c)
    rw [Pipeline.unscopedBufs_held] at hjoin
    rw [show (rdatsF m 0 c).arraysAt (Pipeline.pin (pcfgs (F := F)) adm 0).N = ((pdatsF m 0 c).arrays ((pdatsF m 0 c).arrAt · cfg0.N) : sProp 𝕄)
      from (dat0 (Y1 m) c).toR_arraysAt_eq _]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def regF1 : Pipeline.RDat.RegionSeg (pcfgs (F := F)) adm (rdatsF m) () defs₀ 𝒱f Lf lvf 1 where
  win := launch1.win.to₀
  block_pos := launch1.block_pos
  stage_whole := launch1.stage_whole
  K := PEmpty
  osem k := k.elim
  ho := Pipeline.OwnSemFacts.none _
  hbody c := (body_obligation1f (Y3 m) c).toRForget
  hwaits := Pipeline.RDat.hwaits_of_owed_zero _ _ _ _ Lf lvf 1 fun _ _ => rfl
  pre c := iprop(StableHlo.held (c : Thread nD τ) (Pipeline.ucRefs τ sig) (X3 m c) ∗ Rf c)
  post c := iprop(∃ A, StableHlo.held (c : Thread nD τ) (Pipeline.ucRefs τ sig) (X4 m c A) ∗ Rf c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.RDat.arrays_of_unscopedBufs (p := 1) (pcfgs (F := F)) adm (rdatsF m) launch1.win launch1.arr_whole c
      (shareF1 m c) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsF m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays at SOME contents they may hold after every write-back, opened
    have hopen : ((rdatsF m 1 c).arraysAt (Pipeline.pin (pcfgs (F := F)) adm 1).N : sProp 𝕄)
        ⊢ iprop(∃ A : (w : Fin cfg1.W) → Buf (Elt F) ((cfg1.win w).arr.view.loc (c.tc : Thread nD τ)), (pdatsF m 1 c).arrays A) := by
      unfold Pipeline.RDat.arraysAt
      iintro Ha
      ihave Ha' := (BI.bigSep_exists_pi Finset.univ (fun (w : Fin cfg1.W) F => iprop(⌜(rdatsF m 1 c).ArrAt w cfg1.N F⌝
          ∗ (cfg1.win w).arr.view.loc (c.tc : Thread nD τ) ↦[(cfg1.win w).arr.view.set]{(rdatsF m 1 c).share w} F))) $$ Ha
      icases Ha' with ⟨%A, Ha⟩
      ihave Ha2 := (BI.bigSep_pure_sep Finset.univ (fun (w : Fin cfg1.W) => (rdatsF m 1 c).ArrAt w cfg1.N (A w))
          (fun w => (cfg1.win w).arr.view.loc (c.tc : Thread nD τ) ↦[(cfg1.win w).arr.view.set]{(rdatsF m 1 c).share w} A w)) $$ Ha
      icases Ha2 with ⟨-, Ha⟩
      iexists A
      iapply (Entails.of_eq (show (bigSep Finset.univ fun w : Fin cfg1.W =>
          ((cfg1.win w).arr.view.loc (c.tc : Thread nD τ) ↦[(cfg1.win w).arr.view.set]{(rdatsF m 1 c).share w} A w : sProp 𝕄))
        = (pdatsF m 1 c).arrays A from rfl))
      iexact Ha
    iintro ⟨Ha, HO, HY, Hrest⟩
    ihave Ha' := hopen $$ Ha
    icases Ha' with ⟨%A, Ha⟩
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (Y3 m c) (fun b => X4 m c A b) A (fun w => (X4_arr m c A w).symm)
      (fun b hb => X4_of_ne m c A b fun w e => hb (Finset.mem_image.mpr ⟨w, Finset.mem_univ _, e⟩))
    rw [Pipeline.unscopedBufs_held] at hjoin
    imodintro
    iexists A
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

abbrev segsF : List (Pipeline.RDat.Seg (pcfgs (F := F)) adm (rdatsF m) () defs₀ 𝒱f Lf lvf) :=
  [ .host (hsegF hostOps0 hostOps0_sub hostOps0_fresh (X0 m)),
    .region (regF0 m),
    .host (hsegF hostOps1 hostOps1_sub hostOps1_fresh (X2 m)),
    .region (regF1 m),
    .host (hsegE m) ]
theorem main_runF (c : Dev nD) : main (F := F) c = Pipeline.RDat.Seg.run (segsF m) := (main_chain c).trans (by chain_rfl)

abbrev TF (c : Dev nD) : sProp 𝕄 := iprop(∃ A, StableHlo.held (c : Thread nD τ) (Pipeline.ucRefs τ sig) (X5 m c A) ∗ ∃ r, prngReg c r)

set_option backward.isDefEq.respectTransparency.types false in
/-- THE FRAME at any float instance: every weakly fair execution of @main ends, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdatsF m) () cellOf_inj emb₁ defs₀ 𝒱f Lf lvf m ρ main (segsF m)
    (fun c Q => by rw [main_runF m c])
    (by simp only [segsF, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Rf c)) (Tₙ := TF m)
    (hch := ⟨fun _ => .rfl, fun _ => .rfl, fun _ => .rfl, fun _ => .rfl, fun _ => .rfl, fun c => by
      show (iprop(∃ A, StableHlo.held (c : Thread nD τ) (Pipeline.ucRefs τ sig) (X5 m c A) ∗ Rf c) : sProp 𝕄) ⊢ _
      iintro ⟨%A, Hh, Hp, HO⟩
      isplitl [Hh Hp]
      · iexists A
        isplitl [Hh]; · iexact Hh
        iexact Hp
      iexact HO⟩)
    (hinit := by
      refine Pipeline.initEach Lf lvf fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      iintro ⟨⟨%A, Hh, -⟩, HSI⟩
      unfold StableHlo.held
      ihave Hr := (pointsTo_read_all (Pipeline.ucRefs τ sig) (fun b => ((c : Thread nD τ).1, b)) (X5 m c A) s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans
            (X5_plain m c A main_arg0 (by decide) (by decide) (by decide) (by decide) (by decide)),
          (h (Proc.devRef .tc main_arg1) (Finset.mem_filter.mpr ⟨StableHlo.devRef_mem_tcRefs main_arg1, by decide⟩)).trans
            (X5_input m c A 0 rfl (by decide) (by decide) (by decide) (by decide)),
          (h (Proc.devRef .tc main_arg2) (Finset.mem_filter.mpr ⟨StableHlo.devRef_mem_tcRefs main_arg2, by decide⟩)).trans
            (X5_plain m c A main_arg2 (by decide) (by decide) (by decide) (by decide) (by decide)),
          (h (Proc.devRef .tc main_arg3) (Finset.mem_filter.mpr ⟨StableHlo.devRef_mem_tcRefs main_arg3, by decide⟩)).trans
            (X5_input m c A 1 rfl (by decide) (by decide) (by decide) (by decide)),
          (h (Proc.devRef .tc main_arg4) (Finset.mem_filter.mpr ⟨StableHlo.devRef_mem_tcRefs main_arg4, by decide⟩)).trans
            (X5_plain m c A main_arg4 (by decide) (by decide) (by decide) (by decide) (by decide))⟩
      · iexact HSI)
    (hQ := fun s h c => h c)

end Cert.KernelIdeal.Hand

end
-- ==== Proof.K.Body0.lean ====
/-
  The dequantisation kernel's body as one triple, at any float instance: it loads the packed weight block, the packed
  zero-point row and the scale row, and stores into the result block one value — eight 4-bit fields of each 32-bit word
  laid side by side along the columns, the zero-point's field subtracted, the difference converted to a float, scaled by
  the column's scale and narrowed — leaving the three inputs as they were. What it stores is `out0` of what it loaded.
-/
import proofs.«403986_j20675972563491_3_alg».proof.Proof.Gen.Kernel.Launch
import proofs.«403986_j20675972563491_3_alg».proof.Proof.Gen.Kernel.Skeleton
import proofs.«403986_j20675972563491_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the body stores into the result block, from the three blocks it loads: column `8 g + f` of row `r` is field
    `f` of word `(r, g)` of the packed weights less field `f` of word `g` of the packed zero points, as a float, times
    the scale of that column, narrowed. -/
def out0 (x0 : Vec F S1024x128 .i32) (x1 : Vec F S1x128 .i32) (x2 : Vec F S1x1024 .f32) : Vec F S1024x1024 .bf16 :=
  k0_pay1 (k0_pay2 x2)
    (k0_pay11 (k0_pay3 x0) (k0_pay4 x0) (k0_pay5 x0) (k0_pay6 x0) (k0_pay7 x0) (k0_pay8 x0) (k0_pay9 x0) (k0_pay10 x0))
    (k0_pay12 x1) (k0_pay13 x1) (k0_pay14 x1) (k0_pay15 x1) (k0_pay16 x1) (k0_pay17 x1) (k0_pay18 x1) (k0_pay19 x1)

/-- One unmasked store through the rectangle of a view's whole shape at zero offsets, over any contents, reads back as
    its payload: the one piece covers every index, and under it the contents are the payload. -/
private theorem read_write_unit_zero {Val : EltTy → Type} [∀ e, Nonempty (Val e)] {sig' : RefSig} {κ : Kind} {sp : Space}
    {S : Shape} {e : EltTy} (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- The body on whole staging memrefs, the three inputs' at contents `x0 x1 x2` and the result's at anything, runs to the
    continuation holding the inputs' as they were and the result's at `out0 x0 x1 x2`. -/
theorem sound_kernel0 (c : Dev nD) (E : Set ℕ) (i : grid0.Coords)
    (arg2 : Memref sig .tc .vmem S1024x128 .i32) (harg2 : arg2.IsWhole) (arg3 : Memref sig .tc .vmem S1x128 .i32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x128 .i32) (x1 : Vec F S1x128 .i32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d : Vec F S1024x1024 .bf16, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (out0 x0 x1 x2)) -∗ K ⟨⟩))
      ⊢ wp frame (wpE (defs₀ (F := F)) Variants.none c none) E (cc0__dequant_kernel i arg2 harg2 arg3 harg3 arg4 harg4 arg5 harg5) K := by
  -- the body is its sequence of memory operations over the named values
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- the three loads read the inputs' contents, the load of the result block reads a value nothing uses, and the one
  -- store writes the result block over whatever it held
  sl_exec
  sl_step
  iapply Hk
  -- the inputs are handed back at the contents they came with
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store is through the whole block at offsets zero, so the block reads back as the stored value;
  have hz : (![0, 0] : Fin 2 → Nat) = fun _ => 0 := funext fun a => by fin_cases a <;> rfl
  refine (read_write_unit_zero (S := S1024x1024) arg5.view f3 hz inb_S1024x1024_S1024x1024_0_0 _).trans ?_
  -- each load is through its whole block at offsets zero as well, so it reads the block's contents;
  have hr0 : ∀ inb, arg2.view.readAt (Elt F) (Rect.unit (s := S1024x128) ![0, 0] S1024x128.size inb).toLoadRect f0
      = arg2.view.read (Elt F) f0 := fun inb => View.ld_unit_zero (S := S1024x128) hz inb _
  have hr1 : ∀ inb, arg3.view.readAt (Elt F) (Rect.unit (s := S1x128) ![0, 0] S1x128.size inb).toLoadRect f1
      = arg3.view.read (Elt F) f1 := fun inb => View.ld_unit_zero (S := S1x128) hz inb _
  have hr2 : ∀ inb, arg4.view.readAt (Elt F) (Rect.unit (s := S1x1024) ![0, 0] S1x1024.size inb).toLoadRect f2
      = arg4.view.read (Elt F) f2 := fun inb => View.ld_unit_zero (S := S1x1024) hz inb _
  -- and the stored value, computed from the three loaded blocks, is `out0` of them term for term
  sl_unfold_words
  rw [hr0, hr1, hr2]
  rfl

end Cert.Kernel.Hand

end
-- ==== Proof.K.Dat0.lean ====
/-
  Region 0 (the dequantisation call) as proof data, at any float instance, from the buffer contents `V` the region is
  entered at. Every window's blocks may overhang its array along the columns (the last of the eleven column blocks covers
  768 of its 1024 columns; 96 of 128 for the packed windows), so a staging buffer holds the array's block on the part a
  transfer moves and words nothing names past it. The body is column-wise: column `n` of the result block reads column
  `n / 8` of the packed blocks and column `n` of the scale block, and `n` lies in the moved part of the result's block
  exactly when `n / 8` lies in the packed blocks' (8 · 96 = 768). So the moved part of what the body stores is a function of
  the moved parts of what it loads, which is all the obligation of an overhanging window states.
-/
import proofs.«403986_j20675972563491_3_alg».proof.Proof.K.Body0
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## The result block read at an index -/

/-- Field `f` of a packed word: its bits `4 f` to `4 f + 3`. -/
def fld0 (f : Nat) (w : BitVec 32) : BitVec 32 :=
  IntOp.andi (IntOp.shrsi .vector w (BitVec.ofNat 32 (4 * f))) 15#32

/-- One element of the result, column `n`, from the packed weight word, the packed zero-point word and the scale it reads. -/
def deq0 (w z : BitVec 32) (s : F .f32) (n : Nat) : F .bf16 :=
  FloatOps.truncf .bf16 bitsLt_bf16_f32 (FloatOps.mulf (FloatOps.sitofp .f32 (IntOp.subi (fld0 (n % 8) w) (fld0 (n % 8) z))) s)

/-- Eight arrays of one column each per group, laid side by side along a last axis of eight and the two last axes then
    merged: column `n` of the result is array `n % 8` at group `n / 8`. -/
theorem fields_apply {α : Type} {R : Nat} (P : Fin 8 → ((⟨3, ![R, 128, 1]⟩ : Shape).Idx → α))
    (hc : Shape.Concatenates ((List.ofFn fun k : Fin 8 => (⟨⟨3, ![R, 128, 1]⟩, P k⟩ : (s : Shape) × (s.Idx → α))).map (·.1)) ⟨3, ![R, 128, 8]⟩ (2 : Fin 3))
    (hs : (⟨3, ![R, 128, 8]⟩ : Shape).ShapeCasts ⟨2, ![R, 1024]⟩) (r : Fin R) (n : Fin 1024) :
    shapeCast ⟨2, ![R, 1024]⟩ (concatenate ⟨3, ![R, 128, 8]⟩ (2 : Fin 3) (List.ofFn fun k : Fin 8 => (⟨⟨3, ![R, 128, 1]⟩, P k⟩ : (s : Shape) × (s.Idx → α))) hc) hs (ix2 r n)
      = P ⟨n.val % 8, Nat.mod_lt _ (by decide)⟩ (ix3 r ⟨n.val / 8, by omega⟩ (0 : Fin 1)) := by
  refine (shapeCast_apply _ hs (ix2 r n) (ix3 r (⟨n.val / 8, by omega⟩ : Fin 128) (⟨n.val % 8, Nat.mod_lt _ (by decide)⟩ : Fin 8)) ?_).trans ?_
  · rw [Shape.rowMajor_val_three, Shape.rowMajor_val_two]
    show (r.val * 128 + n.val / 8) * 8 + n.val % 8 = r.val * 1024 + n.val
    omega
  · refine concatenate_ofFn_unit_apply (t := ⟨3, ![R, 128, 8]⟩) (s₁ := ⟨3, ![R, 128, 1]⟩) (2 : Fin 3) P hc rfl rfl
      (ix3 r (⟨n.val / 8, by omega⟩ : Fin 128) (⟨n.val % 8, Nat.mod_lt _ (by decide)⟩ : Fin 8)) ⟨n.val % 8, Nat.mod_lt _ (by decide)⟩ rfl
      (ix3 r (⟨n.val / 8, by omega⟩ : Fin 128) (0 : Fin 1)) fun b => ?_
    match b with
    | ⟨0, _⟩ => exact fun _ => rfl
    | ⟨1, _⟩ => exact fun _ => rfl
    | ⟨2, _⟩ => exact fun h => absurd rfl h

/-- The eight fields of the packed weight block, each as an array of one column per word. -/
def wfld (x0 : Vec F S1024x128 .i32) (k : Fin 8) : IVec S1024x128x1 32 :=
  shapeCast S1024x128x1 (andi (shrsi x0 (broadcast S1024x128 (BitVec.ofNat 32 (4 * k.val)))) (broadcast S1024x128 15#32))
    shapeCasts_S1024x128_S1024x128x1

/-- The eight fields of the packed zero-point row, likewise. -/
def zfld (x1 : Vec F S1x128 .i32) (k : Fin 8) : IVec S1x128x1 32 :=
  shapeCast S1x128x1 (andi (shrsi x1 (broadcast S1x128 (BitVec.ofNat 32 (4 * k.val)))) (broadcast S1x128 15#32))
    shapeCasts_S1x128_S1x128x1

/-- The unpacked weights at row `r`, column `n`: field `n % 8` of word `(r, n / 8)`. -/
theorem wts_apply (x0 : Vec F S1024x128 .i32) (r : Fin 1024) (n : Fin 1024) :
    k0_pay11 (k0_pay3 x0) (k0_pay4 x0) (k0_pay5 x0) (k0_pay6 x0) (k0_pay7 x0) (k0_pay8 x0) (k0_pay9 x0) (k0_pay10 x0) (ix2 r n)
      = fld0 (n.val % 8) (x0 (ix2 r ⟨n.val / 8, by omega⟩)) := by
  refine (fields_apply (R := 1024) (wfld x0) concatenates_S1024x128x1_S1024x128x1_S1024x128x1_S1024x128x1_S1024x128x1_S1024x128x1_S1024x128x1_S1024x128x1_S1024x128x8_d2 shapeCasts_S1024x128x8_S1024x1024 r n).trans ?_
  unfold wfld
  refine (shapeCast_apply _ shapeCasts_S1024x128_S1024x128x1 (ix3 r (⟨n.val / 8, by omega⟩ : Fin 128) (0 : Fin 1))
    (ix2 r (⟨n.val / 8, by omega⟩ : Fin 128)) ?_).trans rfl
  rw [Shape.rowMajor_val_three, Shape.rowMajor_val_two]
  show r.val * 128 + n.val / 8 = (r.val * 128 + n.val / 8) * 1 + 0
  omega

/-- The unpacked zero points at column `n`: field `n % 8` of word `n / 8`. -/
theorem zps_apply (x1 : Vec F S1x128 .i32) (n : Fin 1024) :
    shapeCast S1x1024 (concatenate S1x128x8 2 (List.ofFn fun k : Fin 8 => (⟨S1x128x1, zfld x1 k⟩ : (s : Shape) × (s.Idx → BitVec 32)))
        concatenates_S1x128x1_S1x128x1_S1x128x1_S1x128x1_S1x128x1_S1x128x1_S1x128x1_S1x128x1_S1x128x8_d2) shapeCasts_S1x128x8_S1x1024 (ix2 (0 : Fin 1) n)
      = fld0 (n.val % 8) (x1 (ix2 (0 : Fin 1) ⟨n.val / 8, by omega⟩)) := by
  refine (fields_apply (R := 1) (zfld x1) concatenates_S1x128x1_S1x128x1_S1x128x1_S1x128x1_S1x128x1_S1x128x1_S1x128x1_S1x128x1_S1x128x8_d2 shapeCasts_S1x128x8_S1x1024 (0 : Fin 1) n).trans ?_
  unfold zfld
  refine (shapeCast_apply _ shapeCasts_S1x128_S1x128x1 (ix3 (0 : Fin 1) (⟨n.val / 8, by omega⟩ : Fin 128) (0 : Fin 1))
    (ix2 (0 : Fin 1) (⟨n.val / 8, by omega⟩ : Fin 128)) ?_).trans rfl
  rw [Shape.rowMajor_val_three, Shape.rowMajor_val_two]
  show (0 : Fin 1).val * 128 + n.val / 8 = ((0 : Fin 1).val * 128 + n.val / 8) * 1 + 0
  omega

/-- **The result block read at an index**: row `r`, column `n` is `deq0` of word `(r, n / 8)` of the packed weights, word
    `n / 8` of the packed zero points and scale `n`. -/
theorem out0_apply (x0 : Vec F S1024x128 .i32) (x1 : Vec F S1x128 .i32) (x2 : Vec F S1x1024 .f32) (r : Fin 1024) (n : Fin 1024) :
    out0 x0 x1 x2 (ix2 r n)
      = deq0 (x0 (ix2 r ⟨n.val / 8, by omega⟩)) (x1 (ix2 (0 : Fin 1) ⟨n.val / 8, by omega⟩)) (x2 (ix2 (0 : Fin 1) n)) n.val := by
  have hA := wts_apply x0 r n
  have hB : broadcastTo S1024x1024 (shapeCast S1x1024 (concatenate S1x128x8 2
        (List.ofFn fun k : Fin 8 => (⟨S1x128x1, zfld x1 k⟩ : (s : Shape) × (s.Idx → BitVec 32))) concatenates_S1x128x1_S1x128x1_S1x128x1_S1x128x1_S1x128x1_S1x128x1_S1x128x1_S1x128x1_S1x128x8_d2)
        shapeCasts_S1x128x8_S1x1024) broadcasts_S1x1024_S1024x1024 (ix2 r n)
      = fld0 (n.val % 8) (x1 (ix2 (0 : Fin 1) ⟨n.val / 8, by omega⟩)) :=
    (broadcastTo_1b_ab_apply _ broadcasts_S1x1024_S1024x1024 r n).trans (zps_apply x1 n)
  have hC : broadcastTo S1024x1024 (k0_pay2 x2) broadcasts_S1x1024_S1024x1024 (ix2 r n) = x2 (ix2 (0 : Fin 1) n) :=
    (broadcastTo_1b_ab_apply _ broadcasts_S1x1024_S1024x1024 r n).trans (congrFun (shapeCast_self x2 shapeCasts_S1x1024_S1x1024) _)
  show FloatOps.truncf .bf16 bitsLt_bf16_f32 (FloatOps.mulf (FloatOps.sitofp .f32 (IntOp.subi
      (k0_pay11 (k0_pay3 x0) (k0_pay4 x0) (k0_pay5 x0) (k0_pay6 x0) (k0_pay7 x0) (k0_pay8 x0) (k0_pay9 x0) (k0_pay10 x0) (ix2 r n))
      (broadcastTo S1024x1024 (shapeCast S1x1024 (concatenate S1x128x8 2
        (List.ofFn fun k : Fin 8 => (⟨S1x128x1, zfld x1 k⟩ : (s : Shape) × (s.Idx → BitVec 32))) concatenates_S1x128x1_S1x128x1_S1x128x1_S1x128x1_S1x128x1_S1x128x1_S1x128x1_S1x128x1_S1x128x8_d2)
        shapeCasts_S1x128x8_S1x1024) broadcasts_S1x1024_S1024x1024 (ix2 r n))))
      (broadcastTo S1024x1024 (k0_pay2 x2) broadcasts_S1x1024_S1024x1024 (ix2 r n))) = _
  rw [hA, hB, hC]
  rfl

/-! ## The moved parts -/

/-- What the transfers move, at every setting of the coordinates: rows are never cut; the result's block is cut to as many
    columns as the scale block, which is eight times as many as the packed blocks'. -/
theorem xsizes0 : ∀ i : grid0.Coords,
    win0_3.xsize i (0 : Fin 2) = 1024 ∧ win0_0.xsize i (0 : Fin 2) = 1024 ∧ win0_1.xsize i (0 : Fin 2) = 1 ∧ win0_2.xsize i (0 : Fin 2) = 1
      ∧ win0_3.xsize i (1 : Fin 2) = 8 * win0_0.xsize i (1 : Fin 2) ∧ win0_1.xsize i (1 : Fin 2) = win0_0.xsize i (1 : Fin 2)
      ∧ win0_2.xsize i (1 : Fin 2) = win0_3.xsize i (1 : Fin 2) := by
  decide +kernel

/-- Contents of a block that agree on the part a transfer moves agree at every index of that part. -/
theorem eq_of_cut_eq {G : Pipeline.Grid} (w : Window sig G) {α : Type} (i : G.Coords) {X Y : w.block.Idx → α}
    (h : w.cut i X = w.cut i Y) (k : w.block.Idx) (hk : ∀ a, (k a).val < w.xsize i a) : X k = Y k :=
  congrFun h fun a => ⟨(k a).val, hk a⟩

/-- **The moved part of what the body stores is a function of the moved parts of what it loads**: column `n` of the result
    block reads column `n / 8` of the packed blocks and column `n` of the scale block, and lies in the moved part of its block
    exactly when those do in theirs. -/
theorem out0_cut_congr (i : grid0.Coords) {X0 X0' : Vec F S1024x128 .i32} {X1 X1' : Vec F S1x128 .i32} {X2 X2' : Vec F S1x1024 .f32}
    (h0 : win0_0.cut i X0 = win0_0.cut i X0') (h1 : win0_1.cut i X1 = win0_1.cut i X1') (h2 : win0_2.cut i X2 = win0_2.cut i X2') :
    win0_3.cut i (out0 X0 X1 X2) = win0_3.cut i (out0 X0' X1' X2') := by
  funext j
  obtain ⟨e30, e00, e10, e20, e31, e11, e21⟩ := xsizes0 i
  have l0 : (j (0 : Fin 2)).val < win0_3.xsize i (0 : Fin 2) := (j (0 : Fin 2)).isLt
  have l1 : (j (1 : Fin 2)).val < win0_3.xsize i (1 : Fin 2) := (j (1 : Fin 2)).isLt
  have u1 : win0_3.xsize i (1 : Fin 2) ≤ 1024 := win0_3.xsize_le i (1 : Fin 2)
  obtain ⟨r, n, hj, hr, hn⟩ : ∃ (r n : Fin 1024), win0_3.xinj i j = ix2 r n ∧ r.val = (j (0 : Fin 2)).val ∧ n.val = (j (1 : Fin 2)).val :=
    ⟨⟨(j (0 : Fin 2)).val, by omega⟩, ⟨(j (1 : Fin 2)).val, by omega⟩,
      funext fun a => match a with | ⟨0, _⟩ => rfl | ⟨1, _⟩ => rfl, rfl, rfl⟩
  show out0 X0 X1 X2 (win0_3.xinj i j) = out0 X0' X1' X2' (win0_3.xinj i j)
  have a0 : X0 (ix2 r (⟨n.val / 8, by omega⟩ : Fin 128)) = X0' (ix2 r (⟨n.val / 8, by omega⟩ : Fin 128)) :=
    eq_of_cut_eq win0_0 i h0 _ fun a => match a with
      | ⟨0, _⟩ => by show r.val < win0_0.xsize i (0 : Fin 2); omega
      | ⟨1, _⟩ => by show n.val / 8 < win0_0.xsize i (1 : Fin 2); omega
  have a1 : X1 (ix2 (0 : Fin 1) (⟨n.val / 8, by omega⟩ : Fin 128)) = X1' (ix2 (0 : Fin 1) (⟨n.val / 8, by omega⟩ : Fin 128)) :=
    eq_of_cut_eq win0_1 i h1 _ fun a => match a with
      | ⟨0, _⟩ => by show (0 : Fin 1).val < win0_1.xsize i (0 : Fin 2); rw [e10]; exact Nat.one_pos
      | ⟨1, _⟩ => by show n.val / 8 < win0_1.xsize i (1 : Fin 2); omega
  have a2 : X2 (ix2 (0 : Fin 1) n) = X2' (ix2 (0 : Fin 1) n) :=
    eq_of_cut_eq win0_2 i h2 _ fun a => match a with
      | ⟨0, _⟩ => by show (0 : Fin 1).val < win0_2.xsize i (0 : Fin 2); rw [e20]; exact Nat.one_pos
      | ⟨1, _⟩ => by show n.val < win0_2.xsize i (1 : Fin 2); omega
  rw [hj, out0_apply, out0_apply, a0, a1, a2]

/-! ## The proof data -/

variable (V : (c : Dev nD) → (b : Ref sig .tc) → Buf (Elt F) ((c : Thread nD τ).loc b))

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- That block filled out to the staging buffer's shape with a word nothing reads. -/
def pblk0 (c : Dev nD) (w : Fin cfg0.W) (t : Fin cfg0.N) : (cfg0.win w).block.Idx → Elt F (cfg0.win w).elt :=
  (cfg0.win w).fill (cfg0.grid.coords t) (fun _ => Classical.arbitrary _) (iblk0 V c w t)

/-- The proof data: the arrays as entered; after the body each input's buffer at its block and the result's at `out0` of
    the three (each stated, the windows being loose, on the moved part only); the scoped rest and the generator register
    as invariant; nothing owed; full shares. -/
def dat0 (c : Dev nD) : Dat τ (Elt F) Unit ℕ (UR sig nD τ) ℕ cfg0 c where
  A w := V c (Pipeline.arrRef spec0 w)
  after w t := match w with
    | ⟨0, _⟩ => pblk0 V c 0 t
    | ⟨1, _⟩ => pblk0 V c 1 t
    | ⟨2, _⟩ => pblk0 V c 2 t
    | ⟨3, _⟩ => out0 (pblk0 V c 0 t) (pblk0 V c 1 t) (pblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0 (pblk0 V c 0 t) (pblk0 V c 1 t) (pblk0 V c 2 t) := by dsimp only [dat0]

/-! ## The body obligation -/

/-- The inputs' windows keep their blocks as `dat0` states them. -/
theorem after0_0 (c : Dev nD) (t : Fin cfg0.N) : (dat0 V c).after (0 : Fin 4) t = pblk0 V c 0 t := by dsimp only [dat0]
theorem after0_1 (c : Dev nD) (t : Fin cfg0.N) : (dat0 V c).after (1 : Fin 4) t = pblk0 V c 1 t := by dsimp only [dat0]
theorem after0_2 (c : Dev nD) (t : Fin cfg0.N) : (dat0 V c).after (2 : Fin 4) t = pblk0 V c 2 t := by dsimp only [dat0]

/-- The result's window is an output: never fetched. -/
theorem fetch0_3 (t : Fin cfg0.N) : (cfg0.win (3 : Fin 4)).fetch t = false := rfl

/-- What the body finds: each input's buffer just fetched — its block on the part the fetch moves, `d` elsewhere —, -/
theorem before0_0 (c : Dev nD) (t : Fin cfg0.N) (d) :
    (dat0 V c).before (0 : Fin 4) t d = (cfg0.win (0 : Fin 4)).fill (cfg0.grid.coords t) d (iblk0 V c 0 t) := by
  unfold Dat.before; rw [if_pos (fetch0_0 t)]; rfl
theorem before0_1 (c : Dev nD) (t : Fin cfg0.N) (d) :
    (dat0 V c).before (1 : Fin 4) t d = (cfg0.win (1 : Fin 4)).fill (cfg0.grid.coords t) d (iblk0 V c 1 t) := by
  unfold Dat.before; rw [if_pos (fetch0_1 t)]; rfl
theorem before0_2 (c : Dev nD) (t : Fin cfg0.N) (d) :
    (dat0 V c).before (2 : Fin 4) t d = (cfg0.win (2 : Fin 4)).fill (cfg0.grid.coords t) d (iblk0 V c 2 t) := by
  unfold Dat.before; rw [if_pos (fetch0_2 t)]; rfl
/-- and the result's at contents nothing names: at the first point what it held, afterwards what the write-back of the
    point before left. -/
theorem before0_3 (c : Dev nD) (t : Fin cfg0.N) (d) : (dat0 V c).before (3 : Fin 4) t d = d := by
  unfold Dat.before
  rw [if_neg (by rw [fetch0_3 t]; exact Bool.false_ne_true)]
  by_cases h0 : t.val = 0
  · rw [if_pos h0]
  · rw [if_neg h0]; exact if_pos (flush0_3 _)

/-- The body obligation of region 0, in the form the loop uses for overhanging windows. -/
theorem body_obligation0 (c : Dev nD) : BodyObligationLoose (dat0 (F := F) V c) (defs₀ (F := F)) Variants.none () Set.univ := fun t => by
  rw [bigSep_W0, bigSep_W0]
  -- no point is idle and every window overhangs: each buffer is handed back stated on the part its transfers move
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win (0 : Fin 4)).fill (cfg0.grid.coords t) d0 (iblk0 V c 0 t))
    ((cfg0.win (1 : Fin 4)).fill (cfg0.grid.coords t) d1 (iblk0 V c 1 t))
    ((cfg0.win (2 : Fin 4)).fill (cfg0.grid.coords t) d2 (iblk0 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  -- each input's buffer holds its block filled out with its `d`, which on the moved part is what `dat0` states of it;
  have c0 : (cfg0.win (0 : Fin 4)).cut (cfg0.grid.coords t) (pblk0 V c 0 t) = iblk0 V c 0 t := (cfg0.win (0 : Fin 4)).cut_fill _ _ _
  have c1 : (cfg0.win (1 : Fin 4)).cut (cfg0.grid.coords t) (pblk0 V c 1 t) = iblk0 V c 1 t := (cfg0.win (1 : Fin 4)).cut_fill _ _ _
  have c2 : (cfg0.win (2 : Fin 4)).cut (cfg0.grid.coords t) (pblk0 V c 2 t) = iblk0 V c 2 t := (cfg0.win (2 : Fin 4)).cut_fill _ _ _
  isplitl [H0]
  · iexists d0
    rw [after0_0 V c t, c0]; iexact H0
  isplitl [H1]
  · iexists d1
    rw [after0_1 V c t, c1]; iexact H1
  isplitl [H2]
  · iexists d2
    rw [after0_2 V c t, c2]; iexact H2
  -- the result's holds `out0` of the three, which on the moved part is `out0` of the three blocks however they are filled out
  · iexists out0 ((cfg0.win (0 : Fin 4)).fill (cfg0.grid.coords t) d0 (iblk0 V c 0 t))
      ((cfg0.win (1 : Fin 4)).fill (cfg0.grid.coords t) d1 (iblk0 V c 1 t))
      ((cfg0.win (2 : Fin 4)).fill (cfg0.grid.coords t) d2 (iblk0 V c 2 t))
    have hcut := out0_cut_congr (F := F) (grid0.coords t)
      (X0 := (cfg0.win (0 : Fin 4)).fill (cfg0.grid.coords t) d0 (iblk0 V c 0 t)) (X0' := pblk0 V c 0 t)
      (X1 := (cfg0.win (1 : Fin 4)).fill (cfg0.grid.coords t) d1 (iblk0 V c 1 t)) (X1' := pblk0 V c 1 t)
      (X2 := (cfg0.win (2 : Fin 4)).fill (cfg0.grid.coords t) d2 (iblk0 V c 2 t)) (X2' := pblk0 V c 2 t)
      (((cfg0.win (0 : Fin 4)).cut_fill _ _ _).trans c0.symm) (((cfg0.win (1 : Fin 4)).cut_fill _ _ _).trans c1.symm)
      (((cfg0.win (2 : Fin 4)).cut_fill _ _ _).trans c2.symm)
    rw [after0_3 V c t, (cfg0.win (3 : Fin 4)).fill_congr_cut (cfg0.grid.coords t) hcut]; iexact H3

end Cert.Kernel.Hand

end
-- ==== Proof.K.Body1.lean ====
/-
  The matrix-product kernel's body as one triple, at any float instance. Its grid point is `(i, j, k)`; `k` runs over the
  eight slabs of the contracted axis. The scratch block carries the running sum: at `k = 0` it is first set to zero; at
  every point the product of the point's two operand blocks is added to it; at `k = 7` the sum plus the bias row, every
  row alike, is stored into the result block, which is otherwise left as it was.
-/
import proofs.«403986_j20675972563491_3_alg».proof.Proof.Gen.Kernel.Launch
import proofs.«403986_j20675972563491_3_alg».proof.Proof.Gen.Kernel.Skeleton
import proofs.«403986_j20675972563491_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two conditionals, decided by the third coordinate -/

/-- The first conditional's scalar chain (compare with zero, widen, compare with zero again), over the eight values
    the third coordinate takes: it holds at zero only. -/
theorem kernel1_cond1_fin8 : ∀ k : Fin 8,
    (Scalar.cmpi .ne (Scalar.extui (Scalar.cmpi .eq (BitVec.ofNat 32 k.val) 0#32)) 0#32 = 1#1) ↔ k.val = 0 := by decide

/-- The second conditional's (compare with seven, widen, compare with zero), likewise: it holds at seven only. -/
theorem kernel1_cond2_fin8 : ∀ k : Fin 8,
    (Scalar.cmpi .ne (Scalar.extui (Scalar.cmpi .eq (BitVec.ofNat 32 k.val) 7#32)) 0#32 = 1#1) ↔ k.val = 7 := by decide

/-- At a grid point the first conditional holds iff the third coordinate is zero (the coordinate's bound is eight by
    unfolding the grid's bounds). -/
theorem kernel1_hcond1 (i : grid1.Coords) :
    (Scalar.cmpi .ne (Scalar.extui (Scalar.cmpi .eq (BitVec.ofNat 32 (i 2).val) 0#32)) 0#32 = 1#1) ↔ (i 2).val = 0 :=
  kernel1_cond1_fin8 (i 2)

/-- and the second iff it is seven. -/
theorem kernel1_hcond2 (i : grid1.Coords) : k1_cond2 i = 1#1 ↔ (i 2).val = 7 := by
  unfold k1_cond2; exact kernel1_cond2_fin8 (i 2)

/-! ## A whole-buffer store -/

/-- A store through the whole-shape rectangle at zero offsets, made last, leaves its payload as what the buffer reads,
    whatever was stored before it and whatever the buffer held: the one piece covers every index, and the canonical
    contents of a list of pieces whose head is the whole shape is the head's payload. -/
theorem kernel1_read_writes_cons_unit_zero {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## What the body leaves -/

/-- The scratch block after the body at a point whose third coordinate is `k`, from what it held (`a`) and the two
    operand blocks: zero at `k = 0`, else `a`, plus the blocks' product. -/
def acc1 (k : Fin 8) (a : Vec F S1024x1024 .f32) (x3 : Vec F S1024x512 .bf16) (x4 : Vec F S512x1024 .bf16) : Vec F S1024x1024 .f32 :=
  k1_pay2 (if k.val = 0 then k1_pay1 else a) x3 x4

/-- The result block after the body: at `k = 7` the new running sum plus the bias row; else what it held (`d6`). -/
def res1 (k : Fin 8) (a : Vec F S1024x1024 .f32) (x3 : Vec F S1024x512 .bf16) (x4 : Vec F S512x1024 .bf16) (x5 : Vec F S1x1024 .f32)
    (d6 : Vec F S1024x1024 .f32) : Vec F S1024x1024 .f32 :=
  if k.val = 7 then k1_pay3 (acc1 k a x3 x4) x5 else d6

/-! ## The three cases of the third coordinate

In each the body is run on the buffers' contents with both conditionals decided by the case's hypotheses. Every access
is the whole buffer at offsets zero: a load of a buffer the run has not yet stored into reads its contents, a load of
the scratch after a store of the same run reads the value stored, and what a buffer stored into reads at the end is
the payload of its last store. -/

/-- `k = 0`: the scratch is set to zero, read back (zero), the product added and stored; no result store. -/
theorem sound_kernel1_first (c : Dev nD) (E : Set ℕ) (i : grid1.Coords) (h0 : (i 2).val = 0)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have hc1 := (kernel1_hcond1 i).2 h0
  have hc2 : ¬ (k1_cond2 i = 1#1) := fun h => by have := (kernel1_hcond2 i).1 h; omega
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · -- the result block is untouched, and `res1` at `k ≠ 7` is what it held
    iexists f6; isplitr
    · ipureintro; unfold res1; rw [if_neg (by omega)]
    iexact H6
  · -- the scratch: the last store's payload, over the zero block read back after the reset
    iexists _; isplitr
    swap; · iexact H7
    ipureintro
    sl_unfold_words
    rw [kernel1_read_writes_cons_unit_zero _ _ hz, View.readCov_unit_zero (S := S1024x1024) _ hz]
    unfold acc1; rw [if_pos h0]
    simp only [View.readAt_eq_ld, View.ld_unit_zero (S := S1024x512) hz, View.ld_unit_zero (S := S512x1024) hz]

/-- `k = 7`: no reset; the product is added to the scratch and stored, the new sum read back, the bias row added and
    the result stored. -/
theorem sound_kernel1_last (c : Dev nD) (E : Set ℕ) (i : grid1.Coords) (h7 : (i 2).val = 7)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have h0 : ¬ (i 2).val = 0 := by omega
  have hc1 : ¬ (Scalar.cmpi .ne (Scalar.extui (Scalar.cmpi .eq (BitVec.ofNat 32 (i 2).val) 0#32)) 0#32 = 1#1) := fun h => h0 ((kernel1_hcond1 i).1 h)
  have hc2 := (kernel1_hcond2 i).2 h7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · -- the result block: its one store's payload, over the scratch read back after the sum's store
    iexists _; isplitr
    swap; · iexact H6
    ipureintro
    sl_unfold_words
    rw [kernel1_read_writes_cons_unit_zero _ _ hz, View.readCov_unit_zero (S := S1024x1024) _ hz]
    unfold res1 acc1; rw [if_pos h7, if_neg h0]
    simp only [View.readAt_eq_ld, View.ld_unit_zero (S := S1024x512) hz, View.ld_unit_zero (S := S512x1024) hz,
      View.ld_unit_zero (S := S1024x1024) hz, View.ld_unit_zero (S := S1x1024) hz]
  · -- the scratch: its one store's payload, over what it held
    iexists _; isplitr
    swap; · iexact H7
    ipureintro
    sl_unfold_words
    rw [kernel1_read_writes_cons_unit_zero _ _ hz]
    unfold acc1; rw [if_neg h0]
    simp only [View.readAt_eq_ld, View.ld_unit_zero (S := S1024x512) hz, View.ld_unit_zero (S := S512x1024) hz,
      View.ld_unit_zero (S := S1024x1024) hz]

/-- `0 < k < 7`: neither conditional holds; the product is added to the scratch and stored. -/
theorem sound_kernel1_middle (c : Dev nD) (E : Set ℕ) (i : grid1.Coords) (h0 : ¬ (i 2).val = 0) (h7 : ¬ (i 2).val = 7)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  have hz : (![0, 0] : Fin 2 → Nat) = fun _ => 0 := funext fun a => by fin_cases a <;> rfl
  have hc1 : ¬ (Scalar.cmpi .ne (Scalar.extui (Scalar.cmpi .eq (BitVec.ofNat 32 (i 2).val) 0#32)) 0#32 = 1#1) := fun h => h0 ((kernel1_hcond1 i).1 h)
  have hc2 : ¬ (k1_cond2 i = 1#1) := fun h => h7 ((kernel1_hcond2 i).1 h)
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr
    · ipureintro; unfold res1; rw [if_neg h7]
    iexact H6
  · iexists _; isplitr
    swap; · iexact H7
    ipureintro
    rw [kernel1_read_writes_cons_unit_zero _ _ hz]
    unfold acc1; rw [if_neg h0]
    simp only [View.readAt_eq_ld, View.ld_unit_zero (S := S1024x512) hz, View.ld_unit_zero (S := S512x1024) hz,
      View.ld_unit_zero (S := S1024x1024) hz]

/-- The body on whole staging memrefs and the whole scratch, at contents `x3 x4 x5 d6 a`, runs to the continuation
    holding the three inputs' as they were, the scratch at `acc1` and the result's at `res1`. -/
theorem sound_kernel1 (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x3 : Vec F S1024x512 .bf16) (x4 : Vec F S512x1024 .bf16) (x5 : Vec F S1x1024 .f32) (d6 a : Vec F S1024x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare d6 ∗ owns (c : Thread nD τ) arg7 fullShare a
        ∗ (iprop(owns (c : Thread nD τ) arg3 fullShare x3 ∗ owns (c : Thread nD τ) arg4 fullShare x4 ∗ owns (c : Thread nD τ) arg5 fullShare x5
              ∗ owns (c : Thread nD τ) arg6 fullShare (res1 (i 2) a x3 x4 x5 d6) ∗ owns (c : Thread nD τ) arg7 fullShare (acc1 (i 2) a x3 x4)) -∗ K ⟨⟩))
      ⊢ wp frame (wpE (defs₀ (F := F)) Variants.none c none) E
          (cc1__matmul_kernel i arg3 harg3 arg4 harg4 arg5 harg5 arg6 harg6 arg7 harg7) K := by
  by_cases h0 : (i 2).val = 0
  · exact sound_kernel1_first c E i h0 arg3 harg3 arg4 harg4 arg5 harg5 arg6 harg6 arg7 harg7 x3 x4 x5 d6 a K
  · by_cases h7 : (i 2).val = 7
    · exact sound_kernel1_last c E i h7 arg3 harg3 arg4 harg4 arg5 harg5 arg6 harg6 arg7 harg7 x3 x4 x5 d6 a K
    · exact sound_kernel1_middle c E i h0 h7 arg3 harg3 arg4 harg4 arg5 harg5 arg6 harg6 arg7 harg7 x3 x4 x5 d6 a K

end Cert.Kernel.Hand

end
-- ==== Proof.K.Dat1F.lean ====
/-
  Region 1 (the matrix-product call) as proof data that names nothing, at any float instance: every window forgotten, the
  scratch inside the invariant at contents not stated. This is what a claim that reads none of the region's results — that
  the program runs to its end and leaves its arguments alone — asks of the body: that from any contents of the buffers it
  runs, faults nowhere, and hands the buffers back.
-/
import proofs.«403986_j20675972563491_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data: the arrays as entered; nothing said of any staging buffer; the scoped rest (the scratch among it)
    and the generator register as invariant; nothing owed; full shares. -/
def dat1f (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

theorem A_eq1f (c : Dev nD) (w : Fin cfg1.W) : (dat1f V c).A w = V c (Pipeline.arrRef spec1 w) := by
  dsimp only [dat1f]

/-- A whole buffer held at contents `f` is its whole memref owned at `f`; -/
theorem owns_whole_of_pointsTo (c : Dev nD) (b : Ref sig .tc) (f : Buf (Elt F) ((c : Thread nD τ).loc b)) :
    ((((c : Thread nD τ).loc b) ↦{fullShare} f : sProp 𝕄)) ⊢ owns (c : Thread nD τ) (Memref.whole b) fullShare f := by
  rw [owns_whole_eq]; iintro H; iexists f; isplitr; · ipureintro; rfl
  iexact H

/-- and the whole memref owned at any contents is the buffer held at some. -/
theorem pointsTo_of_owns_whole (c : Dev nD) (b : Ref sig .tc) (X : b.ty.Contents (Elt F)) :
    owns (c : Thread nD τ) (Memref.whole b) fullShare X
      ⊢ (iprop(∃ f : Buf (Elt F) ((c : Thread nD τ).loc b), ((c : Thread nD τ).loc b) ↦{fullShare} f) : sProp 𝕄) := by
  rw [owns_whole_eq]; iintro ⟨%f, %hf, H⟩; iexists f; iexact H

/-- What the body is handed at point `t` when nothing is said of any staging buffer: the invariant, what is owed, and
    each window's current buffer at some contents. What it hands back is the same. -/
def bodyHeld1f (c : Dev nD) (t : Fin cfg1.N) : sProp 𝕄 :=
  iprop(Pipeline.ΦA spec1 c ∗ (dat1f (F := F) V c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X))

/-- The body at any point, from any contents: the running-sum block is taken out of the scoped rest (its last
    conjunct), the body runs on the four current buffers and on it at whatever they hold, and each is handed back at
    what the body left there, which nothing names. -/
theorem sound_body1f (c : Dev nD) (t : Fin cfg1.N) :
    bodyHeld1f V c t ⊢ wp frame (wpE (defs₀ (F := F)) Variants.none c none) Set.univ (bodyAt1 t) (fun _ => bodyHeld1f V c t) := by
  unfold bodyHeld1f bodyAt1 Pipeline.ΦA
  rw [scopedRest1_eq]
  iintro ⟨⟨⟨R0, R1, R2, R3, R4, R5, R6, R7, ⟨%a, Hs⟩⟩, Hp⟩, Ho, ⟨%x0, H0⟩, ⟨%x1, H1⟩, ⟨%x2, H2⟩, ⟨%x3, H3⟩⟩
  iapply (sound_kernel1 (F := F) c Set.univ (grid1.coords t) _ _ _ _ _ _ _ _ _ _ x0 x1 x2 x3 a _)
  isplitl [H0]; · iexact H0
  isplitl [H1]; · iexact H1
  isplitl [H2]; · iexact H2
  isplitl [H3]; · iexact H3
  isplitl [Hs]
  · iapply (owns_whole_of_pointsTo (F := F) c cc1_scratch0 a); iexact Hs
  iintro ⟨H0, H1, H2, H3, Hs⟩
  isplitl [R0 R1 R2 R3 R4 R5 R6 R7 Hs Hp]
  · isplitr [Hp]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iapply (pointsTo_of_owns_whole (F := F) c cc1_scratch0 _); iexact Hs
    · iexact Hp
  isplitl [Ho]; · iexact Ho
  isplitl [H0]; · iexists _; iexact H0
  isplitl [H1]; · iexists _; iexact H1
  isplitl [H2]; · iexists _; iexact H2
  iexists _; iexact H3

/-- The body obligation with every window forgotten: the body runs from any contents. -/
theorem body_obligation1f (c : Dev nD) :
    BodyObligationLoose (dat1f (F := F) V c) (defs₀ (F := F)) Variants.none () Set.univ (fun _ => true) := fun t => by
  rw [bigSep_W1]
  simp only
  exact sound_body1f V c t

end Cert.Kernel.Hand

end
-- ==== Proof.K.RunF.lean ====
/-
  The frame of the kernel program at ANY float instance: every weakly fair execution of @main ends, nothing faults, and
  the five argument arrays end as launched. Nothing is claimed of the result. Region 0's arrays are named (its body is
  column-wise, so what it leaves in the weight array is a function of the arguments at any instance); region 1's staging
  buffers are forgotten and its arrays leave the region at SOME contents `A`, which the last host stretch (a reshape of
  the result array) carries along: between items the core holds every unscoped buffer at a valuation that, from region
  1's exit on, is stated under an existential. No argument is among what region 1 or a host stretch may change.
-/
import proofs.«403986_j20675972563491_3_alg».proof.Proof.K.Dat0
import proofs.«403986_j20675972563491_3_alg».proof.Proof.K.Dat1F
import proofs.«403986_j20675972563491_3_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-! ## The buffer contents between items -/

abbrev X0 : Dev nD → Valuation τ sig (Elt F) := fun c b => m (c, b)
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hG0 (c : Dev nD) (w : Fin cfg0.W) : (dat0 (Y1 m) c).arrAt w cfg0.N = Y2 m c (Pipeline.arrRef spec0 w) :=
  (X2_arr m c w).symm
theorem hr0 (c : Dev nD) : ∀ b, b ∉ Finset.univ.image (Pipeline.arrRef spec0) → Y2 m c b = Y1 m c b :=
  fun b hb => X2_of_ne m c b fun w e => hb (Finset.mem_image.mpr ⟨w, Finset.mem_univ _, e⟩)

abbrev X3 : Dev nD → Valuation τ sig (Elt F) := fun c => StableHlo.after hostOps1 (X2 m c)
abbrev Y3 : (c : Dev nD) → (b : Ref sig .tc) → Buf (Elt F) ((c : Thread nD τ).loc b) := fun c b => X3 m c b

/-- After region 1: its arrays at contents `A`, every other buffer as before it. -/
def X4 (c : Dev nD) (A : (w : Fin cfg1.W) → Buf (Elt F) ((cfg1.win w).arr.view.loc (c.tc : Thread nD τ))) : Valuation τ sig (Elt F) :=
  Pipeline.withArrays spec1 c (X3 m c) A
theorem X4_arr (c : Dev nD) (A : (w : Fin cfg1.W) → Buf (Elt F) ((cfg1.win w).arr.view.loc (c.tc : Thread nD τ))) (w : Fin cfg1.W) :
    X4 m c A (Proc.devRef .tc (Pipeline.arrRef spec1 w)) = A w := by
  unfold X4; exact Pipeline.withArrays_arr spec1 launch1.win.arr_inj c _ _ w
theorem X4_of_ne (c : Dev nD) (A : (w : Fin cfg1.W) → Buf (Elt F) ((cfg1.win w).arr.view.loc (c.tc : Thread nD τ))) (b : Ref sig .tc)
    (hb : ∀ w, Pipeline.arrRef spec1 w ≠ b) : X4 m c A (Proc.devRef .tc b) = X3 m c (Proc.devRef .tc b) := by
  unfold X4; exact Pipeline.withArrays_of_ne spec1 c _ _ b hb
abbrev X5 (c : Dev nD) (A : (w : Fin cfg1.W) → Buf (Elt F) ((cfg1.win w).arr.view.loc (c.tc : Thread nD τ))) : Valuation τ sig (Elt F) :=
  StableHlo.after hostOps2 (X4 m c A)

/-! ## No item writes an argument -/

theorem X1_of (c : Dev nD) (r : Ref sig .tc) (h : r ∉ hostOps0_W) : X1 m c r = X0 m c r :=
  StableHlo.after_of_writes_sub hostOps0 _ hostOps0_writes h
theorem X3_of (c : Dev nD) (r : Ref sig .tc) (h : r ∉ hostOps1_W) : X3 m c r = X2 m c r :=
  StableHlo.after_of_writes_sub hostOps1 _ hostOps1_writes h
theorem X5_of (c : Dev nD) (A : (w : Fin cfg1.W) → Buf (Elt F) ((cfg1.win w).arr.view.loc (c.tc : Thread nD τ))) (r : Ref sig .tc)
    (h : r ∉ hostOps2_W) : X5 m c A r = X4 m c A r :=
  StableHlo.after_of_writes_sub hostOps2 _ hostOps2_writes h

/-- An argument that is no window's array of either region reaches the end as launched. -/
theorem X5_plain (c : Dev nD) (A : (w : Fin cfg1.W) → Buf (Elt F) ((cfg1.win w).arr.view.loc (c.tc : Thread nD τ))) (r : Ref sig .tc)
    (h2 : r ∉ hostOps2_W) (h1 : r ∉ hostOps1_W) (h0 : r ∉ hostOps0_W)
    (hb1 : ∀ w, Pipeline.arrRef spec1 w ≠ r) (hb0 : ∀ w, Pipeline.arrRef spec0 w ≠ r) :
    X5 m c A r = m ((c : Thread nD τ).loc r) :=
  (X5_of m c A r h2).trans <| (X4_of_ne m c A r hb1).trans <| (X3_of m c r h1).trans <| (X2_of_ne m c r hb0).trans <| (X1_of m c r h0).trans rfl

/-- An argument that region 0 reads through input window `w` reaches the end as launched: an input array is never written. -/
theorem X5_input (c : Dev nD) (A : (w : Fin cfg1.W) → Buf (Elt F) ((cfg1.win w).arr.view.loc (c.tc : Thread nD τ))) (w : Fin cfg0.W)
    (hw : (cfg0.win w).isOut = false)
    (h2 : Pipeline.arrRef spec0 w ∉ hostOps2_W) (h1 : Pipeline.arrRef spec0 w ∉ hostOps1_W) (h0 : Pipeline.arrRef spec0 w ∉ hostOps0_W)
    (hb1 : ∀ w', Pipeline.arrRef spec1 w' ≠ Pipeline.arrRef spec0 w) :
    X5 m c A (Pipeline.arrRef spec0 w) = m ((c : Thread nD τ).loc (Pipeline.arrRef spec0 w)) :=
  (X5_of m c A _ h2).trans <| (X4_of_ne m c A _ hb1).trans <| (X3_of m c _ h1).trans <| (X2_arr m c w).trans <|
    ((dat0 (Y1 m) c).arrAt_in w hw _).trans <| (A_eq0 (Y1 m) c w).trans <| (X1_of m c _ h0).trans rfl

/-! ## The proof data family and the thread state -/

/-- The exact data of both regions (region 1's names nothing): what the shares are read off. -/
def pdatsF : (p : Fin 2) → (c : Dev nD) → Dat τ (Elt F) Unit ℕ (UR sig nD τ) ℕ (Pipeline.pin (pcfgs (F := F)) adm p) c
  | ⟨0, _⟩ => fun c => dat0 (Y1 m) c
  | ⟨1, _⟩ => fun c => dat1f (Y3 m) c
/-- The relational data the launch runs on: region 0 exact, region 1 with every window forgotten. -/
def rdatsF : (p : Fin 2) → (c : Dev nD) → RDat τ (Elt F) Unit ℕ (UR sig nD τ) ℕ (Pipeline.pin (pcfgs (F := F)) adm p) c
  | ⟨0, _⟩ => fun c => (dat0 (Y1 m) c).toR
  | ⟨1, _⟩ => fun c => (dat1f (Y3 m) c).toRForget (fun _ => true)
abbrev 𝒱f : Variants := Variants.none
abbrev Lf : GSem nD τ sig → Finset Unit := fun _ => ∅
abbrev lvf : GSem nD τ sig → Unit → ℕ := fun _ _ => 0
abbrev Rf (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱f Lf lvf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rf

set_option backward.isDefEq.respectTransparency.types false in
/-- The last host stretch, entered with region 1's arrays at some contents: it runs at whichever they are. -/
def hsegE : Pipeline.HostSeg (Name := ℕ) (U := UR sig nD τ) (pcfgs (F := F)) defs₀ 𝒱f Lf lvf where
  prog := StableHlo.seq hostOps2
  pre c := iprop(∃ A, StableHlo.held (c : Thread nD τ) (Pipeline.ucRefs τ sig) (X4 m c A) ∗ Rf c)
  post c := iprop(∃ A, StableHlo.held (c : Thread nD τ) (Pipeline.ucRefs τ sig) (X5 m c A) ∗ Rf c)
  run c {β} k K := by
    iintro ⟨Hk, Hbd, ⟨%A, Hh, HR⟩, -⟩
    have hseq := StableHlo.wp_seq (defs := Pipeline.defs (pcfgs (F := F)) defs₀) (Variants.lift 𝒱f) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (X4 m c A)
    iapply hseq $$ [Hbd Hh]
    · isplitl [Hbd] <;> iassumption
    iintro ⟨Hbd, Hh⟩
    iapply Hk
    isplitl [Hbd]; · iexact Hbd
    iexists A
    isplitl [Hh] <;> iassumption

/-! ## The two calls as segments -/

theorem shareF0 (c : Dev nD) (w : Fin cfg0.W) : (rdatsF m 0 c).share w = fullShare :=
  (pdatsF m 0 c).share_full (fun _ => rfl) w
theorem shareF1 (c : Dev nD) (w : Fin cfg1.W) : (rdatsF m 1 c).share w = fullShare :=
  (pdatsF m 1 c).share_full (fun _ => rfl) w

set_option backward.isDefEq.respectTransparency.types false in
def regF0 : Pipeline.RDat.RegionSeg (pcfgs (F := F)) adm (rdatsF m) () defs₀ 𝒱f Lf lvf 0 where
  win := launch0.win.to₀
  block_pos := launch0.block_pos
  stage_whole := launch0.stage_whole
  K := PEmpty
  osem k := k.elim
  ho := Pipeline.OwnSemFacts.none _
  hbody c := (body_obligation0 (Y1 m) c).toR
  hwaits := Pipeline.RDat.hwaits_of_owed_zero _ _ _ _ Lf lvf 0 fun _ _ => rfl
  pre c := iprop(StableHlo.held (c : Thread nD τ) (Pipeline.ucRefs τ sig) (X1 m c) ∗ Rf c)
  post c := iprop(StableHlo.held (c : Thread nD τ) (Pipeline.ucRefs τ sig) (X2 m c) ∗ Rf c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.RDat.arrays_of_unscopedBufs (p := 0) (pcfgs (F := F)) adm (rdatsF m) launch0.win launch0.arr_whole c
      (shareF0 m c) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (Y1 m c) (Y2 m c) ((pdatsF m 0 c).arrAt · cfg0.N) (hG0 m c) (hr0 m c)
    rw [Pipeline.unscopedBufs_held] at hjoin
    rw [show (rdatsF m 0 c).arraysAt (Pipeline.pin (pcfgs (F := F)) adm 0).N = ((pdatsF m 0 c).arrays ((pdatsF m 0 c).arrAt · cfg0.N) : sProp 𝕄)
      from (dat0 (Y1 m) c).toR_arraysAt_eq _]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def regF1 : Pipeline.RDat.RegionSeg (pcfgs (F := F)) adm (rdatsF m) () defs₀ 𝒱f Lf lvf 1 where
  win := launch1.win.to₀
  block_pos := launch1.block_pos
  stage_whole := launch1.stage_whole
  K := PEmpty
  osem k := k.elim
  ho := Pipeline.OwnSemFacts.none _
  hbody c := (body_obligation1f (Y3 m) c).toRForget
  hwaits := Pipeline.RDat.hwaits_of_owed_zero _ _ _ _ Lf lvf 1 fun _ _ => rfl
  pre c := iprop(StableHlo.held (c : Thread nD τ) (Pipeline.ucRefs τ sig) (X3 m c) ∗ Rf c)
  post c := iprop(∃ A, StableHlo.held (c : Thread nD τ) (Pipeline.ucRefs τ sig) (X4 m c A) ∗ Rf c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.RDat.arrays_of_unscopedBufs (p := 1) (pcfgs (F := F)) adm (rdatsF m) launch1.win launch1.arr_whole c
      (shareF1 m c) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsF m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays at SOME contents they may hold after every write-back, opened
    have hopen : ((rdatsF m 1 c).arraysAt (Pipeline.pin (pcfgs (F := F)) adm 1).N : sProp 𝕄)
        ⊢ iprop(∃ A : (w : Fin cfg1.W) → Buf (Elt F) ((cfg1.win w).arr.view.loc (c.tc : Thread nD τ)), (pdatsF m 1 c).arrays A) := by
      unfold Pipeline.RDat.arraysAt
      iintro Ha
      ihave Ha' := (BI.bigSep_exists_pi Finset.univ (fun (w : Fin cfg1.W) F => iprop(⌜(rdatsF m 1 c).ArrAt w cfg1.N F⌝
          ∗ (cfg1.win w).arr.view.loc (c.tc : Thread nD τ) ↦[(cfg1.win w).arr.view.set]{(rdatsF m 1 c).share w} F))) $$ Ha
      icases Ha' with ⟨%A, Ha⟩
      ihave Ha2 := (BI.bigSep_pure_sep Finset.univ (fun (w : Fin cfg1.W) => (rdatsF m 1 c).ArrAt w cfg1.N (A w))
          (fun w => (cfg1.win w).arr.view.loc (c.tc : Thread nD τ) ↦[(cfg1.win w).arr.view.set]{(rdatsF m 1 c).share w} A w)) $$ Ha
      icases Ha2 with ⟨-, Ha⟩
      iexists A
      iapply (Entails.of_eq (show (bigSep Finset.univ fun w : Fin cfg1.W =>
          ((cfg1.win w).arr.view.loc (c.tc : Thread nD τ) ↦[(cfg1.win w).arr.view.set]{(rdatsF m 1 c).share w} A w : sProp 𝕄))
        = (pdatsF m 1 c).arrays A from rfl))
      iexact Ha
    iintro ⟨Ha, HO, HY, Hrest⟩
    ihave Ha' := hopen $$ Ha
    icases Ha' with ⟨%A, Ha⟩
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (Y3 m c) (fun b => X4 m c A b) A (fun w => (X4_arr m c A w).symm)
      (fun b hb => X4_of_ne m c A b fun w e => hb (Finset.mem_image.mpr ⟨w, Finset.mem_univ _, e⟩))
    rw [Pipeline.unscopedBufs_held] at hjoin
    imodintro
    iexists A
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

abbrev segsF : List (Pipeline.RDat.Seg (pcfgs (F := F)) adm (rdatsF m) () defs₀ 𝒱f Lf lvf) :=
  [ .host (hsegF hostOps0 hostOps0_sub hostOps0_fresh (X0 m)),
    .region (regF0 m),
    .host (hsegF hostOps1 hostOps1_sub hostOps1_fresh (X2 m)),
    .region (regF1 m),
    .host (hsegE m) ]
theorem main_runF (c : Dev nD) : main (F := F) c = Pipeline.RDat.Seg.run (segsF m) := (main_chain c).trans (by chain_rfl)

abbrev TF (c : Dev nD) : sProp 𝕄 := iprop(∃ A, StableHlo.held (c : Thread nD τ) (Pipeline.ucRefs τ sig) (X5 m c A) ∗ ∃ r, prngReg c r)

set_option backward.isDefEq.respectTransparency.types false in
/-- THE FRAME at any float instance: every weakly fair execution of @main ends, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdatsF m) () cellOf_inj emb₁ defs₀ 𝒱f Lf lvf m ρ main (segsF m)
    (fun c Q => by rw [main_runF m c])
    (by simp only [segsF, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Rf c)) (Tₙ := TF m)
    (hch := ⟨fun _ => .rfl, fun _ => .rfl, fun _ => .rfl, fun _ => .rfl, fun _ => .rfl, fun c => by
      show (iprop(∃ A, StableHlo.held (c : Thread nD τ) (Pipeline.ucRefs τ sig) (X5 m c A) ∗ Rf c) : sProp 𝕄) ⊢ _
      iintro ⟨%A, Hh, Hp, HO⟩
      isplitl [Hh Hp]
      · iexists A
        isplitl [Hh]; · iexact Hh
        iexact Hp
      iexact HO⟩)
    (hinit := by
      refine Pipeline.initEach Lf lvf fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      iintro ⟨⟨%A, Hh, -⟩, HSI⟩
      unfold StableHlo.held
      ihave Hr := (pointsTo_read_all (Pipeline.ucRefs τ sig) (fun b => ((c : Thread nD τ).1, b)) (X5 m c A) s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans
            (X5_plain m c A main_arg0 (by decide) (by decide) (by decide) (by decide) (by decide)),
          (h (Proc.devRef .tc main_arg1) (Finset.mem_filter.mpr ⟨StableHlo.devRef_mem_tcRefs main_arg1, by decide⟩)).trans
            (X5_input m c A 0 rfl (by decide) (by decide) (by decide) (by decide)),
          (h (Proc.devRef .tc main_arg2) (Finset.mem_filter.mpr ⟨StableHlo.devRef_mem_tcRefs main_arg2, by decide⟩)).trans
            (X5_plain m c A main_arg2 (by decide) (by decide) (by decide) (by decide) (by decide)),
          (h (Proc.devRef .tc main_arg3) (Finset.mem_filter.mpr ⟨StableHlo.devRef_mem_tcRefs main_arg3, by decide⟩)).trans
            (X5_input m c A 1 rfl (by decide) (by decide) (by decide) (by decide)),
          (h (Proc.devRef .tc main_arg4) (Finset.mem_filter.mpr ⟨StableHlo.devRef_mem_tcRefs main_arg4, by decide⟩)).trans
            (X5_plain m c A main_arg4 (by decide) (by decide) (by decide) (by decide) (by decide))⟩
      · iexact HSI)
    (hQ := fun s h c => h c)

end Cert.Kernel.Hand

end
-- ==== Proof.lean ====
/-
  The certificate of the int4-dequantise-then-multiply kernel against its jnp reference.

  Over the extended reals both programs compute, at `(b, s, n)`, the sum over the 4096 rows `k` of `x (b, s, k)` times the
  dequantised weight `(field (n % 8) of qweight (k, n / 8) − field (n % 8) of qzeros (0, n / 8)) · scales n`, plus `bias n`
  (`Cert.Spec.result`). The kernel program dequantises in one call (a column-wise body over blocks of 1024 × 1024, the last
  column block holding 768 columns of the array) and multiplies in a second, contracting in eight slabs of 512 with a
  carried accumulator; a product column reads only that column of the weights, so the columns past the array's end, whose
  staging words nothing names, reach no entry that is written back. The reference unpacks with a broadcast shift, and
  contracts at once; the two sums differ by a regrouping, which holds in any commutative monoid: the precondition (finite
  inputs) is not used.

  The frames: the reference's is its run; the idealized kernel's and the bit-exact kernel's are one argument at any float
  instance, in which the first call's result is named (its body is column-wise) and the second call's is not (at the
  bit-exact instance the matrix unit's result is not a function of the operand's named part), the final reshape running at
  whatever the second call left.
-/
import proofs.«403986_j20675972563491_3_alg».proof.Defs
import proofs.«403986_j20675972563491_3_alg».proof.Proof.Gen.Kernel
import proofs.«403986_j20675972563491_3_alg».proof.Proof.Gen.KernelIdeal
import proofs.«403986_j20675972563491_3_alg».proof.Proof.Gen.ReferenceIdeal
import proofs.«403986_j20675972563491_3_alg».proof.Proof.Gen.Pre_finite_inputs
import proofs.«403986_j20675972563491_3_alg».proof.Proof.Gen.ReferenceIdeal.Run
import proofs.«403986_j20675972563491_3_alg».proof.Proof.Gen.ReferenceIdeal.Read
import proofs.«403986_j20675972563491_3_alg».proof.Proof.RefValue
import proofs.«403986_j20675972563491_3_alg».proof.Proof.KI.Final
import proofs.«403986_j20675972563491_3_alg».proof.Proof.KI.RunF
import proofs.«403986_j20675972563491_3_alg».proof.Proof.K.RunF
import Idealize.ShloMosaic.Adequacy
import Idealize.ShloMosaic.Init

noncomputable section

namespace Cert.Proof

open Idealize.ShloMosaic Idealize.SL.Sem Idealize.ShloMosaic.ValueIdx

/-- The bit-exact kernel program runs to its end and leaves its arguments alone. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification of the arguments in their result. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun n => m ((c.tc : Thread Cert.KernelIdeal.nD Cert.KernelIdeal.τ).loc Cert.KernelIdeal.main_arg2) (ix1 n))
      (m ((c.tc : Thread Cert.KernelIdeal.nD Cert.KernelIdeal.τ).loc Cert.KernelIdeal.main_arg3))
      (fun n => m ((c.tc : Thread Cert.KernelIdeal.nD Cert.KernelIdeal.τ).loc Cert.KernelIdeal.main_arg4) (ix1 n)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
